-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x6 : Shape := ⟨2, ![4096, 6]⟩
abbrev S4096x8192 : Shape := ⟨2, ![4096, 8192]⟩
abbrev S256x8192 : Shape := ⟨2, ![256, 8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S256x8192 : S_.BroadcastsInDim S256x8192 (![] : Fin 0 → Fin S256x8192.rank)
  reducesTo_S256x8192_S_d0_1 : S256x8192.ReducesTo [0, 1] S_

variable [Facts]

def fn_part1 {F : FTy → Type} [FloatOps F] (main_v13 : IVec S_ 1) (main_v16 : IVec S256x8192 1) : IVec S_ 1 :=
  let main_c_5 : IVec S_ 1 := constantI S_ 1 1#1
  let main_v17 : IVec S_ 1 := (fun x v => Host.reduce IntOp.andi x v reducesTo_S256x8192_S_d0_1 h_S_) main_v16 main_c_5
  let main_v18 : IVec S_ 1 := andi main_v13 main_v17
  main_v18

def fn {F : FTy → Type} [FloatOps F] (main_arg0 : FVec F S4096x4096 .f32) (main_arg1 : IVec S4096x6 32) (main_arg2 : FVec F S4096x4096 .f32) (main_arg3 : FVec F S4096x8192 .f32) (main_arg4 : FVec F S256x8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x8192 .f32 := Host.absf main_arg3
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S256x8192 .f32 := Host.absf main_arg4
  let main_cst_4 : FVec F S_ .f32 := constant S_ .f32 0x7F800000#32
  let main_v15 : FVec F S256x8192 .f32 := broadcastInDim S256x8192 ![] bcast_S_S256x8192 main_cst_4
  let main_v16 : IVec S256x8192 1 := cmpf .olt main_v14 main_v15
  fn_part1 (F := F) main_v13 main_v16
-- ==== Kernel.lean ====
abbrev S4096x4096 : Shape := ⟨2, ![4096, 4096]⟩
abbrev S4096x6 : Shape := ⟨2, ![4096, 6]⟩
abbrev S4096x8192 : Shape := ⟨2, ![4096, 8192]⟩
abbrev S256x8192 : Shape := ⟨2, ![256, 8192]⟩
abbrev S_ : Shape := ⟨0, ![]⟩
abbrev S4096x6x1 : Shape := ⟨3, ![4096, 6, 1]⟩
abbrev S4096x6x4096 : Shape := ⟨3, ![4096, 6, 4096]⟩
abbrev S256x4096 : Shape := ⟨2, ![256, 4096]⟩
abbrev S1024x1024 : Shape := ⟨2, ![1024, 1024]⟩
abbrev S4096x256 : Shape := ⟨2, ![4096, 256]⟩
abbrev S256x1024 : Shape := ⟨2, ![256, 1024]⟩
abbrev S1024x256 : Shape := ⟨2, ![1024, 256]⟩

abbrev nBuf : Space → Nat
  | .hbm => 31
  | .vmem => 22
  | .smem => 0
  | _ => 0

abbrev bufTy : (tb : Table) → Fin (tcTables nBuf tb) → BufTy
  | .hbm, ⟨0, _⟩ => ⟨S4096x4096, .f32⟩
  | .hbm, ⟨1, _⟩ => ⟨S4096x6, .i32⟩
  | .hbm, ⟨2, _⟩ => ⟨S4096x4096, .f32⟩
  | .hbm, ⟨3, _⟩ => ⟨S4096x8192, .f32⟩
  | .hbm, ⟨4, _⟩ => ⟨S256x8192, .f32⟩
  | .hbm, ⟨5, _⟩ => ⟨S_, .i32⟩
  | .hbm, ⟨6, _⟩ => ⟨S4096x6, .i32⟩
  | .hbm, ⟨7, _⟩ => ⟨S4096x6, .i1⟩
  | .hbm, ⟨8, _⟩ => ⟨S_, .i32⟩
  | .hbm, ⟨9, _⟩ => ⟨S4096x6, .i32⟩
  | .hbm, ⟨10, _⟩ => ⟨S4096x6, .i32⟩
  | .hbm, ⟨11, _⟩ => ⟨S4096x6, .i32⟩
  | .hbm, ⟨12, _⟩ => ⟨S4096x6x1, .i32⟩
  | .hbm, ⟨13, _⟩ => ⟨S4096x6x4096, .f32⟩
  | .hbm, ⟨14, _⟩ => ⟨S_, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .bf16⟩
  | .hbm, ⟨20, _⟩ => ⟨S4096x4096, .bf16⟩
  | .hbm, ⟨21, _⟩ => ⟨S4096x4096, .f32⟩
  | .hbm, ⟨22, _⟩ => ⟨S4096x4096, .bf16⟩
  | .hbm, ⟨23, _⟩ => ⟨S4096x4096, .f32⟩
  | .hbm, ⟨24, _⟩ => ⟨S4096x4096, .bf16⟩
  | .hbm, ⟨25, _⟩ => ⟨S256x4096, .f32⟩
  | .hbm, ⟨26, _⟩ => ⟨S256x4096, .bf16⟩
  | .hbm, ⟨27, _⟩ => ⟨S256x4096, .f32⟩
  | .hbm, ⟨28, _⟩ => ⟨S256x4096, .bf16⟩
  | .hbm, ⟨29, _⟩ => ⟨S4096x4096, .bf16⟩
  | .hbm, ⟨30, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 1, 4], ![false, false, false]⟩

def k1_cond2 (i : grid1.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bcast_S_S4096x6 : S_.BroadcastsInDim S4096x6 (![] : Fin 0 → Fin S4096x6.rank)
  bcast_S4096x6_S4096x6x1_0_1 : S4096x6.BroadcastsInDim S4096x6x1 (![0, 1] : Fin 2 → Fin S4096x6x1.rank)
  reducesTo_S4096x6x4096_S4096x4096_d1 : S4096x6x4096.ReducesTo [1] S4096x4096
  h_S_ : 0 < S_.numel
  bcast_S_S4096x4096 : S_.BroadcastsInDim S4096x4096 (![] : Fin 0 → Fin S4096x4096.rank)
  bitsLt_bf16_f32 : FTy.bits .bf16 < FTy.bits .f32
  slices_S4096x8192_S4096x4096_0_0 : S4096x8192.Slices ![0, 0] S4096x4096
  slices_S4096x8192_S4096x4096_0_4096 : S4096x8192.Slices ![0, 4096] S4096x4096
  slices_S256x8192_S256x4096_0_0 : S256x8192.Slices ![0, 0] S256x4096
  slices_S256x8192_S256x4096_0_4096 : S256x8192.Slices ![0, 4096] S256x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  gather_S4096x4096_S4096x6x1_S4096x6x4096_2_0_n_n_0_2_14096_wf : GatherDims.WF S4096x4096 S4096x6x1 S4096x6x4096 [2] [0] [] [0] [] 2 ![1, 4096]
  dot_S1024x1024_S1024x1024_S1024x1024_1_1_0_0_n_n_wf : DotDims.WF S1024x1024 S1024x1024 S1024x1024 [1] [1] [0] [0] [] []
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x4096.size a
  hwx1_2 : ∀ i : grid1.Coords, EltTy.bits .bf16 = 32 ∨ (Rect.block (s := S256x4096) S256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x4096.size a
  hwx1_3 : ∀ i : grid1.Coords, EltTy.bits .bf16 = 32 ∨ (Rect.block (s := S256x4096) S256x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S4096x256.size a
  hwx1_4 : ∀ i : grid1.Coords, EltTy.bits .f32 = 32 ∨ (Rect.block (s := S4096x256) S1024x256.size (cc1_transform_4 i) (hinb1_4 i)).WholeWords (EltTy.packing .f32)

variable [Facts₀]

def gather_S4096x4096_S4096x6x1_S4096x6x4096_2_0_n_n_0_2_14096 : GatherDims S4096x4096 S4096x6x1 S4096x6x4096 where
  offsetDims := [2]
  collapsedSliceDims := [0]
  operandBatchingDims := []
  startIndicesBatchingDims := []
  startIndexMap := [0]
  indexVectorDim := 2
  sliceSizes := ![1, 4096]
  wf := gather_S4096x4096_S4096x6x1_S4096x6x4096_2_0_n_n_0_2_14096_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v20) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x6 : Shape := ⟨2, ![4096, 6]⟩
abbrev S4096x8192 : Shape := ⟨2, ![4096, 8192]⟩
abbrev S256x8192 : Shape := ⟨2, ![256, 8192]⟩
abbrev S_ : Shape := ⟨0, ![]⟩
abbrev S4096x6x1 : Shape := ⟨3, ![4096, 6, 1]⟩
abbrev S4096x6x4096 : Shape := ⟨3, ![4096, 6, 4096]⟩
abbrev S8192x4096 : Shape := ⟨2, ![8192, 4096]⟩
abbrev S8192x256 : Shape := ⟨2, ![8192, 256]⟩
abbrev S4096x256 : Shape := ⟨2, ![4096, 256]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x6, .i32⟩
  | .hbm, ⟨2, _⟩ => ⟨S4096x4096, .f32⟩
  | .hbm, ⟨3, _⟩ => ⟨S4096x8192, .f32⟩
  | .hbm, ⟨4, _⟩ => ⟨S256x8192, .f32⟩
  | .hbm, ⟨5, _⟩ => ⟨S_, .i32⟩
  | .hbm, ⟨6, _⟩ => ⟨S4096x6, .i32⟩
  | .hbm, ⟨7, _⟩ => ⟨S4096x6, .i1⟩
  | .hbm, ⟨8, _⟩ => ⟨S_, .i32⟩
  | .hbm, ⟨9, _⟩ => ⟨S4096x6, .i32⟩
  | .hbm, ⟨10, _⟩ => ⟨S4096x6, .i32⟩
  | .hbm, ⟨11, _⟩ => ⟨S4096x6, .i32⟩
  | .hbm, ⟨12, _⟩ => ⟨S4096x6x1, .i32⟩
  | .hbm, ⟨13, _⟩ => ⟨S4096x6x4096, .f32⟩
  | .hbm, ⟨14, _⟩ => ⟨S_, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x8192, .f32⟩
  | .hbm, ⟨20, _⟩ => ⟨S8192x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x8192, .f32⟩
  | .hbm, ⟨26, _⟩ => ⟨S8192x256, .f32⟩
  | .hbm, ⟨27, _⟩ => ⟨S4096x256, .f32⟩
  | .hbm, ⟨28, _⟩ => ⟨S_, .f32⟩
  | .hbm, ⟨29, _⟩ => ⟨S4096x256, .f32⟩
  | .hbm, ⟨30, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S4096x6 : S_.BroadcastsInDim S4096x6 (![] : Fin 0 → Fin S4096x6.rank)
  bcast_S4096x6_S4096x6x1_0_1 : S4096x6.BroadcastsInDim S4096x6x1 (![0, 1] : Fin 2 → Fin S4096x6x1.rank)
  reducesTo_S4096x6x4096_S4096x4096_d1 : S4096x6x4096.ReducesTo [1] S4096x4096
  h_S_ : 0 < S_.numel
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  transposes_S4096x8192_S8192x4096_1_0 : S4096x8192.Transposes [1, 0] S8192x4096
  transposes_S256x8192_S8192x256_1_0 : S256x8192.Transposes [1, 0] S8192x256
  bcast_S_S4096x256 : S_.BroadcastsInDim S4096x256 (![] : Fin 0 → Fin S4096x256.rank)
  gather_S4096x4096_S4096x6x1_S4096x6x4096_2_0_n_n_0_2_14096_wf : GatherDims.WF S4096x4096 S4096x6x1 S4096x6x4096 [2] [0] [] [0] [] 2 ![1, 4096]
  dot_S4096x8192_S8192x4096_S4096x4096_1_0_0_1_n_n_wf : DotDims.WF S4096x8192 S8192x4096 S4096x4096 [1] [0] [0] [1] [] []
  dot_S4096x8192_S8192x256_S4096x256_1_0_0_1_n_n_wf : DotDims.WF S4096x8192 S8192x256 S4096x256 [1] [0] [0] [1] [] []

variable [Facts₀]

def gather_S4096x4096_S4096x6x1_S4096x6x4096_2_0_n_n_0_2_14096 : GatherDims S4096x4096 S4096x6x1 S4096x6x4096 where
  offsetDims := [2]
  collapsedSliceDims := [0]
  operandBatchingDims := []
  startIndicesBatchingDims := []
  startIndexMap := [0]
  indexVectorDim := 2
  sliceSizes := ![1, 4096]
  wf := gather_S4096x4096_S4096x6x1_S4096x6x4096_2_0_n_n_0_2_14096_wf
def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.Bits.L1Scoped.lean ====
/-
  The first matmul layer's call keeps ONE scoped buffer of its own between grid points, the f32 accumulator
  (a 1024×1024 scratch). Every other scoped buffer of the core that is no staging buffer of this call belongs to
  the second layer's call: its ten staging buffers and its accumulator. The region invariant holds those at
  arbitrary contents; this module names that part and splits the class invariant into "the accumulator, the
  other call's buffers, the generator register" and back.
-/
import proofs.«116527_j78125455114733_1_alg».proof.Proof.Gen.Kernel.Launch
import proofs.«116527_j78125455114733_1_alg».proof.Proof.Gen.Kernel.Skeleton
import proofs.«116527_j78125455114733_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The first layer's accumulator as a memref: the call's whole scratch buffer. -/
abbrev accL1 : Memref sig .tc .vmem S1024x1024 .f32 := Memref.whole cc0_scratch0

/-- The scoped buffers of the second layer's call (its staging buffers and its accumulator), each whole at some contents. -/
def keptL1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant is the accumulator at some contents, the other call's buffers, the generator register. -/
theorem PhiA_eqL1 (c : Dev nD) :
    (Pipeline.ΦA spec0 c : sProp 𝕄)
      = iprop(iprop((∃ d, owns (c : Thread nD τ) accL1 fullShare d) ∗ keptL1 c) ∗ (∃ r, prngReg c r)) := by
  unfold Pipeline.ΦA keptL1; rw [scopedRest0_eq]; simp only [accL1, owns_whole]; try rfl

end Cert.Kernel.Frm

end
-- ==== Proof.Bits.L1Blocks.lean ====
/-
  The first matmul layer, h = relu(x · W1xᵀ + agg · W1aᵀ), runs on a 4 × 4 × 4 grid: point t = (i, j, k) works on
  row block i, column block j and the k-th 1024-wide slab of the contracted axis. This module holds what every
  case of the body shares: each window's block at a point, read off the array as the region finds it; that an
  input's staging buffer holds that block at every point; the two branch conditions of the body (k = 0 resets
  the accumulator, k = 3 stores the output block) in closed form over the grid; where the output window is idle
  and not written back (k ≠ 3); and the staging memrefs the pipeline passes to the body.
-/
import proofs.«116527_j78125455114733_1_alg».proof.Proof.Bits.L1Scoped

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

-- the contents of the TensorCore's buffers when the region is entered: a parameter, fixed by the run
variable (V : (c : Dev nD) → (b : Ref sig .tc) → Buf (Elt F) ((c : Thread nD τ).loc b))

/-! ## The windows' blocks -/

/-- Window `w`'s block at point `t`, read off its array as the region finds it. -/
def iblkL1 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data over these arrays
    whose body leaves the block in place. -/
theorem beforeL1_0_of {c : Dev nD} (dat : Dat τ (Elt F) Unit ℕ (UR sig nD τ) ℕ cfg0 c) (hA : dat.A 0 = V c (Pipeline.arrRef spec0 0))
    (hafter : ∀ t, dat.after 0 t = iblkL1 V c 0 t) (t : Fin cfg0.N) (d) : dat.before 0 t d = iblkL1 V c 0 t :=
  (dat.before_in_eq_fetched 0 rfl (fun _ => rfl) (fun _ _ _ => rfl) (fun t => by rw [hafter]; unfold Dat.blockOf iblkL1; rw [hA]; try rfl) t d).trans
    (by unfold Dat.fetched Dat.blockOf iblkL1; rw [hA]; try rfl)

/-- Input window 1's current staging buffer holds its block at every point, for any proof data over these arrays
    whose body leaves the block in place. -/
theorem beforeL1_1_of {c : Dev nD} (dat : Dat τ (Elt F) Unit ℕ (UR sig nD τ) ℕ cfg0 c) (hA : dat.A 1 = V c (Pipeline.arrRef spec0 1))
    (hafter : ∀ t, dat.after 1 t = iblkL1 V c 1 t) (t : Fin cfg0.N) (d) : dat.before 1 t d = iblkL1 V c 1 t :=
  (dat.before_in_eq_fetched 1 rfl (fun _ => rfl) (fun _ _ _ => rfl) (fun t => by rw [hafter]; unfold Dat.blockOf iblkL1; rw [hA]; try rfl) t d).trans
    (by unfold Dat.fetched Dat.blockOf iblkL1; rw [hA]; try rfl)

/-- Input window 2's current staging buffer holds its block at every point, for any proof data over these arrays
    whose body leaves the block in place. -/
theorem beforeL1_2_of {c : Dev nD} (dat : Dat τ (Elt F) Unit ℕ (UR sig nD τ) ℕ cfg0 c) (hA : dat.A 2 = V c (Pipeline.arrRef spec0 2))
    (hafter : ∀ t, dat.after 2 t = iblkL1 V c 2 t) (t : Fin cfg0.N) (d) : dat.before 2 t d = iblkL1 V c 2 t :=
  (dat.before_in_eq_fetched 2 rfl (fun _ => rfl) (fun _ _ _ => rfl) (fun t => by rw [hafter]; unfold Dat.blockOf iblkL1; rw [hA]; try rfl) t d).trans
    (by unfold Dat.fetched Dat.blockOf iblkL1; rw [hA]; try rfl)

/-- Input window 3's current staging buffer holds its block at every point, for any proof data over these arrays
    whose body leaves the block in place. -/
theorem beforeL1_3_of {c : Dev nD} (dat : Dat τ (Elt F) Unit ℕ (UR sig nD τ) ℕ cfg0 c) (hA : dat.A 3 = V c (Pipeline.arrRef spec0 3))
    (hafter : ∀ t, dat.after 3 t = iblkL1 V c 3 t) (t : Fin cfg0.N) (d) : dat.before 3 t d = iblkL1 V c 3 t :=
  (dat.before_in_eq_fetched 3 rfl (fun _ => rfl) (fun _ _ _ => rfl) (fun t => by rw [hafter]; unfold Dat.blockOf iblkL1; rw [hA]; try rfl) t d).trans
    (by unfold Dat.fetched Dat.blockOf iblkL1; rw [hA]; try rfl)

/-! ## The body's two branch conditions over the grid -/

/-- "This is the first slab of the contracted axis" (k = 0): the accumulator is reset. -/
abbrev condL1_0 (i : grid0.Coords) : Prop := (Scalar.cmpi .ne (Scalar.extui (Scalar.cmpi .eq (BitVec.ofNat 32 (i 2).val) 0#32)) 0#32) = 1#1
/-- It holds at the points ≡ 0 (mod 4). -/
theorem hcondL1_0 : ∀ t : Fin cfg0.N, condL1_0 (grid0.coords t) ↔ t.val % 4 = 0 :=
  (by decide +kernel : ∀ t : Fin grid0.N, condL1_0 (grid0.coords t) ↔ t.val % 4 = 0)

/-- "This is the last slab" (k = 3): the output block is stored. -/
abbrev condL1_1 (i : grid0.Coords) : Prop := k0_cond2 i = 1#1
/-- It holds at the points ≡ 3 (mod 4). -/
theorem hcondL1_1 : ∀ t : Fin cfg0.N, condL1_1 (grid0.coords t) ↔ t.val % 4 = 3 :=
  (by decide +kernel : ∀ t : Fin grid0.N, condL1_1 (grid0.coords t) ↔ t.val % 4 = 3)

/-! ## Where the windows are idle -/

theorem liveL1_0 : ∀ t : Fin cfg0.N, cfg0.idle 0 (grid0.coords t) = false := by decide +kernel
theorem liveL1_1 : ∀ t : Fin cfg0.N, cfg0.idle 1 (grid0.coords t) = false := by decide +kernel
theorem liveL1_2 : ∀ t : Fin cfg0.N, cfg0.idle 2 (grid0.coords t) = false := by decide +kernel
theorem liveL1_3 : ∀ t : Fin cfg0.N, cfg0.idle 3 (grid0.coords t) = false := by decide +kernel
/-- Unless k = 3 the output window is idle (nothing is stored into it) -/
theorem idleL1_4 : ∀ t : Fin cfg0.N, ¬condL1_1 (grid0.coords t) → cfg0.idle 4 (grid0.coords t) = true := by decide +kernel
/-- and is not written back. -/
theorem noFlushL1_4 : ∀ t : Fin cfg0.N, ¬condL1_1 (grid0.coords t) → (cfg0.win 4).flush t = false := by decide +kernel
/-- At k = 3 it is live. -/
theorem liveL1_4 : ∀ t : Fin cfg0.N, condL1_1 (grid0.coords t) → cfg0.idle 4 (grid0.coords t) = false := by decide +kernel

/-! ## The memrefs the pipeline passes to the body -/

/-- One staging buffer of the output window, through which its contents are stated. -/
abbrev VOL1 : View sig .tc .vmem ShO EtO := (Memref.whole cc0_stg4_0 : Memref sig .tc .vmem ShO EtO).view
abbrev msL1_0 (t : Fin cfg0.N) : Memref sig .tc .vmem ShA .bf16 := win0_0.stage (cfg0.slots t 0)
abbrev hsL1_0 (t : Fin cfg0.N) : (msL1_0 t).IsWhole := hstage0_0 ((cfg0.slots t 0).cast nbuf0_0)
abbrev msL1_1 (t : Fin cfg0.N) : Memref sig .tc .vmem ShA .bf16 := win0_1.stage (cfg0.slots t 1)
abbrev hsL1_1 (t : Fin cfg0.N) : (msL1_1 t).IsWhole := hstage0_1 ((cfg0.slots t 1).cast nbuf0_1)
abbrev msL1_2 (t : Fin cfg0.N) : Memref sig .tc .vmem ShB .bf16 := win0_2.stage (cfg0.slots t 2)
abbrev hsL1_2 (t : Fin cfg0.N) : (msL1_2 t).IsWhole := hstage0_2 ((cfg0.slots t 2).cast nbuf0_2)
abbrev msL1_3 (t : Fin cfg0.N) : Memref sig .tc .vmem ShB .bf16 := win0_3.stage (cfg0.slots t 3)
abbrev hsL1_3 (t : Fin cfg0.N) : (msL1_3 t).IsWhole := hstage0_3 ((cfg0.slots t 3).cast nbuf0_3)
abbrev msL1_4 (t : Fin cfg0.N) : Memref sig .tc .vmem ShO EtO := win0_4.stage (cfg0.slots t 4)
abbrev hsL1_4 (t : Fin cfg0.N) : (msL1_4 t).IsWhole := hstage0_4 ((cfg0.slots t 4).cast nbuf0_4)
/-- The accumulator as a view: what it holds is stated through it. -/
abbrev VSL1 : View sig .tc .vmem ShO .f32 := accL1.view

end Cert.Kernel.Frm

end
-- ==== Proof.Bits.L1Reset.lean ====
/-
  The body at a point with k = 0. The accumulator is reset to zero, then the two products of this slab are added
  to it; nothing is stored into the output block. Stated on arbitrary whole memrefs: the four input blocks at
  their contents, the output's buffer at contents handed back untouched, the accumulator at anything on entry.
  What the accumulator ends with is a list of stored pieces, found by running the body.
-/
import proofs.«116527_j78125455114733_1_alg».proof.Proof.Bits.L1Blocks

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

set_option maxHeartbeats 4000000 in
/-- The body's run when k = 0 (the reset is taken, the output store is not). -/
noncomputable def kernelRunL1_A (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL1_0 i) (hc1 : ¬condL1_1 i)
    (x0 : Vec F ShA .bf16) (x1 : Vec F ShA .bf16) (x2 : Vec F ShB .bf16) (x3 : Vec F ShB .bf16) :
    Σ' (L4 : List (View.Piece (Elt F) ShO EtO)), { LS0 : List (View.Piece (Elt F) ShO .f32) //
      ∀ (xi4 : Vec F ShO EtO) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨[], ?_, fun xi4 E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frm

end
-- ==== Proof.Bits.L1Accum.lean ====
/-
  The body at a point with k = 1 or k = 2. The accumulator, holding what the point before left, takes the two
  products of this slab; nothing is stored into the output block.
-/
import proofs.«116527_j78125455114733_1_alg».proof.Proof.Bits.L1Reset

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

set_option maxHeartbeats 4000000 in
/-- The body's run when 0 < k < 3 (neither branch is taken). -/
noncomputable def kernelRunL1_B (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : ¬condL1_1 i)
    (x0 : Vec F ShA .bf16) (x1 : Vec F ShA .bf16) (x2 : Vec F ShB .bf16) (x3 : Vec F ShB .bf16) (xs0 : Vec F ShO .f32) :
    Σ' (L4 : List (View.Piece (Elt F) ShO EtO)), { LS0 : List (View.Piece (Elt F) ShO .f32) //
      ∀ (xi4 : Vec F ShO EtO) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨[], ?_, fun xi4 E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frm

end
-- ==== Proof.Bits.L1Emit.lean ====
/-
  The body at a point with k = 3. The accumulator takes the last slab's two products, and the output block is
  stored: the accumulator clamped below at zero.
-/
import proofs.«116527_j78125455114733_1_alg».proof.Proof.Bits.L1Accum

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

set_option maxHeartbeats 4000000 in
/-- The body's run when k = 3 (the reset is not taken, the output store is). -/
noncomputable def kernelRunL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) :
    Σ' (L4 : List (View.Piece (Elt F) ShO EtO)), { LS0 : List (View.Piece (Elt F) ShO .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨?_, ?_, fun E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Frm

end
-- ==== Proof.Bits.L1Data.lean ====
/-
  The first matmul layer's region, point by point. For each of the three cases of the body (k = 0, 0 < k < 3,
  k = 3): what it leaves in the accumulator, and at k = 3 in the output block, as the stored pieces read back, with
  the fact that the pieces cover the buffer. Then the accumulation over the grid: what the output's staging buffer
  and the accumulator hold after point n, by recursion on n — at k = 0 from the point's blocks alone, otherwise
  over what point n − 1 left in the accumulator. The region invariant carries the accumulator at exactly that
  value from one point to the next (before the first point it is the class invariant: the accumulator at
  anything). With these the proof data of the pipeline are stated and the body's obligation is met at every
  point.
-/
import proofs.«116527_j78125455114733_1_alg».proof.Proof.Bits.L1Emit

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

variable (V : (c : Dev nD) → (b : Ref sig .tc) → Buf (Elt F) ((c : Thread nD τ).loc b))

/-! ## What each case leaves -/

/-- The k = 0 case's pieces cover the accumulator. -/
theorem scoverL1_A (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL1_0 i) (hc1 : ¬condL1_1 i)
    (x0 : Vec F ShA .bf16) (x1 : Vec F ShA .bf16) (x2 : Vec F ShB .bf16) (x3 : Vec F ShB .bf16) (y : Shape.Idx ShO) :
    ∃ pc ∈ (kernelRunL1_A c i arg3 harg3 arg4 harg4 arg5 harg5 arg6 harg6 arg7 harg7 arg8 harg8 hc0 hc1 x0 x1 x2 x3).2.1, y ∈ pc.1.set :=
  View.cover_of_tiledL (kernelRunL1_A c i arg3 harg3 arg4 harg4 arg5 harg5 arg6 harg6 arg7 harg7 arg8 harg8 hc0 hc1 x0 x1 x2 x3).2.1 (Shape.size ShO) (by sl_kernel_rfl) y

/-- What the k = 0 case leaves in the accumulator: the two products of slab 0 added to zero. -/
def soutL1_A (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL1_0 i) (hc1 : ¬condL1_1 i)
    (x0 : Vec F ShA .bf16) (x1 : Vec F ShA .bf16) (x2 : Vec F ShB .bf16) (x3 : Vec F ShB .bf16) : Vec F ShO .f32 :=
  VSL1.read (Elt F) (VSL1.writes (Elt F) VSL1.junk (kernelRunL1_A c i arg3 harg3 arg4 harg4 arg5 harg5 arg6 harg6 arg7 harg7 arg8 harg8 hc0 hc1 x0 x1 x2 x3).2.1)

/-- The 0 < k < 3 case's pieces cover the accumulator. -/
theorem scoverL1_B (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : ¬condL1_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL1_B c i arg3 harg3 arg4 harg4 arg5 harg5 arg6 harg6 arg7 harg7 arg8 harg8 hc0 hc1 x0 x1 x2 x3 xs0).2.1, y ∈ pc.1.set :=
  View.cover_of_tiledL (kernelRunL1_B c i arg3 harg3 arg4 harg4 arg5 harg5 arg6 harg6 arg7 harg7 arg8 harg8 hc0 hc1 x0 x1 x2 x3 xs0).2.1 (Shape.size ShO) (by sl_kernel_rfl) y

/-- What the 0 < k < 3 case leaves in the accumulator: this slab's two products added to what it held. -/
def soutL1_B (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : ¬condL1_1 i)
    (x0 : Vec F ShA .bf16) (x1 : Vec F ShA .bf16) (x2 : Vec F ShB .bf16) (x3 : Vec F ShB .bf16) (xs0 : Vec F ShO .f32) : Vec F ShO .f32 :=
  VSL1.read (Elt F) (VSL1.writes (Elt F) VSL1.junk (kernelRunL1_B c i arg3 harg3 arg4 harg4 arg5 harg5 arg6 harg6 arg7 harg7 arg8 harg8 hc0 hc1 x0 x1 x2 x3 xs0).2.1)

/-- The k = 3 case's pieces for the output block cover it. -/
theorem coverL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL1_C c i arg3 harg3 arg4 harg4 arg5 harg5 arg6 harg6 arg7 harg7 arg8 harg8 hc0 hc1 x0 x1 x2 x3 xs0).1, y ∈ pc.1.set :=
  View.cover_of_tiledL (kernelRunL1_C c i arg3 harg3 arg4 harg4 arg5 harg5 arg6 harg6 arg7 harg7 arg8 harg8 hc0 hc1 x0 x1 x2 x3 xs0).1 (Shape.size ShO) (by sl_kernel_rfl) y

/-- What the k = 3 case leaves in the output's staging buffer: the final accumulator clamped below at zero. -/
def outL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) : Vec F ShO EtO :=
  VOL1.read (Elt F) (VOL1.writes (Elt F) VOL1.junk (kernelRunL1_C c i arg3 harg3 arg4 harg4 arg5 harg5 arg6 harg6 arg7 harg7 arg8 harg8 hc0 hc1 x0 x1 x2 x3 xs0).1)

/-- The k = 3 case's pieces cover the accumulator. -/
theorem scoverL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL1_C c i arg3 harg3 arg4 harg4 arg5 harg5 arg6 harg6 arg7 harg7 arg8 harg8 hc0 hc1 x0 x1 x2 x3 xs0).2.1, y ∈ pc.1.set :=
  View.cover_of_tiledL (kernelRunL1_C c i arg3 harg3 arg4 harg4 arg5 harg5 arg6 harg6 arg7 harg7 arg8 harg8 hc0 hc1 x0 x1 x2 x3 xs0).2.1 (Shape.size ShO) (by sl_kernel_rfl) y

/-- What the k = 3 case leaves in the accumulator. -/
def soutL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) : Vec F ShO .f32 :=
  VSL1.read (Elt F) (VSL1.writes (Elt F) VSL1.junk (kernelRunL1_C c i arg3 harg3 arg4 harg4 arg5 harg5 arg6 harg6 arg7 harg7 arg8 harg8 hc0 hc1 x0 x1 x2 x3 xs0).2.1)

/-- Where nothing is stored into the output block (k ≠ 3) its value is a placeholder nothing consults: the window is
    neither written back there nor read at the next point. -/
def idleOutL1 : Vec F ShO EtO := VOL1.read (Elt F) VOL1.junk

/-! ## The accumulation over the grid -/

/-- What the output's staging buffer and the accumulator hold after the body at position `n`. -/
def outsAtL1 (c : Dev nD) : (n : ℕ) → n < cfg0.N → Vec F ShO EtO × Vec F ShO .f32
  | 0, hn => (idleOutL1, soutL1_A c (grid0.coords ⟨0, hn⟩) (msL1_0 ⟨0, hn⟩) (hsL1_0 ⟨0, hn⟩) (msL1_1 ⟨0, hn⟩) (hsL1_1 ⟨0, hn⟩) (msL1_2 ⟨0, hn⟩) (hsL1_2 ⟨0, hn⟩) (msL1_3 ⟨0, hn⟩) (hsL1_3 ⟨0, hn⟩) (msL1_4 ⟨0, hn⟩) (hsL1_4 ⟨0, hn⟩) accL1 (Memref.isWhole_whole _) ((hcondL1_0 ⟨0, hn⟩).mpr (Nat.zero_mod _)) (fun h => (fun h => by (try dsimp only at h); omega) ((hcondL1_1 ⟨0, hn⟩).mp h)) (iblkL1 V c 0 ⟨0, hn⟩) (iblkL1 V c 1 ⟨0, hn⟩) (iblkL1 V c 2 ⟨0, hn⟩) (iblkL1 V c 3 ⟨0, hn⟩))
  | n + 1, hn =>
    if h0 : (n + 1) % 4 = 0 then
      if h1 : (n + 1) % 4 = 3 then
        False.elim (by omega)
      else
        (idleOutL1, soutL1_A c (grid0.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) accL1 (Memref.isWhole_whole _) ((hcondL1_0 ⟨n + 1, hn⟩).mpr h0) (fun h => h1 ((hcondL1_1 ⟨n + 1, hn⟩).mp h)) (iblkL1 V c 0 ⟨n + 1, hn⟩) (iblkL1 V c 1 ⟨n + 1, hn⟩) (iblkL1 V c 2 ⟨n + 1, hn⟩) (iblkL1 V c 3 ⟨n + 1, hn⟩))
    else
      if h1 : (n + 1) % 4 = 3 then
        (outL1_C c (grid0.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) accL1 (Memref.isWhole_whole _) (fun h => h0 ((hcondL1_0 ⟨n + 1, hn⟩).mp h)) ((hcondL1_1 ⟨n + 1, hn⟩).mpr h1) (iblkL1 V c 0 ⟨n + 1, hn⟩) (iblkL1 V c 1 ⟨n + 1, hn⟩) (iblkL1 V c 2 ⟨n + 1, hn⟩) (iblkL1 V c 3 ⟨n + 1, hn⟩) (outsAtL1 c n (Nat.lt_of_succ_lt hn)).2, soutL1_C c (grid0.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) accL1 (Memref.isWhole_whole _) (fun h => h0 ((hcondL1_0 ⟨n + 1, hn⟩).mp h)) ((hcondL1_1 ⟨n + 1, hn⟩).mpr h1) (iblkL1 V c 0 ⟨n + 1, hn⟩) (iblkL1 V c 1 ⟨n + 1, hn⟩) (iblkL1 V c 2 ⟨n + 1, hn⟩) (iblkL1 V c 3 ⟨n + 1, hn⟩) (outsAtL1 c n (Nat.lt_of_succ_lt hn)).2)
      else
        (idleOutL1, soutL1_B c (grid0.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) accL1 (Memref.isWhole_whole _) (fun h => h0 ((hcondL1_0 ⟨n + 1, hn⟩).mp h)) (fun h => h1 ((hcondL1_1 ⟨n + 1, hn⟩).mp h)) (iblkL1 V c 0 ⟨n + 1, hn⟩) (iblkL1 V c 1 ⟨n + 1, hn⟩) (iblkL1 V c 2 ⟨n + 1, hn⟩) (iblkL1 V c 3 ⟨n + 1, hn⟩) (outsAtL1 c n (Nat.lt_of_succ_lt hn)).2)

/-- At a point with k = 0. -/
theorem outsAtL1_A (c : Dev nD) (t : Fin cfg0.N) (h0 : t.val % 4 = 0) (h1 : ¬t.val % 4 = 3) :
    outsAtL1 V c t.val t.isLt = (idleOutL1, soutL1_A c (grid0.coords t) (msL1_0 t) (hsL1_0 t) (msL1_1 t) (hsL1_1 t) (msL1_2 t) (hsL1_2 t) (msL1_3 t) (hsL1_3 t) (msL1_4 t) (hsL1_4 t) accL1 (Memref.isWhole_whole _) ((hcondL1_0 t).mpr h0) (fun h => h1 ((hcondL1_1 t).mp h)) (iblkL1 V c 0 t) (iblkL1 V c 1 t) (iblkL1 V c 2 t) (iblkL1 V c 3 t)) := by
  obtain ⟨n, hn⟩ := t
  cases n with
  | zero => exact rfl
  | succ n => exact (dif_pos h0).trans ((dif_neg h1).trans rfl)

/-- At a point with 0 < k < 3: over what the point before left. -/
theorem outsAtL1_B (c : Dev nD) (t : Fin cfg0.N) (h0 : ¬t.val % 4 = 0) (h1 : ¬t.val % 4 = 3) :
    outsAtL1 V c t.val t.isLt = (idleOutL1, soutL1_B c (grid0.coords t) (msL1_0 t) (hsL1_0 t) (msL1_1 t) (hsL1_1 t) (msL1_2 t) (hsL1_2 t) (msL1_3 t) (hsL1_3 t) (msL1_4 t) (hsL1_4 t) accL1 (Memref.isWhole_whole _) (fun h => h0 ((hcondL1_0 t).mp h)) (fun h => h1 ((hcondL1_1 t).mp h)) (iblkL1 V c 0 t) (iblkL1 V c 1 t) (iblkL1 V c 2 t) (iblkL1 V c 3 t) (outsAtL1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAtL1_C (c : Dev nD) (t : Fin cfg0.N) (h0 : ¬t.val % 4 = 0) (h1 : t.val % 4 = 3) :
    outsAtL1 V c t.val t.isLt = (outL1_C c (grid0.coords t) (msL1_0 t) (hsL1_0 t) (msL1_1 t) (hsL1_1 t) (msL1_2 t) (hsL1_2 t) (msL1_3 t) (hsL1_3 t) (msL1_4 t) (hsL1_4 t) accL1 (Memref.isWhole_whole _) (fun h => h0 ((hcondL1_0 t).mp h)) ((hcondL1_1 t).mpr h1) (iblkL1 V c 0 t) (iblkL1 V c 1 t) (iblkL1 V c 2 t) (iblkL1 V c 3 t) (outsAtL1 V c (t.val - 1) (Nat.lt_of_le_of_lt (Nat.sub_le _ _) t.isLt)).2, soutL1_C c (grid0.coords t) (msL1_0 t) (hsL1_0 t) (msL1_1 t) (hsL1_1 t) (msL1_2 t) (hsL1_2 t) (msL1_3 t) (hsL1_3 t) (msL1_4 t) (hsL1_4 t) accL1 (Memref.isWhole_whole _) (fun h => h0 ((hcondL1_0 t).mp h)) ((hcondL1_1 t).mpr h1) (iblkL1 V c 0 t) (iblkL1 V c 1 t) (iblkL1 V c 2 t) (iblkL1 V c 3 t) (outsAtL1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (the accumulator at anything); afterwards the accumulator at
    what the point before left, the other call's scoped buffers at anything, the generator register at some state. -/
def PhiSL1 (c : Dev nD) : (n : ℕ) → n ≤ cfg0.N → sProp 𝕄
  | 0, _ => Pipeline.ΦA spec0 c
  | n + 1, hn => iprop(iprop(owns (c : Thread nD τ) accL1 fullShare ((outsAtL1 V c n hn).2) ∗ keptL1 c) ∗ (∃ r, prngReg c r))

theorem PhiSL1_zero (c : Dev nD) (n : ℕ) (h : n ≤ cfg0.N) (hz : n = 0) : PhiSL1 V c n h = Pipeline.ΦA spec0 c := by
  subst hz; rfl

theorem PhiSL1_succ (c : Dev nD) (n : ℕ) (hn : n < cfg0.N) :
    PhiSL1 V c (n + 1) hn = iprop(iprop(owns (c : Thread nD τ) accL1 fullShare ((outsAtL1 V c n hn).2) ∗ keptL1 c) ∗ (∃ r, prngReg c r)) := rfl

theorem PhiSL1_pos (c : Dev nD) (n : ℕ) (h : n ≤ cfg0.N) (hz : n ≠ 0) :
    PhiSL1 V c n h = iprop(iprop(owns (c : Thread nD τ) accL1 fullShare ((outsAtL1 V c (n - 1) (by omega)).2) ∗ keptL1 c) ∗ (∃ r, prngReg c r)) := by
  cases n with
  | zero => exact absurd rfl hz
  | succ n => rfl

/-! ## The pipeline's proof data -/

/-- The arrays as the region finds them; after the body at point `t` each input's buffer at its block and the output's
    at the accumulation's first component; the invariant above; nothing owed; full shares. -/
def datL1 (c : Dev nD) : Dat τ (Elt F) Unit ℕ (UR sig nD τ) ℕ cfg0 c where
  A w := V c (Pipeline.arrRef spec0 w)
  after w t := match w with
    | ⟨0, _⟩ => iblkL1 V c 0 t
    | ⟨1, _⟩ => iblkL1 V c 1 t
    | ⟨2, _⟩ => iblkL1 V c 2 t
    | ⟨3, _⟩ => iblkL1 V c 3 t
    | ⟨4, _⟩ => (outsAtL1 V c t.val t.isLt).1
  Φ t := PhiSL1 V c t.val (Nat.le_of_lt_succ t.isLt)
  q _ := fullShare
  owed _ := 0

theorem A_eqL1 (c : Dev nD) (w : Fin cfg0.W) : (datL1 V c).A w = V c (Pipeline.arrRef spec0 w) := by
  dsimp only [datL1]

theorem PhiSL1_castSucc (c : Dev nD) (t : Fin cfg0.N) :
    (datL1 V c).Φ t.castSucc = PhiSL1 V c t.val (Nat.le_of_lt t.isLt) := by
  dsimp only [datL1]; simp only [Fin.coe_castSucc]

theorem afterL1_0 (c : Dev nD) (t : Fin cfg0.N) : (datL1 V c).after 0 t = iblkL1 V c 0 t := by dsimp only [datL1]
theorem afterL1_1 (c : Dev nD) (t : Fin cfg0.N) : (datL1 V c).after 1 t = iblkL1 V c 1 t := by dsimp only [datL1]
theorem afterL1_2 (c : Dev nD) (t : Fin cfg0.N) : (datL1 V c).after 2 t = iblkL1 V c 2 t := by dsimp only [datL1]
theorem afterL1_3 (c : Dev nD) (t : Fin cfg0.N) : (datL1 V c).after 3 t = iblkL1 V c 3 t := by dsimp only [datL1]
theorem afterL1_4 (c : Dev nD) (t : Fin cfg0.N) : (datL1 V c).after 4 t = (outsAtL1 V c t.val t.isLt).1 := by dsimp only [datL1]

theorem beforeL1_0 (c : Dev nD) (t : Fin cfg0.N) (d) : (datL1 V c).before 0 t d = iblkL1 V c 0 t :=
  beforeL1_0_of V (datL1 V c) (A_eqL1 V c 0) (afterL1_0 V c) t d
theorem beforeL1_1 (c : Dev nD) (t : Fin cfg0.N) (d) : (datL1 V c).before 1 t d = iblkL1 V c 1 t :=
  beforeL1_1_of V (datL1 V c) (A_eqL1 V c 1) (afterL1_1 V c) t d
theorem beforeL1_2 (c : Dev nD) (t : Fin cfg0.N) (d) : (datL1 V c).before 2 t d = iblkL1 V c 2 t :=
  beforeL1_2_of V (datL1 V c) (A_eqL1 V c 2) (afterL1_2 V c) t d
theorem beforeL1_3 (c : Dev nD) (t : Fin cfg0.N) (d) : (datL1 V c).before 3 t d = iblkL1 V c 3 t :=
  beforeL1_3_of V (datL1 V c) (A_eqL1 V c 3) (afterL1_3 V c) t d

/-- An input's buffer is left at its block. -/
theorem leavesL1_0 (c : Dev nD) (t : Fin cfg0.N) : (datL1 V c).leavesExact 0 t = owns (c : Thread nD τ) (msL1_0 t) fullShare (iblkL1 V c 0 t) := by
  unfold Dat.leavesExact; rw [liveL1_0 t, afterL1_0]
theorem leavesL1_1 (c : Dev nD) (t : Fin cfg0.N) : (datL1 V c).leavesExact 1 t = owns (c : Thread nD τ) (msL1_1 t) fullShare (iblkL1 V c 1 t) := by
  unfold Dat.leavesExact; rw [liveL1_1 t, afterL1_1]
theorem leavesL1_2 (c : Dev nD) (t : Fin cfg0.N) : (datL1 V c).leavesExact 2 t = owns (c : Thread nD τ) (msL1_2 t) fullShare (iblkL1 V c 2 t) := by
  unfold Dat.leavesExact; rw [liveL1_2 t, afterL1_2]
theorem leavesL1_3 (c : Dev nD) (t : Fin cfg0.N) : (datL1 V c).leavesExact 3 t = owns (c : Thread nD τ) (msL1_3 t) fullShare (iblkL1 V c 3 t) := by
  unfold Dat.leavesExact; rw [liveL1_3 t, afterL1_3]

/-! ## The body obligation, at a generic point -/

def bodyPreL1 (c : Dev nD) (t : Fin cfg0.N) : sProp 𝕄 :=
  iprop((datL1 V c).Φ t.castSucc ∗ (datL1 V c).owesAt () t.castSucc
    ∗ (∃ d, owns (c : Thread nD τ) (msL1_0 t) fullShare ((datL1 V c).before 0 t d))
    ∗ (∃ d, owns (c : Thread nD τ) (msL1_1 t) fullShare ((datL1 V c).before 1 t d))
    ∗ (∃ d, owns (c : Thread nD τ) (msL1_2 t) fullShare ((datL1 V c).before 2 t d))
    ∗ (∃ d, owns (c : Thread nD τ) (msL1_3 t) fullShare ((datL1 V c).before 3 t d))
    ∗ (∃ d, owns (c : Thread nD τ) (msL1_4 t) fullShare ((datL1 V c).before 4 t d)))

def bodyPostL1 (c : Dev nD) (t : Fin cfg0.N) : sProp 𝕄 :=
  iprop((datL1 V c).Φ t.succ ∗ (datL1 V c).owesAt () t.succ
    ∗ (datL1 V c).leavesExact 0 t
    ∗ (datL1 V c).leavesExact 1 t
    ∗ (datL1 V c).leavesExact 2 t
    ∗ (datL1 V c).leavesExact 3 t
    ∗ (datL1 V c).leavesExact 4 t)

set_option maxHeartbeats 8000000 in
/-- The body at any point: the inputs' memrefs hold their blocks; the closed forms say which case the point is in; the
    invariant hands the body the accumulator at what the point before left (at anything when k = 0) and takes it back
    at this point's value; the core owes nothing throughout. -/
theorem sound_bodyL1 (c : Dev nD) (t : Fin cfg0.N) :
    bodyPreL1 V c t ⊢ wp frame (wpE (defs₀ (F := F)) Variants.none c none) Set.univ (bodyAt0 t) (fun _ => bodyPostL1 V c t) := by
  unfold bodyPreL1 bodyPostL1 bodyAt0
  simp only [beforeL1_0, beforeL1_1, beforeL1_2, beforeL1_3]
  rw [show (datL1 V c).owesAt () t.succ = (datL1 V c).owesAt () t.castSucc from rfl]
  rw [show (datL1 V c).Φ t.succ = PhiSL1 V c (t.val + 1) t.isLt from rfl, PhiSL1_succ]
  rw [leavesL1_0, leavesL1_1, leavesL1_2, leavesL1_3]
  by_cases h0 : t.val % 4 = 0
  · by_cases h1 : t.val % 4 = 3
    · exfalso; omega
    · rw [Dat.leavesExact_idle (datL1 V c) 4 t (idleL1_4 t (fun h => h1 ((hcondL1_1 t).mp h))) (noFlushL1_4 t (fun h => h1 ((hcondL1_1 t).mp h)))]
      rw [outsAtL1_A V c t h0 h1]
      unfold soutL1_A; (try dsimp only)
      by_cases hz : t.val = 0
      · rw [PhiSL1_castSucc V c t, PhiSL1_zero V c _ _ hz, PhiA_eqL1]
        iintro ⟨⟨⟨HS0, Hkp⟩, Hg⟩, Ho, ⟨%d0, H0⟩, ⟨%d1, H1⟩, ⟨%d2, H2⟩, ⟨%d3, H3⟩, ⟨%d4, H4⟩⟩
        iapply ((kernelRunL1_A c (grid0.coords t) _ _ _ _ _ _ _ _ _ _ _ _ ((hcondL1_0 t).mpr h0) (fun h => h1 ((hcondL1_1 t).mp h)) (iblkL1 V c 0 t) (iblkL1 V c 1 t) (iblkL1 V c 2 t) (iblkL1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hkp Hg]
        · isplitl [HS0 Hkp]
          · isplitl [HS0]
            · unfold owns; iexists _; isplitr
              swap; · iexact HS0
              ipureintro; exact View.read_writes_of_cover _ _ _ _ _ (scoverL1_A c _ _ _ _ _ _ _ _ _ _ _ _ _ _ _ _ _ _ _)
            iexact Hkp
          iexact Hg
        isplitl [Ho]; · iexact Ho
        isplitl [H0]; · iexact H0
        isplitl [H1]; · iexact H1
        isplitl [H2]; · iexact H2
        isplitl [H3]; · iexact H3
        iexists _; iexact H4
      · rw [PhiSL1_castSucc V c t, PhiSL1_pos V c _ _ hz]
        iintro ⟨⟨⟨HS0, Hkp⟩, Hg⟩, Ho, ⟨%d0, H0⟩, ⟨%d1, H1⟩, ⟨%d2, H2⟩, ⟨%d3, H3⟩, ⟨%d4, H4⟩⟩
        iapply ((kernelRunL1_A c (grid0.coords t) _ _ _ _ _ _ _ _ _ _ _ _ ((hcondL1_0 t).mpr h0) (fun h => h1 ((hcondL1_1 t).mp h)) (iblkL1 V c 0 t) (iblkL1 V c 1 t) (iblkL1 V c 2 t) (iblkL1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hkp Hg]
        · isplitl [HS0 Hkp]
          · isplitl [HS0]
            · unfold owns; iexists _; isplitr
              swap; · iexact HS0
              ipureintro; exact View.read_writes_of_cover _ _ _ _ _ (scoverL1_A c _ _ _ _ _ _ _ _ _ _ _ _ _ _ _ _ _ _ _)
            iexact Hkp
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 4 = 3
    · rw [show (datL1 V c).leavesExact 4 t = owns (c : Thread nD τ) (msL1_4 t) fullShare ((datL1 V c).after 4 t) from by
        unfold Dat.leavesExact; rw [liveL1_4 t ((hcondL1_1 t).mpr h1)], afterL1_4]
      rw [outsAtL1_C V c t h0 h1]
      unfold outL1_C soutL1_C; (try dsimp only)
      rw [PhiSL1_castSucc V c t, PhiSL1_pos V c _ _ hz]
      iintro ⟨⟨⟨HS0, Hkp⟩, Hg⟩, Ho, ⟨%d0, H0⟩, ⟨%d1, H1⟩, ⟨%d2, H2⟩, ⟨%d3, H3⟩, ⟨%d4, H4⟩⟩
      iapply ((kernelRunL1_C c (grid0.coords t) _ _ _ _ _ _ _ _ _ _ _ _ (fun h => h0 ((hcondL1_0 t).mp h)) ((hcondL1_1 t).mpr h1) (iblkL1 V c 0 t) (iblkL1 V c 1 t) (iblkL1 V c 2 t) (iblkL1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hkp Hg]
      · isplitl [HS0 Hkp]
        · isplitl [HS0]
          · unfold owns; iexists _; isplitr
            swap; · iexact HS0
            ipureintro; exact View.read_writes_of_cover _ _ _ _ _ (scoverL1_C c _ _ _ _ _ _ _ _ _ _ _ _ _ _ _ _ _ _ _ _)
          iexact Hkp
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverL1_C c _ _ _ _ _ _ _ _ _ _ _ _ _ _ _ _ _ _ _ _)
    · rw [Dat.leavesExact_idle (datL1 V c) 4 t (idleL1_4 t (fun h => h1 ((hcondL1_1 t).mp h))) (noFlushL1_4 t (fun h => h1 ((hcondL1_1 t).mp h)))]
      rw [outsAtL1_B V c t h0 h1]
      unfold soutL1_B; (try dsimp only)
      rw [PhiSL1_castSucc V c t, PhiSL1_pos V c _ _ hz]
      iintro ⟨⟨⟨HS0, Hkp⟩, Hg⟩, Ho, ⟨%d0, H0⟩, ⟨%d1, H1⟩, ⟨%d2, H2⟩, ⟨%d3, H3⟩, ⟨%d4, H4⟩⟩
      iapply ((kernelRunL1_B c (grid0.coords t) _ _ _ _ _ _ _ _ _ _ _ _ (fun h => h0 ((hcondL1_0 t).mp h)) (fun h => h1 ((hcondL1_1 t).mp h)) (iblkL1 V c 0 t) (iblkL1 V c 1 t) (iblkL1 V c 2 t) (iblkL1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hkp Hg]
      · isplitl [HS0 Hkp]
        · isplitl [HS0]
          · unfold owns; iexists _; isplitr
            swap; · iexact HS0
            ipureintro; exact View.read_writes_of_cover _ _ _ _ _ (scoverL1_B c _ _ _ _ _ _ _ _ _ _ _ _ _ _ _ _ _ _ _ _)
          iexact Hkp
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligationL1 (c : Dev nD) : BodyObligation (datL1 (F := F) V c) (defs₀ (F := F)) Variants.none () Set.univ := fun t => by
  rw [bigSep_W0, bigSep_W0]
  exact sound_bodyL1 V c t

/-- What the region is entered with (the class invariant) is the invariant before the first point. -/
theorem hinL1 (c : Dev nD) : Pipeline.ΦA spec0 c ⊢ (datL1 V c).Φ 0 := by
  rw [show (datL1 V c).Φ 0 = PhiSL1 V c 0 (Nat.zero_le _) from rfl, PhiSL1_zero V c 0 _ rfl]
  try exact Idealize.SL.BI.Entails.refl _

/-- After the last point the invariant gives the class invariant back: the accumulator's value is forgotten. -/
theorem houtL1 (c : Dev nD) : (datL1 V c).Φ (Fin.last cfg0.N) ⊢ Pipeline.ΦA spec0 c := by
  rw [show (datL1 V c).Φ (Fin.last cfg0.N) = PhiSL1 V c (Fin.last cfg0.N).val (Nat.le_of_lt_succ (Fin.last cfg0.N).isLt) from rfl,
    PhiSL1_pos V c _ _ (by rw [Fin.val_last]; have : cfg0.N = 64 := N_0; omega), PhiA_eqL1]
  iintro ⟨⟨HS0, Hkp⟩, Hg⟩
  isplitl [HS0 Hkp]
  · isplitl [HS0]
    · iexists _; iexact HS0
    iexact Hkp
  iexact Hg

end Cert.Kernel.Frm

end
-- ==== Proof.Bits.L2Scoped.lean ====
/-
  The second matmul layer's call keeps ONE scoped buffer of its own between grid points, its f32 accumulator
  (a 1024×256 scratch). Every other scoped buffer of the core that is no staging buffer of this call belongs to
  the first layer's call: its ten staging buffers and its accumulator. The region invariant holds those at
  arbitrary contents; this module names that part and splits the class invariant into "the accumulator, the
  other call's buffers, the generator register" and back. (In the core's list of scoped buffers this call's
  accumulator comes last, so the split is by commuting the separating conjunction, proved as two entailments.)
-/
import proofs.«116527_j78125455114733_1_alg».proof.Proof.Gen.Kernel.Launch
import proofs.«116527_j78125455114733_1_alg».proof.Proof.Gen.Kernel.Skeleton
import proofs.«116527_j78125455114733_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The second layer's accumulator as a memref: the call's whole scratch buffer. -/
abbrev accL2 : Memref sig .tc .vmem S1024x256 .f32 := Memref.whole cc1_scratch0

/-- The scoped buffers of the first layer's call (its staging buffers and its accumulator), each whole at some contents. -/
def keptL2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant is the accumulator at some contents, the other call's buffers, the generator register. -/
theorem PhiA_eqL2 (c : Dev nD) :
    (Pipeline.ΦA spec1 c : sProp 𝕄)
      = iprop(iprop((∃ d, owns (c : Thread nD τ) accL2 fullShare d) ∗ keptL2 c) ∗ (∃ r, prngReg c r)) := by
  unfold Pipeline.ΦA keptL2; rw [scopedRest1_eq]; simp only [accL2, owns_whole]
  refine Entails.antisymm (show (_ : sProp 𝕄) ⊢ _ from ?_) (show (_ : sProp 𝕄) ⊢ _ from ?_)
  · iintro ⟨⟨H1, H2, H3, H4, H5, H6, H7, H8, H9, H10, H11, H12⟩, Hg⟩
    isplitr [Hg]
    · isplitl [H12]; · iexact H12
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iexact Hg
  · iintro ⟨⟨H12, H1, H2, H3, H4, H5, H6, H7, H8, H9, H10, H11⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact Hg

end Cert.Kernel.Frm

end
-- ==== Proof.Bits.L2Blocks.lean ====
/-
  The second matmul layer, out = relu(h · W2xᵀ + agg · W2aᵀ), runs on a 4 × 1 × 4 grid: point t = (i, 0, k) works
  on row block i (all 256 output columns) and the k-th 1024-wide slab of the contracted axis. This module holds
  what every case of the body shares: each window's block at a point, read off the array as the region finds
  it; that an input's staging buffer holds that block at every point; the two branch conditions of the body
  (k = 0 resets the accumulator, k = 3 stores the output block) in closed form over the grid; where the output
  window is idle and not written back (k ≠ 3); and the staging memrefs the pipeline passes to the body.
-/
import proofs.«116527_j78125455114733_1_alg».proof.Proof.Bits.L2Scoped

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

-- the contents of the TensorCore's buffers when the region is entered: a parameter, fixed by the run
variable (V : (c : Dev nD) → (b : Ref sig .tc) → Buf (Elt F) ((c : Thread nD τ).loc b))

/-! ## The windows' blocks -/

/-- Window `w`'s block at point `t`, read off its array as the region finds it. -/
def iblkL2 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data over these arrays
    whose body leaves the block in place. -/
theorem beforeL2_0_of {c : Dev nD} (dat : Dat τ (Elt F) Unit ℕ (UR sig nD τ) ℕ cfg1 c) (hA : dat.A 0 = V c (Pipeline.arrRef spec1 0))
    (hafter : ∀ t, dat.after 0 t = iblkL2 V c 0 t) (t : Fin cfg1.N) (d) : dat.before 0 t d = iblkL2 V c 0 t :=
  (dat.before_in_eq_fetched 0 rfl (fun _ => rfl) (fun _ _ _ => rfl) (fun t => by rw [hafter]; unfold Dat.blockOf iblkL2; rw [hA]; try rfl) t d).trans
    (by unfold Dat.fetched Dat.blockOf iblkL2; rw [hA]; try rfl)

/-- Input window 1's current staging buffer holds its block at every point, for any proof data over these arrays
    whose body leaves the block in place. -/
theorem beforeL2_1_of {c : Dev nD} (dat : Dat τ (Elt F) Unit ℕ (UR sig nD τ) ℕ cfg1 c) (hA : dat.A 1 = V c (Pipeline.arrRef spec1 1))
    (hafter : ∀ t, dat.after 1 t = iblkL2 V c 1 t) (t : Fin cfg1.N) (d) : dat.before 1 t d = iblkL2 V c 1 t :=
  (dat.before_in_eq_fetched 1 rfl (fun _ => rfl) (fun _ _ _ => rfl) (fun t => by rw [hafter]; unfold Dat.blockOf iblkL2; rw [hA]; try rfl) t d).trans
    (by unfold Dat.fetched Dat.blockOf iblkL2; rw [hA]; try rfl)

/-- Input window 2's current staging buffer holds its block at every point, for any proof data over these arrays
    whose body leaves the block in place. -/
theorem beforeL2_2_of {c : Dev nD} (dat : Dat τ (Elt F) Unit ℕ (UR sig nD τ) ℕ cfg1 c) (hA : dat.A 2 = V c (Pipeline.arrRef spec1 2))
    (hafter : ∀ t, dat.after 2 t = iblkL2 V c 2 t) (t : Fin cfg1.N) (d) : dat.before 2 t d = iblkL2 V c 2 t :=
  (dat.before_in_eq_fetched 2 rfl (fun _ => rfl) (fun _ _ _ => rfl) (fun t => by rw [hafter]; unfold Dat.blockOf iblkL2; rw [hA]; try rfl) t d).trans
    (by unfold Dat.fetched Dat.blockOf iblkL2; rw [hA]; try rfl)

/-- Input window 3's current staging buffer holds its block at every point, for any proof data over these arrays
    whose body leaves the block in place. -/
theorem beforeL2_3_of {c : Dev nD} (dat : Dat τ (Elt F) Unit ℕ (UR sig nD τ) ℕ cfg1 c) (hA : dat.A 3 = V c (Pipeline.arrRef spec1 3))
    (hafter : ∀ t, dat.after 3 t = iblkL2 V c 3 t) (t : Fin cfg1.N) (d) : dat.before 3 t d = iblkL2 V c 3 t :=
  (dat.before_in_eq_fetched 3 rfl (fun _ => rfl) (fun _ _ _ => rfl) (fun t => by rw [hafter]; unfold Dat.blockOf iblkL2; rw [hA]; try rfl) t d).trans
    (by unfold Dat.fetched Dat.blockOf iblkL2; rw [hA]; try rfl)

/-! ## The body's two branch conditions over the grid -/

/-- "This is the first slab of the contracted axis" (k = 0): the accumulator is reset. -/
abbrev condL2_0 (i : grid1.Coords) : Prop := (Scalar.cmpi .ne (Scalar.extui (Scalar.cmpi .eq (BitVec.ofNat 32 (i 2).val) 0#32)) 0#32) = 1#1
/-- It holds at the points ≡ 0 (mod 4). -/
theorem hcondL2_0 : ∀ t : Fin cfg1.N, condL2_0 (grid1.coords t) ↔ t.val % 4 = 0 :=
  (by decide +kernel : ∀ t : Fin grid1.N, condL2_0 (grid1.coords t) ↔ t.val % 4 = 0)

/-- "This is the last slab" (k = 3): the output block is stored. -/
abbrev condL2_1 (i : grid1.Coords) : Prop := k1_cond2 i = 1#1
/-- It holds at the points ≡ 3 (mod 4). -/
theorem hcondL2_1 : ∀ t : Fin cfg1.N, condL2_1 (grid1.coords t) ↔ t.val % 4 = 3 :=
  (by decide +kernel : ∀ t : Fin grid1.N, condL2_1 (grid1.coords t) ↔ t.val % 4 = 3)

/-! ## Where the windows are idle -/

theorem liveL2_0 : ∀ t : Fin cfg1.N, cfg1.idle 0 (grid1.coords t) = false := by decide +kernel
theorem liveL2_1 : ∀ t : Fin cfg1.N, cfg1.idle 1 (grid1.coords t) = false := by decide +kernel
theorem liveL2_2 : ∀ t : Fin cfg1.N, cfg1.idle 2 (grid1.coords t) = false := by decide +kernel
theorem liveL2_3 : ∀ t : Fin cfg1.N, cfg1.idle 3 (grid1.coords t) = false := by decide +kernel
/-- Unless k = 3 the output window is idle (nothing is stored into it) -/
theorem idleL2_4 : ∀ t : Fin cfg1.N, ¬condL2_1 (grid1.coords t) → cfg1.idle 4 (grid1.coords t) = true := by decide +kernel
/-- and is not written back. -/
theorem noFlushL2_4 : ∀ t : Fin cfg1.N, ¬condL2_1 (grid1.coords t) → (cfg1.win 4).flush t = false := by decide +kernel
/-- At k = 3 it is live. -/
theorem liveL2_4 : ∀ t : Fin cfg1.N, condL2_1 (grid1.coords t) → cfg1.idle 4 (grid1.coords t) = false := by decide +kernel

/-! ## The memrefs the pipeline passes to the body -/

/-- One staging buffer of the output window, through which its contents are stated. -/
abbrev VOL2 : View sig .tc .vmem ShO EtO := (Memref.whole cc1_stg4_0 : Memref sig .tc .vmem ShO EtO).view
abbrev msL2_0 (t : Fin cfg1.N) : Memref sig .tc .vmem ShA .bf16 := win1_0.stage (cfg1.slots t 0)
abbrev hsL2_0 (t : Fin cfg1.N) : (msL2_0 t).IsWhole := hstage1_0 ((cfg1.slots t 0).cast nbuf1_0)
abbrev msL2_1 (t : Fin cfg1.N) : Memref sig .tc .vmem ShA .bf16 := win1_1.stage (cfg1.slots t 1)
abbrev hsL2_1 (t : Fin cfg1.N) : (msL2_1 t).IsWhole := hstage1_1 ((cfg1.slots t 1).cast nbuf1_1)
abbrev msL2_2 (t : Fin cfg1.N) : Memref sig .tc .vmem ShB .bf16 := win1_2.stage (cfg1.slots t 2)
abbrev hsL2_2 (t : Fin cfg1.N) : (msL2_2 t).IsWhole := hstage1_2 ((cfg1.slots t 2).cast nbuf1_2)
abbrev msL2_3 (t : Fin cfg1.N) : Memref sig .tc .vmem ShB .bf16 := win1_3.stage (cfg1.slots t 3)
abbrev hsL2_3 (t : Fin cfg1.N) : (msL2_3 t).IsWhole := hstage1_3 ((cfg1.slots t 3).cast nbuf1_3)
abbrev msL2_4 (t : Fin cfg1.N) : Memref sig .tc .vmem ShO EtO := win1_4.stage (cfg1.slots t 4)
abbrev hsL2_4 (t : Fin cfg1.N) : (msL2_4 t).IsWhole := hstage1_4 ((cfg1.slots t 4).cast nbuf1_4)
/-- The accumulator as a view: what it holds is stated through it. -/
abbrev VSL2 : View sig .tc .vmem ShO .f32 := accL2.view

end Cert.Kernel.Frm

end
-- ==== Proof.Bits.L2Reset.lean ====
/-
  The second layer's body at a point with k = 0. The accumulator is reset to zero, then the two products of this
  slab are added to it; nothing is stored into the output block. Stated on arbitrary whole memrefs: the four
  input blocks at their contents, the output's buffer at contents handed back untouched, the accumulator at
  anything on entry. What the accumulator ends with is a list of stored pieces, found by running the body.
-/
import proofs.«116527_j78125455114733_1_alg».proof.Proof.Bits.L2Blocks

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

set_option maxHeartbeats 4000000 in
/-- The body's run when k = 0 (the reset is taken, the output store is not). -/
noncomputable def kernelRunL2_A (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL2_0 i) (hc1 : ¬condL2_1 i)
    (x0 : Vec F ShA .bf16) (x1 : Vec F ShA .bf16) (x2 : Vec F ShB .bf16) (x3 : Vec F ShB .bf16) :
    Σ' (L4 : List (View.Piece (Elt F) ShO EtO)), { LS0 : List (View.Piece (Elt F) ShO .f32) //
      ∀ (xi4 : Vec F ShO EtO) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨[], ?_, fun xi4 E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frm

end
-- ==== Proof.Bits.L2Accum.lean ====
/-
  The second layer's body at a point with k = 1 or k = 2. The accumulator, holding what the point before left,
  takes the two products of this slab; nothing is stored into the output block.
-/
import proofs.«116527_j78125455114733_1_alg».proof.Proof.Bits.L2Reset

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

set_option maxHeartbeats 4000000 in
/-- The body's run when 0 < k < 3 (neither branch is taken). -/
noncomputable def kernelRunL2_B (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : ¬condL2_1 i)
    (x0 : Vec F ShA .bf16) (x1 : Vec F ShA .bf16) (x2 : Vec F ShB .bf16) (x3 : Vec F ShB .bf16) (xs0 : Vec F ShO .f32) :
    Σ' (L4 : List (View.Piece (Elt F) ShO EtO)), { LS0 : List (View.Piece (Elt F) ShO .f32) //
      ∀ (xi4 : Vec F ShO EtO) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨[], ?_, fun xi4 E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frm

end
-- ==== Proof.Bits.L2Emit.lean ====
/-
  The second layer's body at a point with k = 3. The accumulator takes the last slab's two products, and the
  output block is stored: the accumulator clamped below at zero.
-/
import proofs.«116527_j78125455114733_1_alg».proof.Proof.Bits.L2Accum

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

set_option maxHeartbeats 4000000 in
/-- The body's run when k = 3 (the reset is not taken, the output store is). -/
noncomputable def kernelRunL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) :
    Σ' (L4 : List (View.Piece (Elt F) ShO EtO)), { LS0 : List (View.Piece (Elt F) ShO .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨?_, ?_, fun E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Frm

end
-- ==== Proof.Bits.L2Data.lean ====
/-
  The second matmul layer's region, point by point. For each of the three cases of the body (k = 0, 0 < k < 3,
  k = 3): what it leaves in the accumulator, and at k = 3 in the output block, as the stored pieces read back, with
  the fact that the pieces cover the buffer. Then the accumulation over the grid: what the output's staging buffer
  and the accumulator hold after point n, by recursion on n — at k = 0 from the point's blocks alone, otherwise
  over what point n − 1 left in the accumulator. The region invariant carries the accumulator at exactly that
  value from one point to the next (before the first point it is the class invariant: the accumulator at
  anything). With these the proof data of the pipeline are stated and the body's obligation is met at every
  point.
-/
import proofs.«116527_j78125455114733_1_alg».proof.Proof.Bits.L2Emit

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

variable (V : (c : Dev nD) → (b : Ref sig .tc) → Buf (Elt F) ((c : Thread nD τ).loc b))

/-! ## What each case leaves -/

/-- The k = 0 case's pieces cover the accumulator. -/
theorem scoverL2_A (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL2_0 i) (hc1 : ¬condL2_1 i)
    (x0 : Vec F ShA .bf16) (x1 : Vec F ShA .bf16) (x2 : Vec F ShB .bf16) (x3 : Vec F ShB .bf16) (y : Shape.Idx ShO) :
    ∃ pc ∈ (kernelRunL2_A c i arg3 harg3 arg4 harg4 arg5 harg5 arg6 harg6 arg7 harg7 arg8 harg8 hc0 hc1 x0 x1 x2 x3).2.1, y ∈ pc.1.set :=
  View.cover_of_tiledL (kernelRunL2_A c i arg3 harg3 arg4 harg4 arg5 harg5 arg6 harg6 arg7 harg7 arg8 harg8 hc0 hc1 x0 x1 x2 x3).2.1 (Shape.size ShO) (by sl_kernel_rfl) y

/-- What the k = 0 case leaves in the accumulator: the two products of slab 0 added to zero. -/
def soutL2_A (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL2_0 i) (hc1 : ¬condL2_1 i)
    (x0 : Vec F ShA .bf16) (x1 : Vec F ShA .bf16) (x2 : Vec F ShB .bf16) (x3 : Vec F ShB .bf16) : Vec F ShO .f32 :=
  VSL2.read (Elt F) (VSL2.writes (Elt F) VSL2.junk (kernelRunL2_A c i arg3 harg3 arg4 harg4 arg5 harg5 arg6 harg6 arg7 harg7 arg8 harg8 hc0 hc1 x0 x1 x2 x3).2.1)

/-- The 0 < k < 3 case's pieces cover the accumulator. -/
theorem scoverL2_B (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : ¬condL2_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL2_B c i arg3 harg3 arg4 harg4 arg5 harg5 arg6 harg6 arg7 harg7 arg8 harg8 hc0 hc1 x0 x1 x2 x3 xs0).2.1, y ∈ pc.1.set :=
  View.cover_of_tiledL (kernelRunL2_B c i arg3 harg3 arg4 harg4 arg5 harg5 arg6 harg6 arg7 harg7 arg8 harg8 hc0 hc1 x0 x1 x2 x3 xs0).2.1 (Shape.size ShO) (by sl_kernel_rfl) y

/-- What the 0 < k < 3 case leaves in the accumulator: this slab's two products added to what it held. -/
def soutL2_B (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : ¬condL2_1 i)
    (x0 : Vec F ShA .bf16) (x1 : Vec F ShA .bf16) (x2 : Vec F ShB .bf16) (x3 : Vec F ShB .bf16) (xs0 : Vec F ShO .f32) : Vec F ShO .f32 :=
  VSL2.read (Elt F) (VSL2.writes (Elt F) VSL2.junk (kernelRunL2_B c i arg3 harg3 arg4 harg4 arg5 harg5 arg6 harg6 arg7 harg7 arg8 harg8 hc0 hc1 x0 x1 x2 x3 xs0).2.1)

/-- The k = 3 case's pieces for the output block cover it. -/
theorem coverL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL2_C c i arg3 harg3 arg4 harg4 arg5 harg5 arg6 harg6 arg7 harg7 arg8 harg8 hc0 hc1 x0 x1 x2 x3 xs0).1, y ∈ pc.1.set :=
  View.cover_of_tiledL (kernelRunL2_C c i arg3 harg3 arg4 harg4 arg5 harg5 arg6 harg6 arg7 harg7 arg8 harg8 hc0 hc1 x0 x1 x2 x3 xs0).1 (Shape.size ShO) (by sl_kernel_rfl) y

/-- What the k = 3 case leaves in the output's staging buffer: the final accumulator clamped below at zero. -/
def outL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) : Vec F ShO EtO :=
  VOL2.read (Elt F) (VOL2.writes (Elt F) VOL2.junk (kernelRunL2_C c i arg3 harg3 arg4 harg4 arg5 harg5 arg6 harg6 arg7 harg7 arg8 harg8 hc0 hc1 x0 x1 x2 x3 xs0).1)

/-- The k = 3 case's pieces cover the accumulator. -/
theorem scoverL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL2_C c i arg3 harg3 arg4 harg4 arg5 harg5 arg6 harg6 arg7 harg7 arg8 harg8 hc0 hc1 x0 x1 x2 x3 xs0).2.1, y ∈ pc.1.set :=
  View.cover_of_tiledL (kernelRunL2_C c i arg3 harg3 arg4 harg4 arg5 harg5 arg6 harg6 arg7 harg7 arg8 harg8 hc0 hc1 x0 x1 x2 x3 xs0).2.1 (Shape.size ShO) (by sl_kernel_rfl) y

/-- What the k = 3 case leaves in the accumulator. -/
def soutL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) : Vec F ShO .f32 :=
  VSL2.read (Elt F) (VSL2.writes (Elt F) VSL2.junk (kernelRunL2_C c i arg3 harg3 arg4 harg4 arg5 harg5 arg6 harg6 arg7 harg7 arg8 harg8 hc0 hc1 x0 x1 x2 x3 xs0).2.1)

/-- Where nothing is stored into the output block (k ≠ 3) its value is a placeholder nothing consults: the window is
    neither written back there nor read at the next point. -/
def idleOutL2 : Vec F ShO EtO := VOL2.read (Elt F) VOL2.junk

/-! ## The accumulation over the grid -/

/-- What the output's staging buffer and the accumulator hold after the body at position `n`. -/
def outsAtL2 (c : Dev nD) : (n : ℕ) → n < cfg1.N → Vec F ShO EtO × Vec F ShO .f32
  | 0, hn => (idleOutL2, soutL2_A c (grid1.coords ⟨0, hn⟩) (msL2_0 ⟨0, hn⟩) (hsL2_0 ⟨0, hn⟩) (msL2_1 ⟨0, hn⟩) (hsL2_1 ⟨0, hn⟩) (msL2_2 ⟨0, hn⟩) (hsL2_2 ⟨0, hn⟩) (msL2_3 ⟨0, hn⟩) (hsL2_3 ⟨0, hn⟩) (msL2_4 ⟨0, hn⟩) (hsL2_4 ⟨0, hn⟩) accL2 (Memref.isWhole_whole _) ((hcondL2_0 ⟨0, hn⟩).mpr (Nat.zero_mod _)) (fun h => (fun h => by (try dsimp only at h); omega) ((hcondL2_1 ⟨0, hn⟩).mp h)) (iblkL2 V c 0 ⟨0, hn⟩) (iblkL2 V c 1 ⟨0, hn⟩) (iblkL2 V c 2 ⟨0, hn⟩) (iblkL2 V c 3 ⟨0, hn⟩))
  | n + 1, hn =>
    if h0 : (n + 1) % 4 = 0 then
      if h1 : (n + 1) % 4 = 3 then
        False.elim (by omega)
      else
        (idleOutL2, soutL2_A c (grid1.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) accL2 (Memref.isWhole_whole _) ((hcondL2_0 ⟨n + 1, hn⟩).mpr h0) (fun h => h1 ((hcondL2_1 ⟨n + 1, hn⟩).mp h)) (iblkL2 V c 0 ⟨n + 1, hn⟩) (iblkL2 V c 1 ⟨n + 1, hn⟩) (iblkL2 V c 2 ⟨n + 1, hn⟩) (iblkL2 V c 3 ⟨n + 1, hn⟩))
    else
      if h1 : (n + 1) % 4 = 3 then
        (outL2_C c (grid1.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) accL2 (Memref.isWhole_whole _) (fun h => h0 ((hcondL2_0 ⟨n + 1, hn⟩).mp h)) ((hcondL2_1 ⟨n + 1, hn⟩).mpr h1) (iblkL2 V c 0 ⟨n + 1, hn⟩) (iblkL2 V c 1 ⟨n + 1, hn⟩) (iblkL2 V c 2 ⟨n + 1, hn⟩) (iblkL2 V c 3 ⟨n + 1, hn⟩) (outsAtL2 c n (Nat.lt_of_succ_lt hn)).2, soutL2_C c (grid1.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) accL2 (Memref.isWhole_whole _) (fun h => h0 ((hcondL2_0 ⟨n + 1, hn⟩).mp h)) ((hcondL2_1 ⟨n + 1, hn⟩).mpr h1) (iblkL2 V c 0 ⟨n + 1, hn⟩) (iblkL2 V c 1 ⟨n + 1, hn⟩) (iblkL2 V c 2 ⟨n + 1, hn⟩) (iblkL2 V c 3 ⟨n + 1, hn⟩) (outsAtL2 c n (Nat.lt_of_succ_lt hn)).2)
      else
        (idleOutL2, soutL2_B c (grid1.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) accL2 (Memref.isWhole_whole _) (fun h => h0 ((hcondL2_0 ⟨n + 1, hn⟩).mp h)) (fun h => h1 ((hcondL2_1 ⟨n + 1, hn⟩).mp h)) (iblkL2 V c 0 ⟨n + 1, hn⟩) (iblkL2 V c 1 ⟨n + 1, hn⟩) (iblkL2 V c 2 ⟨n + 1, hn⟩) (iblkL2 V c 3 ⟨n + 1, hn⟩) (outsAtL2 c n (Nat.lt_of_succ_lt hn)).2)

/-- At a point with k = 0. -/
theorem outsAtL2_A (c : Dev nD) (t : Fin cfg1.N) (h0 : t.val % 4 = 0) (h1 : ¬t.val % 4 = 3) :
    outsAtL2 V c t.val t.isLt = (idleOutL2, soutL2_A c (grid1.coords t) (msL2_0 t) (hsL2_0 t) (msL2_1 t) (hsL2_1 t) (msL2_2 t) (hsL2_2 t) (msL2_3 t) (hsL2_3 t) (msL2_4 t) (hsL2_4 t) accL2 (Memref.isWhole_whole _) ((hcondL2_0 t).mpr h0) (fun h => h1 ((hcondL2_1 t).mp h)) (iblkL2 V c 0 t) (iblkL2 V c 1 t) (iblkL2 V c 2 t) (iblkL2 V c 3 t)) := by
  obtain ⟨n, hn⟩ := t
  cases n with
  | zero => exact rfl
  | succ n => exact (dif_pos h0).trans ((dif_neg h1).trans rfl)

/-- At a point with 0 < k < 3: over what the point before left. -/
theorem outsAtL2_B (c : Dev nD) (t : Fin cfg1.N) (h0 : ¬t.val % 4 = 0) (h1 : ¬t.val % 4 = 3) :
    outsAtL2 V c t.val t.isLt = (idleOutL2, soutL2_B c (grid1.coords t) (msL2_0 t) (hsL2_0 t) (msL2_1 t) (hsL2_1 t) (msL2_2 t) (hsL2_2 t) (msL2_3 t) (hsL2_3 t) (msL2_4 t) (hsL2_4 t) accL2 (Memref.isWhole_whole _) (fun h => h0 ((hcondL2_0 t).mp h)) (fun h => h1 ((hcondL2_1 t).mp h)) (iblkL2 V c 0 t) (iblkL2 V c 1 t) (iblkL2 V c 2 t) (iblkL2 V c 3 t) (outsAtL2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAtL2_C (c : Dev nD) (t : Fin cfg1.N) (h0 : ¬t.val % 4 = 0) (h1 : t.val % 4 = 3) :
    outsAtL2 V c t.val t.isLt = (outL2_C c (grid1.coords t) (msL2_0 t) (hsL2_0 t) (msL2_1 t) (hsL2_1 t) (msL2_2 t) (hsL2_2 t) (msL2_3 t) (hsL2_3 t) (msL2_4 t) (hsL2_4 t) accL2 (Memref.isWhole_whole _) (fun h => h0 ((hcondL2_0 t).mp h)) ((hcondL2_1 t).mpr h1) (iblkL2 V c 0 t) (iblkL2 V c 1 t) (iblkL2 V c 2 t) (iblkL2 V c 3 t) (outsAtL2 V c (t.val - 1) (Nat.lt_of_le_of_lt (Nat.sub_le _ _) t.isLt)).2, soutL2_C c (grid1.coords t) (msL2_0 t) (hsL2_0 t) (msL2_1 t) (hsL2_1 t) (msL2_2 t) (hsL2_2 t) (msL2_3 t) (hsL2_3 t) (msL2_4 t) (hsL2_4 t) accL2 (Memref.isWhole_whole _) (fun h => h0 ((hcondL2_0 t).mp h)) ((hcondL2_1 t).mpr h1) (iblkL2 V c 0 t) (iblkL2 V c 1 t) (iblkL2 V c 2 t) (iblkL2 V c 3 t) (outsAtL2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (the accumulator at anything); afterwards the accumulator at
    what the point before left, the other call's scoped buffers at anything, the generator register at some state. -/
def PhiSL2 (c : Dev nD) : (n : ℕ) → n ≤ cfg1.N → sProp 𝕄
  | 0, _ => Pipeline.ΦA spec1 c
  | n + 1, hn => iprop(iprop(owns (c : Thread nD τ) accL2 fullShare ((outsAtL2 V c n hn).2) ∗ keptL2 c) ∗ (∃ r, prngReg c r))

theorem PhiSL2_zero (c : Dev nD) (n : ℕ) (h : n ≤ cfg1.N) (hz : n = 0) : PhiSL2 V c n h = Pipeline.ΦA spec1 c := by
  subst hz; rfl

theorem PhiSL2_succ (c : Dev nD) (n : ℕ) (hn : n < cfg1.N) :
    PhiSL2 V c (n + 1) hn = iprop(iprop(owns (c : Thread nD τ) accL2 fullShare ((outsAtL2 V c n hn).2) ∗ keptL2 c) ∗ (∃ r, prngReg c r)) := rfl

theorem PhiSL2_pos (c : Dev nD) (n : ℕ) (h : n ≤ cfg1.N) (hz : n ≠ 0) :
    PhiSL2 V c n h = iprop(iprop(owns (c : Thread nD τ) accL2 fullShare ((outsAtL2 V c (n - 1) (by omega)).2) ∗ keptL2 c) ∗ (∃ r, prngReg c r)) := by
  cases n with
  | zero => exact absurd rfl hz
  | succ n => rfl

/-! ## The pipeline's proof data -/

/-- The arrays as the region finds them; after the body at point `t` each input's buffer at its block and the output's
    at the accumulation's first component; the invariant above; nothing owed; full shares. -/
def datL2 (c : Dev nD) : Dat τ (Elt F) Unit ℕ (UR sig nD τ) ℕ cfg1 c where
  A w := V c (Pipeline.arrRef spec1 w)
  after w t := match w with
    | ⟨0, _⟩ => iblkL2 V c 0 t
    | ⟨1, _⟩ => iblkL2 V c 1 t
    | ⟨2, _⟩ => iblkL2 V c 2 t
    | ⟨3, _⟩ => iblkL2 V c 3 t
    | ⟨4, _⟩ => (outsAtL2 V c t.val t.isLt).1
  Φ t := PhiSL2 V c t.val (Nat.le_of_lt_succ t.isLt)
  q _ := fullShare
  owed _ := 0

theorem A_eqL2 (c : Dev nD) (w : Fin cfg1.W) : (datL2 V c).A w = V c (Pipeline.arrRef spec1 w) := by
  dsimp only [datL2]

theorem PhiSL2_castSucc (c : Dev nD) (t : Fin cfg1.N) :
    (datL2 V c).Φ t.castSucc = PhiSL2 V c t.val (Nat.le_of_lt t.isLt) := by
  dsimp only [datL2]; simp only [Fin.coe_castSucc]

theorem afterL2_0 (c : Dev nD) (t : Fin cfg1.N) : (datL2 V c).after 0 t = iblkL2 V c 0 t := by dsimp only [datL2]
theorem afterL2_1 (c : Dev nD) (t : Fin cfg1.N) : (datL2 V c).after 1 t = iblkL2 V c 1 t := by dsimp only [datL2]
theorem afterL2_2 (c : Dev nD) (t : Fin cfg1.N) : (datL2 V c).after 2 t = iblkL2 V c 2 t := by dsimp only [datL2]
theorem afterL2_3 (c : Dev nD) (t : Fin cfg1.N) : (datL2 V c).after 3 t = iblkL2 V c 3 t := by dsimp only [datL2]
theorem afterL2_4 (c : Dev nD) (t : Fin cfg1.N) : (datL2 V c).after 4 t = (outsAtL2 V c t.val t.isLt).1 := by dsimp only [datL2]

theorem beforeL2_0 (c : Dev nD) (t : Fin cfg1.N) (d) : (datL2 V c).before 0 t d = iblkL2 V c 0 t :=
  beforeL2_0_of V (datL2 V c) (A_eqL2 V c 0) (afterL2_0 V c) t d
theorem beforeL2_1 (c : Dev nD) (t : Fin cfg1.N) (d) : (datL2 V c).before 1 t d = iblkL2 V c 1 t :=
  beforeL2_1_of V (datL2 V c) (A_eqL2 V c 1) (afterL2_1 V c) t d
theorem beforeL2_2 (c : Dev nD) (t : Fin cfg1.N) (d) : (datL2 V c).before 2 t d = iblkL2 V c 2 t :=
  beforeL2_2_of V (datL2 V c) (A_eqL2 V c 2) (afterL2_2 V c) t d
theorem beforeL2_3 (c : Dev nD) (t : Fin cfg1.N) (d) : (datL2 V c).before 3 t d = iblkL2 V c 3 t :=
  beforeL2_3_of V (datL2 V c) (A_eqL2 V c 3) (afterL2_3 V c) t d

/-- An input's buffer is left at its block. -/
theorem leavesL2_0 (c : Dev nD) (t : Fin cfg1.N) : (datL2 V c).leavesExact 0 t = owns (c : Thread nD τ) (msL2_0 t) fullShare (iblkL2 V c 0 t) := by
  unfold Dat.leavesExact; rw [liveL2_0 t, afterL2_0]
theorem leavesL2_1 (c : Dev nD) (t : Fin cfg1.N) : (datL2 V c).leavesExact 1 t = owns (c : Thread nD τ) (msL2_1 t) fullShare (iblkL2 V c 1 t) := by
  unfold Dat.leavesExact; rw [liveL2_1 t, afterL2_1]
theorem leavesL2_2 (c : Dev nD) (t : Fin cfg1.N) : (datL2 V c).leavesExact 2 t = owns (c : Thread nD τ) (msL2_2 t) fullShare (iblkL2 V c 2 t) := by
  unfold Dat.leavesExact; rw [liveL2_2 t, afterL2_2]
theorem leavesL2_3 (c : Dev nD) (t : Fin cfg1.N) : (datL2 V c).leavesExact 3 t = owns (c : Thread nD τ) (msL2_3 t) fullShare (iblkL2 V c 3 t) := by
  unfold Dat.leavesExact; rw [liveL2_3 t, afterL2_3]

/-! ## The body obligation, at a generic point -/

def bodyPreL2 (c : Dev nD) (t : Fin cfg1.N) : sProp 𝕄 :=
  iprop((datL2 V c).Φ t.castSucc ∗ (datL2 V c).owesAt () t.castSucc
    ∗ (∃ d, owns (c : Thread nD τ) (msL2_0 t) fullShare ((datL2 V c).before 0 t d))
    ∗ (∃ d, owns (c : Thread nD τ) (msL2_1 t) fullShare ((datL2 V c).before 1 t d))
    ∗ (∃ d, owns (c : Thread nD τ) (msL2_2 t) fullShare ((datL2 V c).before 2 t d))
    ∗ (∃ d, owns (c : Thread nD τ) (msL2_3 t) fullShare ((datL2 V c).before 3 t d))
    ∗ (∃ d, owns (c : Thread nD τ) (msL2_4 t) fullShare ((datL2 V c).before 4 t d)))

def bodyPostL2 (c : Dev nD) (t : Fin cfg1.N) : sProp 𝕄 :=
  iprop((datL2 V c).Φ t.succ ∗ (datL2 V c).owesAt () t.succ
    ∗ (datL2 V c).leavesExact 0 t
    ∗ (datL2 V c).leavesExact 1 t
    ∗ (datL2 V c).leavesExact 2 t
    ∗ (datL2 V c).leavesExact 3 t
    ∗ (datL2 V c).leavesExact 4 t)

set_option maxHeartbeats 8000000 in
/-- The body at any point: the inputs' memrefs hold their blocks; the closed forms say which case the point is in; the
    invariant hands the body the accumulator at what the point before left (at anything when k = 0) and takes it back
    at this point's value; the core owes nothing throughout. -/
theorem sound_bodyL2 (c : Dev nD) (t : Fin cfg1.N) :
    bodyPreL2 V c t ⊢ wp frame (wpE (defs₀ (F := F)) Variants.none c none) Set.univ (bodyAt1 t) (fun _ => bodyPostL2 V c t) := by
  unfold bodyPreL2 bodyPostL2 bodyAt1
  simp only [beforeL2_0, beforeL2_1, beforeL2_2, beforeL2_3]
  rw [show (datL2 V c).owesAt () t.succ = (datL2 V c).owesAt () t.castSucc from rfl]
  rw [show (datL2 V c).Φ t.succ = PhiSL2 V c (t.val + 1) t.isLt from rfl, PhiSL2_succ]
  rw [leavesL2_0, leavesL2_1, leavesL2_2, leavesL2_3]
  by_cases h0 : t.val % 4 = 0
  · by_cases h1 : t.val % 4 = 3
    · exfalso; omega
    · rw [Dat.leavesExact_idle (datL2 V c) 4 t (idleL2_4 t (fun h => h1 ((hcondL2_1 t).mp h))) (noFlushL2_4 t (fun h => h1 ((hcondL2_1 t).mp h)))]
      rw [outsAtL2_A V c t h0 h1]
      unfold soutL2_A; (try dsimp only)
      by_cases hz : t.val = 0
      · rw [PhiSL2_castSucc V c t, PhiSL2_zero V c _ _ hz, PhiA_eqL2]
        iintro ⟨⟨⟨HS0, Hkp⟩, Hg⟩, Ho, ⟨%d0, H0⟩, ⟨%d1, H1⟩, ⟨%d2, H2⟩, ⟨%d3, H3⟩, ⟨%d4, H4⟩⟩
        iapply ((kernelRunL2_A c (grid1.coords t) _ _ _ _ _ _ _ _ _ _ _ _ ((hcondL2_0 t).mpr h0) (fun h => h1 ((hcondL2_1 t).mp h)) (iblkL2 V c 0 t) (iblkL2 V c 1 t) (iblkL2 V c 2 t) (iblkL2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hkp Hg]
        · isplitl [HS0 Hkp]
          · isplitl [HS0]
            · unfold owns; iexists _; isplitr
              swap; · iexact HS0
              ipureintro; exact View.read_writes_of_cover _ _ _ _ _ (scoverL2_A c _ _ _ _ _ _ _ _ _ _ _ _ _ _ _ _ _ _ _)
            iexact Hkp
          iexact Hg
        isplitl [Ho]; · iexact Ho
        isplitl [H0]; · iexact H0
        isplitl [H1]; · iexact H1
        isplitl [H2]; · iexact H2
        isplitl [H3]; · iexact H3
        iexists _; iexact H4
      · rw [PhiSL2_castSucc V c t, PhiSL2_pos V c _ _ hz]
        iintro ⟨⟨⟨HS0, Hkp⟩, Hg⟩, Ho, ⟨%d0, H0⟩, ⟨%d1, H1⟩, ⟨%d2, H2⟩, ⟨%d3, H3⟩, ⟨%d4, H4⟩⟩
        iapply ((kernelRunL2_A c (grid1.coords t) _ _ _ _ _ _ _ _ _ _ _ _ ((hcondL2_0 t).mpr h0) (fun h => h1 ((hcondL2_1 t).mp h)) (iblkL2 V c 0 t) (iblkL2 V c 1 t) (iblkL2 V c 2 t) (iblkL2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hkp Hg]
        · isplitl [HS0 Hkp]
          · isplitl [HS0]
            · unfold owns; iexists _; isplitr
              swap; · iexact HS0
              ipureintro; exact View.read_writes_of_cover _ _ _ _ _ (scoverL2_A c _ _ _ _ _ _ _ _ _ _ _ _ _ _ _ _ _ _ _)
            iexact Hkp
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 4 = 3
    · rw [show (datL2 V c).leavesExact 4 t = owns (c : Thread nD τ) (msL2_4 t) fullShare ((datL2 V c).after 4 t) from by
        unfold Dat.leavesExact; rw [liveL2_4 t ((hcondL2_1 t).mpr h1)], afterL2_4]
      rw [outsAtL2_C V c t h0 h1]
      unfold outL2_C soutL2_C; (try dsimp only)
      rw [PhiSL2_castSucc V c t, PhiSL2_pos V c _ _ hz]
      iintro ⟨⟨⟨HS0, Hkp⟩, Hg⟩, Ho, ⟨%d0, H0⟩, ⟨%d1, H1⟩, ⟨%d2, H2⟩, ⟨%d3, H3⟩, ⟨%d4, H4⟩⟩
      iapply ((kernelRunL2_C c (grid1.coords t) _ _ _ _ _ _ _ _ _ _ _ _ (fun h => h0 ((hcondL2_0 t).mp h)) ((hcondL2_1 t).mpr h1) (iblkL2 V c 0 t) (iblkL2 V c 1 t) (iblkL2 V c 2 t) (iblkL2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hkp Hg]
      · isplitl [HS0 Hkp]
        · isplitl [HS0]
          · unfold owns; iexists _; isplitr
            swap; · iexact HS0
            ipureintro; exact View.read_writes_of_cover _ _ _ _ _ (scoverL2_C c _ _ _ _ _ _ _ _ _ _ _ _ _ _ _ _ _ _ _ _)
          iexact Hkp
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverL2_C c _ _ _ _ _ _ _ _ _ _ _ _ _ _ _ _ _ _ _ _)
    · rw [Dat.leavesExact_idle (datL2 V c) 4 t (idleL2_4 t (fun h => h1 ((hcondL2_1 t).mp h))) (noFlushL2_4 t (fun h => h1 ((hcondL2_1 t).mp h)))]
      rw [outsAtL2_B V c t h0 h1]
      unfold soutL2_B; (try dsimp only)
      rw [PhiSL2_castSucc V c t, PhiSL2_pos V c _ _ hz]
      iintro ⟨⟨⟨HS0, Hkp⟩, Hg⟩, Ho, ⟨%d0, H0⟩, ⟨%d1, H1⟩, ⟨%d2, H2⟩, ⟨%d3, H3⟩, ⟨%d4, H4⟩⟩
      iapply ((kernelRunL2_B c (grid1.coords t) _ _ _ _ _ _ _ _ _ _ _ _ (fun h => h0 ((hcondL2_0 t).mp h)) (fun h => h1 ((hcondL2_1 t).mp h)) (iblkL2 V c 0 t) (iblkL2 V c 1 t) (iblkL2 V c 2 t) (iblkL2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hkp Hg]
      · isplitl [HS0 Hkp]
        · isplitl [HS0]
          · unfold owns; iexists _; isplitr
            swap; · iexact HS0
            ipureintro; exact View.read_writes_of_cover _ _ _ _ _ (scoverL2_B c _ _ _ _ _ _ _ _ _ _ _ _ _ _ _ _ _ _ _ _)
          iexact Hkp
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligationL2 (c : Dev nD) : BodyObligation (datL2 (F := F) V c) (defs₀ (F := F)) Variants.none () Set.univ := fun t => by
  rw [bigSep_W1, bigSep_W1]
  exact sound_bodyL2 V c t

/-- What the region is entered with (the class invariant) is the invariant before the first point. -/
theorem hinL2 (c : Dev nD) : Pipeline.ΦA spec1 c ⊢ (datL2 V c).Φ 0 := by
  rw [show (datL2 V c).Φ 0 = PhiSL2 V c 0 (Nat.zero_le _) from rfl, PhiSL2_zero V c 0 _ rfl]
  try exact Idealize.SL.BI.Entails.refl _

/-- After the last point the invariant gives the class invariant back: the accumulator's value is forgotten. -/
theorem houtL2 (c : Dev nD) : (datL2 V c).Φ (Fin.last cfg1.N) ⊢ Pipeline.ΦA spec1 c := by
  rw [show (datL2 V c).Φ (Fin.last cfg1.N) = PhiSL2 V c (Fin.last cfg1.N).val (Nat.le_of_lt_succ (Fin.last cfg1.N).isLt) from rfl,
    PhiSL2_pos V c _ _ (by rw [Fin.val_last]; have : cfg1.N = 16 := N_1; omega), PhiA_eqL2]
  iintro ⟨⟨HS0, Hkp⟩, Hg⟩
  isplitl [HS0 Hkp]
  · isplitl [HS0]
    · iexists _; iexact HS0
    iexact Hkp
  iexact Hg

end Cert.Kernel.Frm

end
-- ==== Proof.Bits.Run.lean ====
/-
  The whole program's run: host operations (the neighbour aggregation, the casts and the weight slices), then the
  first layer's region, then the second's. The contents of the core's buffers at each boundary: the launch memory;
  after the host operations; after the first region, its arrays at what its write-backs leave and every other
  buffer untouched; the same after the second. Each region is entered from the state the item before it left.
  The run ends with every unscoped buffer at the last boundary's contents, from which both the frame claim (no
  item writes an argument) and the result's value are read.
-/
import proofs.«116527_j78125455114733_1_alg».proof.Proof.Bits.L1Data
import proofs.«116527_j78125455114733_1_alg».proof.Proof.Bits.L2Data
import proofs.«116527_j78125455114733_1_alg».proof.Proof.Gen.Kernel.Regions

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c => Gen.V0 m c
/-- after the host operations (the first region's entry), -/
abbrev W1 : Dev nD → Valuation τ sig (Elt F) := fun c => Gen.V1 m c
/-- the same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (datL1 (V1 m) c).arrAt w cfg0.N
theorem W2_arr (c : Dev nD) (w : Fin cfg0.W) :
    W2 m c (Proc.devRef .tc (Pipeline.arrRef spec0 w)) = (datL1 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (datL1 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m c) fun w => (datL2 (V2 m) c).arrAt w cfg1.N
theorem W3_arr (c : Dev nD) (w : Fin cfg1.W) :
    W3 m c (Proc.devRef .tc (Pipeline.arrRef spec1 w)) = (datL2 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (datL2 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: no host operation writes one and no region stages one -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| Gen.V1_of m c main_arg0 (by decide)
theorem W3_main_arg1 (c : Dev nD) : W3 m c (Proc.devRef .tc main_arg1) = m ((c : Thread nD τ).loc main_arg1) :=
  (W3_of_ne m c main_arg1 (by decide)).trans <| (W2_of_ne m c main_arg1 (by decide)).trans <| Gen.V1_of m c main_arg1 (by decide)
theorem W3_main_arg2 (c : Dev nD) : W3 m c (Proc.devRef .tc main_arg2) = m ((c : Thread nD τ).loc main_arg2) :=
  (W3_of_ne m c main_arg2 (by decide)).trans <| (W2_of_ne m c main_arg2 (by decide)).trans <| Gen.V1_of m c main_arg2 (by decide)
theorem W3_main_arg3 (c : Dev nD) : W3 m c (Proc.devRef .tc main_arg3) = m ((c : Thread nD τ).loc main_arg3) :=
  (W3_of_ne m c main_arg3 (by decide)).trans <| (W2_of_ne m c main_arg3 (by decide)).trans <| Gen.V1_of m c main_arg3 (by decide)
theorem W3_main_arg4 (c : Dev nD) : W3 m c (Proc.devRef .tc main_arg4) = m ((c : Thread nD τ).loc main_arg4) :=
  (W3_of_ne m c main_arg4 (by decide)).trans <| (W2_of_ne m c main_arg4 (by decide)).trans <| Gen.V1_of m c main_arg4 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => datL1 (V1 m) c
  | ⟨1, _⟩ => fun c => datL2 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

-- unification of the library's lemmas over the pinned configuration needs plain definitions unfolded in a metavariable's type
set_option backward.isDefEq.respectTransparency.types false in
/-- The first layer's region as a segment: entered from every unscoped buffer at `W1`, left at `W2`. Its arrays
    are split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationL1 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from houtL1 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas over the pinned configuration needs plain definitions unfolded in a metavariable's type
set_option backward.isDefEq.respectTransparency.types false in
/-- The second layer's region as a segment: entered from every unscoped buffer at `W2`, left at `W3`. Its arrays
    are split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationL2 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from houtL2 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_main m ρ)

/-- The result buffer's last contents: what the second region's write-backs leave in its output array. -/
theorem W3_result (c : Dev nD) : W3 m c (Proc.devRef .tc main_v21) = (datL2 (V2 m) c).arrAt 4 cfg1.N :=
  W3_arr m c 4

/-- Entering the second region, the first layer's result is what the first region's write-backs left. -/
theorem V2_hidden (c : Dev nD) : V2 m c main_v20 = (datL1 (V1 m) c).arrAt 4 cfg0.N :=
  W2_arr m c 4
/-- The first region leaves the aggregated features and the second layer's weight halves as it found them. -/
theorem V2_agg (c : Dev nD) : V2 m c main_v11 = V1 m c main_v11 :=
  (W2_arr m c 1).trans (((datL1 (V1 m) c).arrAt_in 1 rfl _).trans (A_eqL1 (V1 m) c 1))
theorem V2_w2l (c : Dev nD) : V2 m c main_v17 = V1 m c main_v17 := W2_of_ne m c main_v17 (by decide)
theorem V2_w2r (c : Dev nD) : V2 m c main_v19 = V1 m c main_v19 := W2_of_ne m c main_v19 (by decide)

end Cert.Kernel.Frm

end
-- ==== Proof.Ideal.L1Scoped.lean ====
/-
  The first matmul layer's call keeps ONE scoped buffer of its own between grid points, the f32 accumulator
  (a 1024×1024 scratch). Every other scoped buffer of the core that is no staging buffer of this call belongs to
  the second layer's call: its ten staging buffers and its accumulator. The region invariant holds those at
  arbitrary contents; this module names that part and splits the class invariant into "the accumulator, the
  other call's buffers, the generator register" and back.
-/
import proofs.«116527_j78125455114733_1_alg».proof.Proof.Gen.KernelIdeal.Launch
import proofs.«116527_j78125455114733_1_alg».proof.Proof.Gen.KernelIdeal.Skeleton
import proofs.«116527_j78125455114733_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The first layer's accumulator as a memref: the call's whole scratch buffer. -/
abbrev accL1 : Memref sig .tc .vmem S1024x1024 .f32 := Memref.whole cc0_scratch0

/-- The scoped buffers of the second layer's call (its staging buffers and its accumulator), each whole at some contents. -/
def keptL1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant is the accumulator at some contents, the other call's buffers, the generator register. -/
theorem PhiA_eqL1 (c : Dev nD) :
    (Pipeline.ΦA spec0 c : sProp 𝕄)
      = iprop(iprop((∃ d, owns (c : Thread nD τ) accL1 fullShare d) ∗ keptL1 c) ∗ (∃ r, prngReg c r)) := by
  unfold Pipeline.ΦA keptL1; rw [scopedRest0_eq]; simp only [accL1, owns_whole]; try rfl

end Cert.KernelIdeal.Frm

end
-- ==== Proof.Ideal.L1Blocks.lean ====
/-
  The first matmul layer, h = relu(x · W1xᵀ + agg · W1aᵀ), runs on a 4 × 4 × 4 grid: point t = (i, j, k) works on
  row block i, column block j and the k-th 1024-wide slab of the contracted axis. This module holds what every
  case of the body shares: each window's block at a point, read off the array as the region finds it; that an
  input's staging buffer holds that block at every point; the two branch conditions of the body (k = 0 resets
  the accumulator, k = 3 stores the output block) in closed form over the grid; where the output window is idle
  and not written back (k ≠ 3); and the staging memrefs the pipeline passes to the body.
-/
import proofs.«116527_j78125455114733_1_alg».proof.Proof.Ideal.L1Scoped

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

-- the contents of the TensorCore's buffers when the region is entered: a parameter, fixed by the run
variable (V : (c : Dev nD) → (b : Ref sig .tc) → Buf (Elt F) ((c : Thread nD τ).loc b))

/-! ## The windows' blocks -/

/-- Window `w`'s block at point `t`, read off its array as the region finds it. -/
def iblkL1 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data over these arrays
    whose body leaves the block in place. -/
theorem beforeL1_0_of {c : Dev nD} (dat : Dat τ (Elt F) Unit ℕ (UR sig nD τ) ℕ cfg0 c) (hA : dat.A 0 = V c (Pipeline.arrRef spec0 0))
    (hafter : ∀ t, dat.after 0 t = iblkL1 V c 0 t) (t : Fin cfg0.N) (d) : dat.before 0 t d = iblkL1 V c 0 t :=
  (dat.before_in_eq_fetched 0 rfl (fun _ => rfl) (fun _ _ _ => rfl) (fun t => by rw [hafter]; unfold Dat.blockOf iblkL1; rw [hA]; try rfl) t d).trans
    (by unfold Dat.fetched Dat.blockOf iblkL1; rw [hA]; try rfl)

/-- Input window 1's current staging buffer holds its block at every point, for any proof data over these arrays
    whose body leaves the block in place. -/
theorem beforeL1_1_of {c : Dev nD} (dat : Dat τ (Elt F) Unit ℕ (UR sig nD τ) ℕ cfg0 c) (hA : dat.A 1 = V c (Pipeline.arrRef spec0 1))
    (hafter : ∀ t, dat.after 1 t = iblkL1 V c 1 t) (t : Fin cfg0.N) (d) : dat.before 1 t d = iblkL1 V c 1 t :=
  (dat.before_in_eq_fetched 1 rfl (fun _ => rfl) (fun _ _ _ => rfl) (fun t => by rw [hafter]; unfold Dat.blockOf iblkL1; rw [hA]; try rfl) t d).trans
    (by unfold Dat.fetched Dat.blockOf iblkL1; rw [hA]; try rfl)

/-- Input window 2's current staging buffer holds its block at every point, for any proof data over these arrays
    whose body leaves the block in place. -/
theorem beforeL1_2_of {c : Dev nD} (dat : Dat τ (Elt F) Unit ℕ (UR sig nD τ) ℕ cfg0 c) (hA : dat.A 2 = V c (Pipeline.arrRef spec0 2))
    (hafter : ∀ t, dat.after 2 t = iblkL1 V c 2 t) (t : Fin cfg0.N) (d) : dat.before 2 t d = iblkL1 V c 2 t :=
  (dat.before_in_eq_fetched 2 rfl (fun _ => rfl) (fun _ _ _ => rfl) (fun t => by rw [hafter]; unfold Dat.blockOf iblkL1; rw [hA]; try rfl) t d).trans
    (by unfold Dat.fetched Dat.blockOf iblkL1; rw [hA]; try rfl)

/-- Input window 3's current staging buffer holds its block at every point, for any proof data over these arrays
    whose body leaves the block in place. -/
theorem beforeL1_3_of {c : Dev nD} (dat : Dat τ (Elt F) Unit ℕ (UR sig nD τ) ℕ cfg0 c) (hA : dat.A 3 = V c (Pipeline.arrRef spec0 3))
    (hafter : ∀ t, dat.after 3 t = iblkL1 V c 3 t) (t : Fin cfg0.N) (d) : dat.before 3 t d = iblkL1 V c 3 t :=
  (dat.before_in_eq_fetched 3 rfl (fun _ => rfl) (fun _ _ _ => rfl) (fun t => by rw [hafter]; unfold Dat.blockOf iblkL1; rw [hA]; try rfl) t d).trans
    (by unfold Dat.fetched Dat.blockOf iblkL1; rw [hA]; try rfl)

/-! ## The body's two branch conditions over the grid -/

/-- "This is the first slab of the contracted axis" (k = 0): the accumulator is reset. -/
abbrev condL1_0 (i : grid0.Coords) : Prop := (Scalar.cmpi .ne (Scalar.extui (Scalar.cmpi .eq (BitVec.ofNat 32 (i 2).val) 0#32)) 0#32) = 1#1
/-- It holds at the points ≡ 0 (mod 4). -/
theorem hcondL1_0 : ∀ t : Fin cfg0.N, condL1_0 (grid0.coords t) ↔ t.val % 4 = 0 :=
  (by decide +kernel : ∀ t : Fin grid0.N, condL1_0 (grid0.coords t) ↔ t.val % 4 = 0)

/-- "This is the last slab" (k = 3): the output block is stored. -/
abbrev condL1_1 (i : grid0.Coords) : Prop := k0_cond2 i = 1#1
/-- It holds at the points ≡ 3 (mod 4). -/
theorem hcondL1_1 : ∀ t : Fin cfg0.N, condL1_1 (grid0.coords t) ↔ t.val % 4 = 3 :=
  (by decide +kernel : ∀ t : Fin grid0.N, condL1_1 (grid0.coords t) ↔ t.val % 4 = 3)

/-! ## Where the windows are idle -/

theorem liveL1_0 : ∀ t : Fin cfg0.N, cfg0.idle 0 (grid0.coords t) = false := by decide +kernel
theorem liveL1_1 : ∀ t : Fin cfg0.N, cfg0.idle 1 (grid0.coords t) = false := by decide +kernel
theorem liveL1_2 : ∀ t : Fin cfg0.N, cfg0.idle 2 (grid0.coords t) = false := by decide +kernel
theorem liveL1_3 : ∀ t : Fin cfg0.N, cfg0.idle 3 (grid0.coords t) = false := by decide +kernel
/-- Unless k = 3 the output window is idle (nothing is stored into it) -/
theorem idleL1_4 : ∀ t : Fin cfg0.N, ¬condL1_1 (grid0.coords t) → cfg0.idle 4 (grid0.coords t) = true := by decide +kernel
/-- and is not written back. -/
theorem noFlushL1_4 : ∀ t : Fin cfg0.N, ¬condL1_1 (grid0.coords t) → (cfg0.win 4).flush t = false := by decide +kernel
/-- At k = 3 it is live. -/
theorem liveL1_4 : ∀ t : Fin cfg0.N, condL1_1 (grid0.coords t) → cfg0.idle 4 (grid0.coords t) = false := by decide +kernel

/-! ## The memrefs the pipeline passes to the body -/

/-- One staging buffer of the output window, through which its contents are stated. -/
abbrev VOL1 : View sig .tc .vmem ShO EtO := (Memref.whole cc0_stg4_0 : Memref sig .tc .vmem ShO EtO).view
abbrev msL1_0 (t : Fin cfg0.N) : Memref sig .tc .vmem ShA .bf16 := win0_0.stage (cfg0.slots t 0)
abbrev hsL1_0 (t : Fin cfg0.N) : (msL1_0 t).IsWhole := hstage0_0 ((cfg0.slots t 0).cast nbuf0_0)
abbrev msL1_1 (t : Fin cfg0.N) : Memref sig .tc .vmem ShA .bf16 := win0_1.stage (cfg0.slots t 1)
abbrev hsL1_1 (t : Fin cfg0.N) : (msL1_1 t).IsWhole := hstage0_1 ((cfg0.slots t 1).cast nbuf0_1)
abbrev msL1_2 (t : Fin cfg0.N) : Memref sig .tc .vmem ShB .bf16 := win0_2.stage (cfg0.slots t 2)
abbrev hsL1_2 (t : Fin cfg0.N) : (msL1_2 t).IsWhole := hstage0_2 ((cfg0.slots t 2).cast nbuf0_2)
abbrev msL1_3 (t : Fin cfg0.N) : Memref sig .tc .vmem ShB .bf16 := win0_3.stage (cfg0.slots t 3)
abbrev hsL1_3 (t : Fin cfg0.N) : (msL1_3 t).IsWhole := hstage0_3 ((cfg0.slots t 3).cast nbuf0_3)
abbrev msL1_4 (t : Fin cfg0.N) : Memref sig .tc .vmem ShO EtO := win0_4.stage (cfg0.slots t 4)
abbrev hsL1_4 (t : Fin cfg0.N) : (msL1_4 t).IsWhole := hstage0_4 ((cfg0.slots t 4).cast nbuf0_4)
/-- The accumulator as a view: what it holds is stated through it. -/
abbrev VSL1 : View sig .tc .vmem ShO .f32 := accL1.view

end Cert.KernelIdeal.Frm

end
-- ==== Proof.Ideal.L1Reset.lean ====
/-
  The body at a point with k = 0. The accumulator is reset to zero, then the two products of this slab are added
  to it; nothing is stored into the output block. Stated on arbitrary whole memrefs: the four input blocks at
  their contents, the output's buffer at contents handed back untouched, the accumulator at anything on entry.
  What the accumulator ends with is a list of stored pieces, found by running the body.
-/
import proofs.«116527_j78125455114733_1_alg».proof.Proof.Ideal.L1Blocks

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

set_option maxHeartbeats 4000000 in
/-- The body's run when k = 0 (the reset is taken, the output store is not). -/
noncomputable def kernelRunL1_A (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL1_0 i) (hc1 : ¬condL1_1 i)
    (x0 : Vec F ShA .bf16) (x1 : Vec F ShA .bf16) (x2 : Vec F ShB .bf16) (x3 : Vec F ShB .bf16) :
    Σ' (L4 : List (View.Piece (Elt F) ShO EtO)), { LS0 : List (View.Piece (Elt F) ShO .f32) //
      ∀ (xi4 : Vec F ShO EtO) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨[], ?_, fun xi4 E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frm

end
-- ==== Proof.Ideal.L1Accum.lean ====
/-
  The body at a point with k = 1 or k = 2. The accumulator, holding what the point before left, takes the two
  products of this slab; nothing is stored into the output block.
-/
import proofs.«116527_j78125455114733_1_alg».proof.Proof.Ideal.L1Reset

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

set_option maxHeartbeats 4000000 in
/-- The body's run when 0 < k < 3 (neither branch is taken). -/
noncomputable def kernelRunL1_B (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : ¬condL1_1 i)
    (x0 : Vec F ShA .bf16) (x1 : Vec F ShA .bf16) (x2 : Vec F ShB .bf16) (x3 : Vec F ShB .bf16) (xs0 : Vec F ShO .f32) :
    Σ' (L4 : List (View.Piece (Elt F) ShO EtO)), { LS0 : List (View.Piece (Elt F) ShO .f32) //
      ∀ (xi4 : Vec F ShO EtO) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨[], ?_, fun xi4 E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frm

end
-- ==== Proof.Ideal.L1Emit.lean ====
/-
  The body at a point with k = 3. The accumulator takes the last slab's two products, and the output block is
  stored: the accumulator clamped below at zero.
-/
import proofs.«116527_j78125455114733_1_alg».proof.Proof.Ideal.L1Accum

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

set_option maxHeartbeats 4000000 in
/-- The body's run when k = 3 (the reset is not taken, the output store is). -/
noncomputable def kernelRunL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) :
    Σ' (L4 : List (View.Piece (Elt F) ShO EtO)), { LS0 : List (View.Piece (Elt F) ShO .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__dual_matmul_relu_kernel i arg3 harg3 arg4 harg4 arg5 harg5 arg6 harg6 arg7 harg7 arg8 harg8) K } := by
  refine ⟨?_, ?_, fun E K => ?run⟩
  case run =>
    simp only [cc0__dual_matmul_relu_kernel_eq_skeleton]; unfold cc0__dual_matmul_relu_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Frm

end
-- ==== Proof.Ideal.L1Data.lean ====
/-
  The first matmul layer's region, point by point. For each of the three cases of the body (k = 0, 0 < k < 3,
  k = 3): what it leaves in the accumulator, and at k = 3 in the output block, as the stored pieces read back, with
  the fact that the pieces cover the buffer. Then the accumulation over the grid: what the output's staging buffer
  and the accumulator hold after point n, by recursion on n — at k = 0 from the point's blocks alone, otherwise
  over what point n − 1 left in the accumulator. The region invariant carries the accumulator at exactly that
  value from one point to the next (before the first point it is the class invariant: the accumulator at
  anything). With these the proof data of the pipeline are stated and the body's obligation is met at every
  point.
-/
import proofs.«116527_j78125455114733_1_alg».proof.Proof.Ideal.L1Emit

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S1024x1024
local notation "ShO" => S1024x1024
local notation "EtO" => EltTy.bf16

variable (V : (c : Dev nD) → (b : Ref sig .tc) → Buf (Elt F) ((c : Thread nD τ).loc b))

/-! ## What each case leaves -/

/-- The k = 0 case's pieces cover the accumulator. -/
theorem scoverL1_A (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL1_0 i) (hc1 : ¬condL1_1 i)
    (x0 : Vec F ShA .bf16) (x1 : Vec F ShA .bf16) (x2 : Vec F ShB .bf16) (x3 : Vec F ShB .bf16) (y : Shape.Idx ShO) :
    ∃ pc ∈ (kernelRunL1_A c i arg3 harg3 arg4 harg4 arg5 harg5 arg6 harg6 arg7 harg7 arg8 harg8 hc0 hc1 x0 x1 x2 x3).2.1, y ∈ pc.1.set :=
  View.cover_of_tiledL (kernelRunL1_A c i arg3 harg3 arg4 harg4 arg5 harg5 arg6 harg6 arg7 harg7 arg8 harg8 hc0 hc1 x0 x1 x2 x3).2.1 (Shape.size ShO) (by sl_kernel_rfl) y

/-- What the k = 0 case leaves in the accumulator: the two products of slab 0 added to zero. -/
def soutL1_A (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL1_0 i) (hc1 : ¬condL1_1 i)
    (x0 : Vec F ShA .bf16) (x1 : Vec F ShA .bf16) (x2 : Vec F ShB .bf16) (x3 : Vec F ShB .bf16) : Vec F ShO .f32 :=
  VSL1.read (Elt F) (VSL1.writes (Elt F) VSL1.junk (kernelRunL1_A c i arg3 harg3 arg4 harg4 arg5 harg5 arg6 harg6 arg7 harg7 arg8 harg8 hc0 hc1 x0 x1 x2 x3).2.1)

/-- The 0 < k < 3 case's pieces cover the accumulator. -/
theorem scoverL1_B (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : ¬condL1_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL1_B c i arg3 harg3 arg4 harg4 arg5 harg5 arg6 harg6 arg7 harg7 arg8 harg8 hc0 hc1 x0 x1 x2 x3 xs0).2.1, y ∈ pc.1.set :=
  View.cover_of_tiledL (kernelRunL1_B c i arg3 harg3 arg4 harg4 arg5 harg5 arg6 harg6 arg7 harg7 arg8 harg8 hc0 hc1 x0 x1 x2 x3 xs0).2.1 (Shape.size ShO) (by sl_kernel_rfl) y

/-- What the 0 < k < 3 case leaves in the accumulator: this slab's two products added to what it held. -/
def soutL1_B (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : ¬condL1_1 i)
    (x0 : Vec F ShA .bf16) (x1 : Vec F ShA .bf16) (x2 : Vec F ShB .bf16) (x3 : Vec F ShB .bf16) (xs0 : Vec F ShO .f32) : Vec F ShO .f32 :=
  VSL1.read (Elt F) (VSL1.writes (Elt F) VSL1.junk (kernelRunL1_B c i arg3 harg3 arg4 harg4 arg5 harg5 arg6 harg6 arg7 harg7 arg8 harg8 hc0 hc1 x0 x1 x2 x3 xs0).2.1)

/-- The k = 3 case's pieces for the output block cover it. -/
theorem coverL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL1_C c i arg3 harg3 arg4 harg4 arg5 harg5 arg6 harg6 arg7 harg7 arg8 harg8 hc0 hc1 x0 x1 x2 x3 xs0).1, y ∈ pc.1.set :=
  View.cover_of_tiledL (kernelRunL1_C c i arg3 harg3 arg4 harg4 arg5 harg5 arg6 harg6 arg7 harg7 arg8 harg8 hc0 hc1 x0 x1 x2 x3 xs0).1 (Shape.size ShO) (by sl_kernel_rfl) y

/-- What the k = 3 case leaves in the output's staging buffer: the final accumulator clamped below at zero. -/
def outL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) : Vec F ShO EtO :=
  VOL1.read (Elt F) (VOL1.writes (Elt F) VOL1.junk (kernelRunL1_C c i arg3 harg3 arg4 harg4 arg5 harg5 arg6 harg6 arg7 harg7 arg8 harg8 hc0 hc1 x0 x1 x2 x3 xs0).1)

/-- The k = 3 case's pieces cover the accumulator. -/
theorem scoverL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL1_C c i arg3 harg3 arg4 harg4 arg5 harg5 arg6 harg6 arg7 harg7 arg8 harg8 hc0 hc1 x0 x1 x2 x3 xs0).2.1, y ∈ pc.1.set :=
  View.cover_of_tiledL (kernelRunL1_C c i arg3 harg3 arg4 harg4 arg5 harg5 arg6 harg6 arg7 harg7 arg8 harg8 hc0 hc1 x0 x1 x2 x3 xs0).2.1 (Shape.size ShO) (by sl_kernel_rfl) y

/-- What the k = 3 case leaves in the accumulator. -/
def soutL1_C (c : Dev nD) (i : grid0.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL1_0 i) (hc1 : condL1_1 i)
    (x0 : Vec F ShA .bf16) (x1 : Vec F ShA .bf16) (x2 : Vec F ShB .bf16) (x3 : Vec F ShB .bf16) (xs0 : Vec F ShO .f32) : Vec F ShO .f32 :=
  VSL1.read (Elt F) (VSL1.writes (Elt F) VSL1.junk (kernelRunL1_C c i arg3 harg3 arg4 harg4 arg5 harg5 arg6 harg6 arg7 harg7 arg8 harg8 hc0 hc1 x0 x1 x2 x3 xs0).2.1)

/-- Where nothing is stored into the output block (k ≠ 3) its value is a placeholder nothing consults: the window is
    neither written back there nor read at the next point. -/
def idleOutL1 : Vec F ShO EtO := VOL1.read (Elt F) VOL1.junk

/-! ## The accumulation over the grid -/

/-- What the output's staging buffer and the accumulator hold after the body at position `n`. -/
def outsAtL1 (c : Dev nD) : (n : ℕ) → n < cfg0.N → Vec F ShO EtO × Vec F ShO .f32
  | 0, hn => (idleOutL1, soutL1_A c (grid0.coords ⟨0, hn⟩) (msL1_0 ⟨0, hn⟩) (hsL1_0 ⟨0, hn⟩) (msL1_1 ⟨0, hn⟩) (hsL1_1 ⟨0, hn⟩) (msL1_2 ⟨0, hn⟩) (hsL1_2 ⟨0, hn⟩) (msL1_3 ⟨0, hn⟩) (hsL1_3 ⟨0, hn⟩) (msL1_4 ⟨0, hn⟩) (hsL1_4 ⟨0, hn⟩) accL1 (Memref.isWhole_whole _) ((hcondL1_0 ⟨0, hn⟩).mpr (Nat.zero_mod _)) (fun h => (fun h => by (try dsimp only at h); omega) ((hcondL1_1 ⟨0, hn⟩).mp h)) (iblkL1 V c 0 ⟨0, hn⟩) (iblkL1 V c 1 ⟨0, hn⟩) (iblkL1 V c 2 ⟨0, hn⟩) (iblkL1 V c 3 ⟨0, hn⟩))
  | n + 1, hn =>
    if h0 : (n + 1) % 4 = 0 then
      if h1 : (n + 1) % 4 = 3 then
        False.elim (by omega)
      else
        (idleOutL1, soutL1_A c (grid0.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) accL1 (Memref.isWhole_whole _) ((hcondL1_0 ⟨n + 1, hn⟩).mpr h0) (fun h => h1 ((hcondL1_1 ⟨n + 1, hn⟩).mp h)) (iblkL1 V c 0 ⟨n + 1, hn⟩) (iblkL1 V c 1 ⟨n + 1, hn⟩) (iblkL1 V c 2 ⟨n + 1, hn⟩) (iblkL1 V c 3 ⟨n + 1, hn⟩))
    else
      if h1 : (n + 1) % 4 = 3 then
        (outL1_C c (grid0.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) accL1 (Memref.isWhole_whole _) (fun h => h0 ((hcondL1_0 ⟨n + 1, hn⟩).mp h)) ((hcondL1_1 ⟨n + 1, hn⟩).mpr h1) (iblkL1 V c 0 ⟨n + 1, hn⟩) (iblkL1 V c 1 ⟨n + 1, hn⟩) (iblkL1 V c 2 ⟨n + 1, hn⟩) (iblkL1 V c 3 ⟨n + 1, hn⟩) (outsAtL1 c n (Nat.lt_of_succ_lt hn)).2, soutL1_C c (grid0.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) accL1 (Memref.isWhole_whole _) (fun h => h0 ((hcondL1_0 ⟨n + 1, hn⟩).mp h)) ((hcondL1_1 ⟨n + 1, hn⟩).mpr h1) (iblkL1 V c 0 ⟨n + 1, hn⟩) (iblkL1 V c 1 ⟨n + 1, hn⟩) (iblkL1 V c 2 ⟨n + 1, hn⟩) (iblkL1 V c 3 ⟨n + 1, hn⟩) (outsAtL1 c n (Nat.lt_of_succ_lt hn)).2)
      else
        (idleOutL1, soutL1_B c (grid0.coords ⟨n + 1, hn⟩) (msL1_0 ⟨n + 1, hn⟩) (hsL1_0 ⟨n + 1, hn⟩) (msL1_1 ⟨n + 1, hn⟩) (hsL1_1 ⟨n + 1, hn⟩) (msL1_2 ⟨n + 1, hn⟩) (hsL1_2 ⟨n + 1, hn⟩) (msL1_3 ⟨n + 1, hn⟩) (hsL1_3 ⟨n + 1, hn⟩) (msL1_4 ⟨n + 1, hn⟩) (hsL1_4 ⟨n + 1, hn⟩) accL1 (Memref.isWhole_whole _) (fun h => h0 ((hcondL1_0 ⟨n + 1, hn⟩).mp h)) (fun h => h1 ((hcondL1_1 ⟨n + 1, hn⟩).mp h)) (iblkL1 V c 0 ⟨n + 1, hn⟩) (iblkL1 V c 1 ⟨n + 1, hn⟩) (iblkL1 V c 2 ⟨n + 1, hn⟩) (iblkL1 V c 3 ⟨n + 1, hn⟩) (outsAtL1 c n (Nat.lt_of_succ_lt hn)).2)

/-- At a point with k = 0. -/
theorem outsAtL1_A (c : Dev nD) (t : Fin cfg0.N) (h0 : t.val % 4 = 0) (h1 : ¬t.val % 4 = 3) :
    outsAtL1 V c t.val t.isLt = (idleOutL1, soutL1_A c (grid0.coords t) (msL1_0 t) (hsL1_0 t) (msL1_1 t) (hsL1_1 t) (msL1_2 t) (hsL1_2 t) (msL1_3 t) (hsL1_3 t) (msL1_4 t) (hsL1_4 t) accL1 (Memref.isWhole_whole _) ((hcondL1_0 t).mpr h0) (fun h => h1 ((hcondL1_1 t).mp h)) (iblkL1 V c 0 t) (iblkL1 V c 1 t) (iblkL1 V c 2 t) (iblkL1 V c 3 t)) := by
  obtain ⟨n, hn⟩ := t
  cases n with
  | zero => exact rfl
  | succ n => exact (dif_pos h0).trans ((dif_neg h1).trans rfl)

/-- At a point with 0 < k < 3: over what the point before left. -/
theorem outsAtL1_B (c : Dev nD) (t : Fin cfg0.N) (h0 : ¬t.val % 4 = 0) (h1 : ¬t.val % 4 = 3) :
    outsAtL1 V c t.val t.isLt = (idleOutL1, soutL1_B c (grid0.coords t) (msL1_0 t) (hsL1_0 t) (msL1_1 t) (hsL1_1 t) (msL1_2 t) (hsL1_2 t) (msL1_3 t) (hsL1_3 t) (msL1_4 t) (hsL1_4 t) accL1 (Memref.isWhole_whole _) (fun h => h0 ((hcondL1_0 t).mp h)) (fun h => h1 ((hcondL1_1 t).mp h)) (iblkL1 V c 0 t) (iblkL1 V c 1 t) (iblkL1 V c 2 t) (iblkL1 V c 3 t) (outsAtL1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAtL1_C (c : Dev nD) (t : Fin cfg0.N) (h0 : ¬t.val % 4 = 0) (h1 : t.val % 4 = 3) :
    outsAtL1 V c t.val t.isLt = (outL1_C c (grid0.coords t) (msL1_0 t) (hsL1_0 t) (msL1_1 t) (hsL1_1 t) (msL1_2 t) (hsL1_2 t) (msL1_3 t) (hsL1_3 t) (msL1_4 t) (hsL1_4 t) accL1 (Memref.isWhole_whole _) (fun h => h0 ((hcondL1_0 t).mp h)) ((hcondL1_1 t).mpr h1) (iblkL1 V c 0 t) (iblkL1 V c 1 t) (iblkL1 V c 2 t) (iblkL1 V c 3 t) (outsAtL1 V c (t.val - 1) (Nat.lt_of_le_of_lt (Nat.sub_le _ _) t.isLt)).2, soutL1_C c (grid0.coords t) (msL1_0 t) (hsL1_0 t) (msL1_1 t) (hsL1_1 t) (msL1_2 t) (hsL1_2 t) (msL1_3 t) (hsL1_3 t) (msL1_4 t) (hsL1_4 t) accL1 (Memref.isWhole_whole _) (fun h => h0 ((hcondL1_0 t).mp h)) ((hcondL1_1 t).mpr h1) (iblkL1 V c 0 t) (iblkL1 V c 1 t) (iblkL1 V c 2 t) (iblkL1 V c 3 t) (outsAtL1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (the accumulator at anything); afterwards the accumulator at
    what the point before left, the other call's scoped buffers at anything, the generator register at some state. -/
def PhiSL1 (c : Dev nD) : (n : ℕ) → n ≤ cfg0.N → sProp 𝕄
  | 0, _ => Pipeline.ΦA spec0 c
  | n + 1, hn => iprop(iprop(owns (c : Thread nD τ) accL1 fullShare ((outsAtL1 V c n hn).2) ∗ keptL1 c) ∗ (∃ r, prngReg c r))

theorem PhiSL1_zero (c : Dev nD) (n : ℕ) (h : n ≤ cfg0.N) (hz : n = 0) : PhiSL1 V c n h = Pipeline.ΦA spec0 c := by
  subst hz; rfl

theorem PhiSL1_succ (c : Dev nD) (n : ℕ) (hn : n < cfg0.N) :
    PhiSL1 V c (n + 1) hn = iprop(iprop(owns (c : Thread nD τ) accL1 fullShare ((outsAtL1 V c n hn).2) ∗ keptL1 c) ∗ (∃ r, prngReg c r)) := rfl

theorem PhiSL1_pos (c : Dev nD) (n : ℕ) (h : n ≤ cfg0.N) (hz : n ≠ 0) :
    PhiSL1 V c n h = iprop(iprop(owns (c : Thread nD τ) accL1 fullShare ((outsAtL1 V c (n - 1) (by omega)).2) ∗ keptL1 c) ∗ (∃ r, prngReg c r)) := by
  cases n with
  | zero => exact absurd rfl hz
  | succ n => rfl

/-! ## The pipeline's proof data -/

/-- The arrays as the region finds them; after the body at point `t` each input's buffer at its block and the output's
    at the accumulation's first component; the invariant above; nothing owed; full shares. -/
def datL1 (c : Dev nD) : Dat τ (Elt F) Unit ℕ (UR sig nD τ) ℕ cfg0 c where
  A w := V c (Pipeline.arrRef spec0 w)
  after w t := match w with
    | ⟨0, _⟩ => iblkL1 V c 0 t
    | ⟨1, _⟩ => iblkL1 V c 1 t
    | ⟨2, _⟩ => iblkL1 V c 2 t
    | ⟨3, _⟩ => iblkL1 V c 3 t
    | ⟨4, _⟩ => (outsAtL1 V c t.val t.isLt).1
  Φ t := PhiSL1 V c t.val (Nat.le_of_lt_succ t.isLt)
  q _ := fullShare
  owed _ := 0

theorem A_eqL1 (c : Dev nD) (w : Fin cfg0.W) : (datL1 V c).A w = V c (Pipeline.arrRef spec0 w) := by
  dsimp only [datL1]

theorem PhiSL1_castSucc (c : Dev nD) (t : Fin cfg0.N) :
    (datL1 V c).Φ t.castSucc = PhiSL1 V c t.val (Nat.le_of_lt t.isLt) := by
  dsimp only [datL1]; simp only [Fin.coe_castSucc]

theorem afterL1_0 (c : Dev nD) (t : Fin cfg0.N) : (datL1 V c).after 0 t = iblkL1 V c 0 t := by dsimp only [datL1]
theorem afterL1_1 (c : Dev nD) (t : Fin cfg0.N) : (datL1 V c).after 1 t = iblkL1 V c 1 t := by dsimp only [datL1]
theorem afterL1_2 (c : Dev nD) (t : Fin cfg0.N) : (datL1 V c).after 2 t = iblkL1 V c 2 t := by dsimp only [datL1]
theorem afterL1_3 (c : Dev nD) (t : Fin cfg0.N) : (datL1 V c).after 3 t = iblkL1 V c 3 t := by dsimp only [datL1]
theorem afterL1_4 (c : Dev nD) (t : Fin cfg0.N) : (datL1 V c).after 4 t = (outsAtL1 V c t.val t.isLt).1 := by dsimp only [datL1]

theorem beforeL1_0 (c : Dev nD) (t : Fin cfg0.N) (d) : (datL1 V c).before 0 t d = iblkL1 V c 0 t :=
  beforeL1_0_of V (datL1 V c) (A_eqL1 V c 0) (afterL1_0 V c) t d
theorem beforeL1_1 (c : Dev nD) (t : Fin cfg0.N) (d) : (datL1 V c).before 1 t d = iblkL1 V c 1 t :=
  beforeL1_1_of V (datL1 V c) (A_eqL1 V c 1) (afterL1_1 V c) t d
theorem beforeL1_2 (c : Dev nD) (t : Fin cfg0.N) (d) : (datL1 V c).before 2 t d = iblkL1 V c 2 t :=
  beforeL1_2_of V (datL1 V c) (A_eqL1 V c 2) (afterL1_2 V c) t d
theorem beforeL1_3 (c : Dev nD) (t : Fin cfg0.N) (d) : (datL1 V c).before 3 t d = iblkL1 V c 3 t :=
  beforeL1_3_of V (datL1 V c) (A_eqL1 V c 3) (afterL1_3 V c) t d

/-- An input's buffer is left at its block. -/
theorem leavesL1_0 (c : Dev nD) (t : Fin cfg0.N) : (datL1 V c).leavesExact 0 t = owns (c : Thread nD τ) (msL1_0 t) fullShare (iblkL1 V c 0 t) := by
  unfold Dat.leavesExact; rw [liveL1_0 t, afterL1_0]
theorem leavesL1_1 (c : Dev nD) (t : Fin cfg0.N) : (datL1 V c).leavesExact 1 t = owns (c : Thread nD τ) (msL1_1 t) fullShare (iblkL1 V c 1 t) := by
  unfold Dat.leavesExact; rw [liveL1_1 t, afterL1_1]
theorem leavesL1_2 (c : Dev nD) (t : Fin cfg0.N) : (datL1 V c).leavesExact 2 t = owns (c : Thread nD τ) (msL1_2 t) fullShare (iblkL1 V c 2 t) := by
  unfold Dat.leavesExact; rw [liveL1_2 t, afterL1_2]
theorem leavesL1_3 (c : Dev nD) (t : Fin cfg0.N) : (datL1 V c).leavesExact 3 t = owns (c : Thread nD τ) (msL1_3 t) fullShare (iblkL1 V c 3 t) := by
  unfold Dat.leavesExact; rw [liveL1_3 t, afterL1_3]

/-! ## The body obligation, at a generic point -/

def bodyPreL1 (c : Dev nD) (t : Fin cfg0.N) : sProp 𝕄 :=
  iprop((datL1 V c).Φ t.castSucc ∗ (datL1 V c).owesAt () t.castSucc
    ∗ (∃ d, owns (c : Thread nD τ) (msL1_0 t) fullShare ((datL1 V c).before 0 t d))
    ∗ (∃ d, owns (c : Thread nD τ) (msL1_1 t) fullShare ((datL1 V c).before 1 t d))
    ∗ (∃ d, owns (c : Thread nD τ) (msL1_2 t) fullShare ((datL1 V c).before 2 t d))
    ∗ (∃ d, owns (c : Thread nD τ) (msL1_3 t) fullShare ((datL1 V c).before 3 t d))
    ∗ (∃ d, owns (c : Thread nD τ) (msL1_4 t) fullShare ((datL1 V c).before 4 t d)))

def bodyPostL1 (c : Dev nD) (t : Fin cfg0.N) : sProp 𝕄 :=
  iprop((datL1 V c).Φ t.succ ∗ (datL1 V c).owesAt () t.succ
    ∗ (datL1 V c).leavesExact 0 t
    ∗ (datL1 V c).leavesExact 1 t
    ∗ (datL1 V c).leavesExact 2 t
    ∗ (datL1 V c).leavesExact 3 t
    ∗ (datL1 V c).leavesExact 4 t)

set_option maxHeartbeats 8000000 in
/-- The body at any point: the inputs' memrefs hold their blocks; the closed forms say which case the point is in; the
    invariant hands the body the accumulator at what the point before left (at anything when k = 0) and takes it back
    at this point's value; the core owes nothing throughout. -/
theorem sound_bodyL1 (c : Dev nD) (t : Fin cfg0.N) :
    bodyPreL1 V c t ⊢ wp frame (wpE (defs₀ (F := F)) Variants.none c none) Set.univ (bodyAt0 t) (fun _ => bodyPostL1 V c t) := by
  unfold bodyPreL1 bodyPostL1 bodyAt0
  simp only [beforeL1_0, beforeL1_1, beforeL1_2, beforeL1_3]
  rw [show (datL1 V c).owesAt () t.succ = (datL1 V c).owesAt () t.castSucc from rfl]
  rw [show (datL1 V c).Φ t.succ = PhiSL1 V c (t.val + 1) t.isLt from rfl, PhiSL1_succ]
  rw [leavesL1_0, leavesL1_1, leavesL1_2, leavesL1_3]
  by_cases h0 : t.val % 4 = 0
  · by_cases h1 : t.val % 4 = 3
    · exfalso; omega
    · rw [Dat.leavesExact_idle (datL1 V c) 4 t (idleL1_4 t (fun h => h1 ((hcondL1_1 t).mp h))) (noFlushL1_4 t (fun h => h1 ((hcondL1_1 t).mp h)))]
      rw [outsAtL1_A V c t h0 h1]
      unfold soutL1_A; (try dsimp only)
      by_cases hz : t.val = 0
      · rw [PhiSL1_castSucc V c t, PhiSL1_zero V c _ _ hz, PhiA_eqL1]
        iintro ⟨⟨⟨HS0, Hkp⟩, Hg⟩, Ho, ⟨%d0, H0⟩, ⟨%d1, H1⟩, ⟨%d2, H2⟩, ⟨%d3, H3⟩, ⟨%d4, H4⟩⟩
        iapply ((kernelRunL1_A c (grid0.coords t) _ _ _ _ _ _ _ _ _ _ _ _ ((hcondL1_0 t).mpr h0) (fun h => h1 ((hcondL1_1 t).mp h)) (iblkL1 V c 0 t) (iblkL1 V c 1 t) (iblkL1 V c 2 t) (iblkL1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hkp Hg]
        · isplitl [HS0 Hkp]
          · isplitl [HS0]
            · unfold owns; iexists _; isplitr
              swap; · iexact HS0
              ipureintro; exact View.read_writes_of_cover _ _ _ _ _ (scoverL1_A c _ _ _ _ _ _ _ _ _ _ _ _ _ _ _ _ _ _ _)
            iexact Hkp
          iexact Hg
        isplitl [Ho]; · iexact Ho
        isplitl [H0]; · iexact H0
        isplitl [H1]; · iexact H1
        isplitl [H2]; · iexact H2
        isplitl [H3]; · iexact H3
        iexists _; iexact H4
      · rw [PhiSL1_castSucc V c t, PhiSL1_pos V c _ _ hz]
        iintro ⟨⟨⟨HS0, Hkp⟩, Hg⟩, Ho, ⟨%d0, H0⟩, ⟨%d1, H1⟩, ⟨%d2, H2⟩, ⟨%d3, H3⟩, ⟨%d4, H4⟩⟩
        iapply ((kernelRunL1_A c (grid0.coords t) _ _ _ _ _ _ _ _ _ _ _ _ ((hcondL1_0 t).mpr h0) (fun h => h1 ((hcondL1_1 t).mp h)) (iblkL1 V c 0 t) (iblkL1 V c 1 t) (iblkL1 V c 2 t) (iblkL1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hkp Hg]
        · isplitl [HS0 Hkp]
          · isplitl [HS0]
            · unfold owns; iexists _; isplitr
              swap; · iexact HS0
              ipureintro; exact View.read_writes_of_cover _ _ _ _ _ (scoverL1_A c _ _ _ _ _ _ _ _ _ _ _ _ _ _ _ _ _ _ _)
            iexact Hkp
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 4 = 3
    · rw [show (datL1 V c).leavesExact 4 t = owns (c : Thread nD τ) (msL1_4 t) fullShare ((datL1 V c).after 4 t) from by
        unfold Dat.leavesExact; rw [liveL1_4 t ((hcondL1_1 t).mpr h1)], afterL1_4]
      rw [outsAtL1_C V c t h0 h1]
      unfold outL1_C soutL1_C; (try dsimp only)
      rw [PhiSL1_castSucc V c t, PhiSL1_pos V c _ _ hz]
      iintro ⟨⟨⟨HS0, Hkp⟩, Hg⟩, Ho, ⟨%d0, H0⟩, ⟨%d1, H1⟩, ⟨%d2, H2⟩, ⟨%d3, H3⟩, ⟨%d4, H4⟩⟩
      iapply ((kernelRunL1_C c (grid0.coords t) _ _ _ _ _ _ _ _ _ _ _ _ (fun h => h0 ((hcondL1_0 t).mp h)) ((hcondL1_1 t).mpr h1) (iblkL1 V c 0 t) (iblkL1 V c 1 t) (iblkL1 V c 2 t) (iblkL1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hkp Hg]
      · isplitl [HS0 Hkp]
        · isplitl [HS0]
          · unfold owns; iexists _; isplitr
            swap; · iexact HS0
            ipureintro; exact View.read_writes_of_cover _ _ _ _ _ (scoverL1_C c _ _ _ _ _ _ _ _ _ _ _ _ _ _ _ _ _ _ _ _)
          iexact Hkp
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverL1_C c _ _ _ _ _ _ _ _ _ _ _ _ _ _ _ _ _ _ _ _)
    · rw [Dat.leavesExact_idle (datL1 V c) 4 t (idleL1_4 t (fun h => h1 ((hcondL1_1 t).mp h))) (noFlushL1_4 t (fun h => h1 ((hcondL1_1 t).mp h)))]
      rw [outsAtL1_B V c t h0 h1]
      unfold soutL1_B; (try dsimp only)
      rw [PhiSL1_castSucc V c t, PhiSL1_pos V c _ _ hz]
      iintro ⟨⟨⟨HS0, Hkp⟩, Hg⟩, Ho, ⟨%d0, H0⟩, ⟨%d1, H1⟩, ⟨%d2, H2⟩, ⟨%d3, H3⟩, ⟨%d4, H4⟩⟩
      iapply ((kernelRunL1_B c (grid0.coords t) _ _ _ _ _ _ _ _ _ _ _ _ (fun h => h0 ((hcondL1_0 t).mp h)) (fun h => h1 ((hcondL1_1 t).mp h)) (iblkL1 V c 0 t) (iblkL1 V c 1 t) (iblkL1 V c 2 t) (iblkL1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hkp Hg]
      · isplitl [HS0 Hkp]
        · isplitl [HS0]
          · unfold owns; iexists _; isplitr
            swap; · iexact HS0
            ipureintro; exact View.read_writes_of_cover _ _ _ _ _ (scoverL1_B c _ _ _ _ _ _ _ _ _ _ _ _ _ _ _ _ _ _ _ _)
          iexact Hkp
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligationL1 (c : Dev nD) : BodyObligation (datL1 (F := F) V c) (defs₀ (F := F)) Variants.none () Set.univ := fun t => by
  rw [bigSep_W0, bigSep_W0]
  exact sound_bodyL1 V c t

/-- What the region is entered with (the class invariant) is the invariant before the first point. -/
theorem hinL1 (c : Dev nD) : Pipeline.ΦA spec0 c ⊢ (datL1 V c).Φ 0 := by
  rw [show (datL1 V c).Φ 0 = PhiSL1 V c 0 (Nat.zero_le _) from rfl, PhiSL1_zero V c 0 _ rfl]
  try exact Idealize.SL.BI.Entails.refl _

/-- After the last point the invariant gives the class invariant back: the accumulator's value is forgotten. -/
theorem houtL1 (c : Dev nD) : (datL1 V c).Φ (Fin.last cfg0.N) ⊢ Pipeline.ΦA spec0 c := by
  rw [show (datL1 V c).Φ (Fin.last cfg0.N) = PhiSL1 V c (Fin.last cfg0.N).val (Nat.le_of_lt_succ (Fin.last cfg0.N).isLt) from rfl,
    PhiSL1_pos V c _ _ (by rw [Fin.val_last]; have : cfg0.N = 64 := N_0; omega), PhiA_eqL1]
  iintro ⟨⟨HS0, Hkp⟩, Hg⟩
  isplitl [HS0 Hkp]
  · isplitl [HS0]
    · iexists _; iexact HS0
    iexact Hkp
  iexact Hg

end Cert.KernelIdeal.Frm

end
-- ==== Proof.Ideal.L2Scoped.lean ====
/-
  The second matmul layer's call keeps ONE scoped buffer of its own between grid points, its f32 accumulator
  (a 1024×256 scratch). Every other scoped buffer of the core that is no staging buffer of this call belongs to
  the first layer's call: its ten staging buffers and its accumulator. The region invariant holds those at
  arbitrary contents; this module names that part and splits the class invariant into "the accumulator, the
  other call's buffers, the generator register" and back. (In the core's list of scoped buffers this call's
  accumulator comes last, so the split is by commuting the separating conjunction, proved as two entailments.)
-/
import proofs.«116527_j78125455114733_1_alg».proof.Proof.Gen.KernelIdeal.Launch
import proofs.«116527_j78125455114733_1_alg».proof.Proof.Gen.KernelIdeal.Skeleton
import proofs.«116527_j78125455114733_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The second layer's accumulator as a memref: the call's whole scratch buffer. -/
abbrev accL2 : Memref sig .tc .vmem S1024x256 .f32 := Memref.whole cc1_scratch0

/-- The scoped buffers of the first layer's call (its staging buffers and its accumulator), each whole at some contents. -/
def keptL2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant is the accumulator at some contents, the other call's buffers, the generator register. -/
theorem PhiA_eqL2 (c : Dev nD) :
    (Pipeline.ΦA spec1 c : sProp 𝕄)
      = iprop(iprop((∃ d, owns (c : Thread nD τ) accL2 fullShare d) ∗ keptL2 c) ∗ (∃ r, prngReg c r)) := by
  unfold Pipeline.ΦA keptL2; rw [scopedRest1_eq]; simp only [accL2, owns_whole]
  refine Entails.antisymm (show (_ : sProp 𝕄) ⊢ _ from ?_) (show (_ : sProp 𝕄) ⊢ _ from ?_)
  · iintro ⟨⟨H1, H2, H3, H4, H5, H6, H7, H8, H9, H10, H11, H12⟩, Hg⟩
    isplitr [Hg]
    · isplitl [H12]; · iexact H12
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iexact Hg
  · iintro ⟨⟨H12, H1, H2, H3, H4, H5, H6, H7, H8, H9, H10, H11⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact Hg

end Cert.KernelIdeal.Frm

end
-- ==== Proof.Ideal.L2Blocks.lean ====
/-
  The second matmul layer, out = relu(h · W2xᵀ + agg · W2aᵀ), runs on a 4 × 1 × 4 grid: point t = (i, 0, k) works
  on row block i (all 256 output columns) and the k-th 1024-wide slab of the contracted axis. This module holds
  what every case of the body shares: each window's block at a point, read off the array as the region finds
  it; that an input's staging buffer holds that block at every point; the two branch conditions of the body
  (k = 0 resets the accumulator, k = 3 stores the output block) in closed form over the grid; where the output
  window is idle and not written back (k ≠ 3); and the staging memrefs the pipeline passes to the body.
-/
import proofs.«116527_j78125455114733_1_alg».proof.Proof.Ideal.L2Scoped

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

-- the contents of the TensorCore's buffers when the region is entered: a parameter, fixed by the run
variable (V : (c : Dev nD) → (b : Ref sig .tc) → Buf (Elt F) ((c : Thread nD τ).loc b))

/-! ## The windows' blocks -/

/-- Window `w`'s block at point `t`, read off its array as the region finds it. -/
def iblkL2 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data over these arrays
    whose body leaves the block in place. -/
theorem beforeL2_0_of {c : Dev nD} (dat : Dat τ (Elt F) Unit ℕ (UR sig nD τ) ℕ cfg1 c) (hA : dat.A 0 = V c (Pipeline.arrRef spec1 0))
    (hafter : ∀ t, dat.after 0 t = iblkL2 V c 0 t) (t : Fin cfg1.N) (d) : dat.before 0 t d = iblkL2 V c 0 t :=
  (dat.before_in_eq_fetched 0 rfl (fun _ => rfl) (fun _ _ _ => rfl) (fun t => by rw [hafter]; unfold Dat.blockOf iblkL2; rw [hA]; try rfl) t d).trans
    (by unfold Dat.fetched Dat.blockOf iblkL2; rw [hA]; try rfl)

/-- Input window 1's current staging buffer holds its block at every point, for any proof data over these arrays
    whose body leaves the block in place. -/
theorem beforeL2_1_of {c : Dev nD} (dat : Dat τ (Elt F) Unit ℕ (UR sig nD τ) ℕ cfg1 c) (hA : dat.A 1 = V c (Pipeline.arrRef spec1 1))
    (hafter : ∀ t, dat.after 1 t = iblkL2 V c 1 t) (t : Fin cfg1.N) (d) : dat.before 1 t d = iblkL2 V c 1 t :=
  (dat.before_in_eq_fetched 1 rfl (fun _ => rfl) (fun _ _ _ => rfl) (fun t => by rw [hafter]; unfold Dat.blockOf iblkL2; rw [hA]; try rfl) t d).trans
    (by unfold Dat.fetched Dat.blockOf iblkL2; rw [hA]; try rfl)

/-- Input window 2's current staging buffer holds its block at every point, for any proof data over these arrays
    whose body leaves the block in place. -/
theorem beforeL2_2_of {c : Dev nD} (dat : Dat τ (Elt F) Unit ℕ (UR sig nD τ) ℕ cfg1 c) (hA : dat.A 2 = V c (Pipeline.arrRef spec1 2))
    (hafter : ∀ t, dat.after 2 t = iblkL2 V c 2 t) (t : Fin cfg1.N) (d) : dat.before 2 t d = iblkL2 V c 2 t :=
  (dat.before_in_eq_fetched 2 rfl (fun _ => rfl) (fun _ _ _ => rfl) (fun t => by rw [hafter]; unfold Dat.blockOf iblkL2; rw [hA]; try rfl) t d).trans
    (by unfold Dat.fetched Dat.blockOf iblkL2; rw [hA]; try rfl)

/-- Input window 3's current staging buffer holds its block at every point, for any proof data over these arrays
    whose body leaves the block in place. -/
theorem beforeL2_3_of {c : Dev nD} (dat : Dat τ (Elt F) Unit ℕ (UR sig nD τ) ℕ cfg1 c) (hA : dat.A 3 = V c (Pipeline.arrRef spec1 3))
    (hafter : ∀ t, dat.after 3 t = iblkL2 V c 3 t) (t : Fin cfg1.N) (d) : dat.before 3 t d = iblkL2 V c 3 t :=
  (dat.before_in_eq_fetched 3 rfl (fun _ => rfl) (fun _ _ _ => rfl) (fun t => by rw [hafter]; unfold Dat.blockOf iblkL2; rw [hA]; try rfl) t d).trans
    (by unfold Dat.fetched Dat.blockOf iblkL2; rw [hA]; try rfl)

/-! ## The body's two branch conditions over the grid -/

/-- "This is the first slab of the contracted axis" (k = 0): the accumulator is reset. -/
abbrev condL2_0 (i : grid1.Coords) : Prop := (Scalar.cmpi .ne (Scalar.extui (Scalar.cmpi .eq (BitVec.ofNat 32 (i 2).val) 0#32)) 0#32) = 1#1
/-- It holds at the points ≡ 0 (mod 4). -/
theorem hcondL2_0 : ∀ t : Fin cfg1.N, condL2_0 (grid1.coords t) ↔ t.val % 4 = 0 :=
  (by decide +kernel : ∀ t : Fin grid1.N, condL2_0 (grid1.coords t) ↔ t.val % 4 = 0)

/-- "This is the last slab" (k = 3): the output block is stored. -/
abbrev condL2_1 (i : grid1.Coords) : Prop := k1_cond2 i = 1#1
/-- It holds at the points ≡ 3 (mod 4). -/
theorem hcondL2_1 : ∀ t : Fin cfg1.N, condL2_1 (grid1.coords t) ↔ t.val % 4 = 3 :=
  (by decide +kernel : ∀ t : Fin grid1.N, condL2_1 (grid1.coords t) ↔ t.val % 4 = 3)

/-! ## Where the windows are idle -/

theorem liveL2_0 : ∀ t : Fin cfg1.N, cfg1.idle 0 (grid1.coords t) = false := by decide +kernel
theorem liveL2_1 : ∀ t : Fin cfg1.N, cfg1.idle 1 (grid1.coords t) = false := by decide +kernel
theorem liveL2_2 : ∀ t : Fin cfg1.N, cfg1.idle 2 (grid1.coords t) = false := by decide +kernel
theorem liveL2_3 : ∀ t : Fin cfg1.N, cfg1.idle 3 (grid1.coords t) = false := by decide +kernel
/-- Unless k = 3 the output window is idle (nothing is stored into it) -/
theorem idleL2_4 : ∀ t : Fin cfg1.N, ¬condL2_1 (grid1.coords t) → cfg1.idle 4 (grid1.coords t) = true := by decide +kernel
/-- and is not written back. -/
theorem noFlushL2_4 : ∀ t : Fin cfg1.N, ¬condL2_1 (grid1.coords t) → (cfg1.win 4).flush t = false := by decide +kernel
/-- At k = 3 it is live. -/
theorem liveL2_4 : ∀ t : Fin cfg1.N, condL2_1 (grid1.coords t) → cfg1.idle 4 (grid1.coords t) = false := by decide +kernel

/-! ## The memrefs the pipeline passes to the body -/

/-- One staging buffer of the output window, through which its contents are stated. -/
abbrev VOL2 : View sig .tc .vmem ShO EtO := (Memref.whole cc1_stg4_0 : Memref sig .tc .vmem ShO EtO).view
abbrev msL2_0 (t : Fin cfg1.N) : Memref sig .tc .vmem ShA .bf16 := win1_0.stage (cfg1.slots t 0)
abbrev hsL2_0 (t : Fin cfg1.N) : (msL2_0 t).IsWhole := hstage1_0 ((cfg1.slots t 0).cast nbuf1_0)
abbrev msL2_1 (t : Fin cfg1.N) : Memref sig .tc .vmem ShA .bf16 := win1_1.stage (cfg1.slots t 1)
abbrev hsL2_1 (t : Fin cfg1.N) : (msL2_1 t).IsWhole := hstage1_1 ((cfg1.slots t 1).cast nbuf1_1)
abbrev msL2_2 (t : Fin cfg1.N) : Memref sig .tc .vmem ShB .bf16 := win1_2.stage (cfg1.slots t 2)
abbrev hsL2_2 (t : Fin cfg1.N) : (msL2_2 t).IsWhole := hstage1_2 ((cfg1.slots t 2).cast nbuf1_2)
abbrev msL2_3 (t : Fin cfg1.N) : Memref sig .tc .vmem ShB .bf16 := win1_3.stage (cfg1.slots t 3)
abbrev hsL2_3 (t : Fin cfg1.N) : (msL2_3 t).IsWhole := hstage1_3 ((cfg1.slots t 3).cast nbuf1_3)
abbrev msL2_4 (t : Fin cfg1.N) : Memref sig .tc .vmem ShO EtO := win1_4.stage (cfg1.slots t 4)
abbrev hsL2_4 (t : Fin cfg1.N) : (msL2_4 t).IsWhole := hstage1_4 ((cfg1.slots t 4).cast nbuf1_4)
/-- The accumulator as a view: what it holds is stated through it. -/
abbrev VSL2 : View sig .tc .vmem ShO .f32 := accL2.view

end Cert.KernelIdeal.Frm

end
-- ==== Proof.Ideal.L2Reset.lean ====
/-
  The second layer's body at a point with k = 0. The accumulator is reset to zero, then the two products of this
  slab are added to it; nothing is stored into the output block. Stated on arbitrary whole memrefs: the four
  input blocks at their contents, the output's buffer at contents handed back untouched, the accumulator at
  anything on entry. What the accumulator ends with is a list of stored pieces, found by running the body.
-/
import proofs.«116527_j78125455114733_1_alg».proof.Proof.Ideal.L2Blocks

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

set_option maxHeartbeats 4000000 in
/-- The body's run when k = 0 (the reset is taken, the output store is not). -/
noncomputable def kernelRunL2_A (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL2_0 i) (hc1 : ¬condL2_1 i)
    (x0 : Vec F ShA .bf16) (x1 : Vec F ShA .bf16) (x2 : Vec F ShB .bf16) (x3 : Vec F ShB .bf16) :
    Σ' (L4 : List (View.Piece (Elt F) ShO EtO)), { LS0 : List (View.Piece (Elt F) ShO .f32) //
      ∀ (xi4 : Vec F ShO EtO) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨[], ?_, fun xi4 E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frm

end
-- ==== Proof.Ideal.L2Accum.lean ====
/-
  The second layer's body at a point with k = 1 or k = 2. The accumulator, holding what the point before left,
  takes the two products of this slab; nothing is stored into the output block.
-/
import proofs.«116527_j78125455114733_1_alg».proof.Proof.Ideal.L2Reset

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

set_option maxHeartbeats 4000000 in
/-- The body's run when 0 < k < 3 (neither branch is taken). -/
noncomputable def kernelRunL2_B (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : ¬condL2_1 i)
    (x0 : Vec F ShA .bf16) (x1 : Vec F ShA .bf16) (x2 : Vec F ShB .bf16) (x3 : Vec F ShB .bf16) (xs0 : Vec F ShO .f32) :
    Σ' (L4 : List (View.Piece (Elt F) ShO EtO)), { LS0 : List (View.Piece (Elt F) ShO .f32) //
      ∀ (xi4 : Vec F ShO EtO) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨[], ?_, fun xi4 E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frm

end
-- ==== Proof.Ideal.L2Emit.lean ====
/-
  The second layer's body at a point with k = 3. The accumulator takes the last slab's two products, and the
  output block is stored: the accumulator clamped below at zero.
-/
import proofs.«116527_j78125455114733_1_alg».proof.Proof.Ideal.L2Accum

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

set_option maxHeartbeats 4000000 in
/-- The body's run when k = 3 (the reset is not taken, the output store is). -/
noncomputable def kernelRunL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) :
    Σ' (L4 : List (View.Piece (Elt F) ShO EtO)), { LS0 : List (View.Piece (Elt F) ShO .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__dual_matmul_relu_kernel i arg3 harg3 arg4 harg4 arg5 harg5 arg6 harg6 arg7 harg7 arg8 harg8) K } := by
  refine ⟨?_, ?_, fun E K => ?run⟩
  case run =>
    simp only [cc1__dual_matmul_relu_kernel_eq_skeleton]; unfold cc1__dual_matmul_relu_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Frm

end
-- ==== Proof.Ideal.L2Data.lean ====
/-
  The second matmul layer's region, point by point. For each of the three cases of the body (k = 0, 0 < k < 3,
  k = 3): what it leaves in the accumulator, and at k = 3 in the output block, as the stored pieces read back, with
  the fact that the pieces cover the buffer. Then the accumulation over the grid: what the output's staging buffer
  and the accumulator hold after point n, by recursion on n — at k = 0 from the point's blocks alone, otherwise
  over what point n − 1 left in the accumulator. The region invariant carries the accumulator at exactly that
  value from one point to the next (before the first point it is the class invariant: the accumulator at
  anything). With these the proof data of the pipeline are stated and the body's obligation is met at every
  point.
-/
import proofs.«116527_j78125455114733_1_alg».proof.Proof.Ideal.L2Emit

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

local notation "ShA" => S1024x1024
local notation "ShB" => S256x1024
local notation "ShO" => S1024x256
local notation "EtO" => EltTy.f32

variable (V : (c : Dev nD) → (b : Ref sig .tc) → Buf (Elt F) ((c : Thread nD τ).loc b))

/-! ## What each case leaves -/

/-- The k = 0 case's pieces cover the accumulator. -/
theorem scoverL2_A (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL2_0 i) (hc1 : ¬condL2_1 i)
    (x0 : Vec F ShA .bf16) (x1 : Vec F ShA .bf16) (x2 : Vec F ShB .bf16) (x3 : Vec F ShB .bf16) (y : Shape.Idx ShO) :
    ∃ pc ∈ (kernelRunL2_A c i arg3 harg3 arg4 harg4 arg5 harg5 arg6 harg6 arg7 harg7 arg8 harg8 hc0 hc1 x0 x1 x2 x3).2.1, y ∈ pc.1.set :=
  View.cover_of_tiledL (kernelRunL2_A c i arg3 harg3 arg4 harg4 arg5 harg5 arg6 harg6 arg7 harg7 arg8 harg8 hc0 hc1 x0 x1 x2 x3).2.1 (Shape.size ShO) (by sl_kernel_rfl) y

/-- What the k = 0 case leaves in the accumulator: the two products of slab 0 added to zero. -/
def soutL2_A (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : condL2_0 i) (hc1 : ¬condL2_1 i)
    (x0 : Vec F ShA .bf16) (x1 : Vec F ShA .bf16) (x2 : Vec F ShB .bf16) (x3 : Vec F ShB .bf16) : Vec F ShO .f32 :=
  VSL2.read (Elt F) (VSL2.writes (Elt F) VSL2.junk (kernelRunL2_A c i arg3 harg3 arg4 harg4 arg5 harg5 arg6 harg6 arg7 harg7 arg8 harg8 hc0 hc1 x0 x1 x2 x3).2.1)

/-- The 0 < k < 3 case's pieces cover the accumulator. -/
theorem scoverL2_B (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : ¬condL2_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL2_B c i arg3 harg3 arg4 harg4 arg5 harg5 arg6 harg6 arg7 harg7 arg8 harg8 hc0 hc1 x0 x1 x2 x3 xs0).2.1, y ∈ pc.1.set :=
  View.cover_of_tiledL (kernelRunL2_B c i arg3 harg3 arg4 harg4 arg5 harg5 arg6 harg6 arg7 harg7 arg8 harg8 hc0 hc1 x0 x1 x2 x3 xs0).2.1 (Shape.size ShO) (by sl_kernel_rfl) y

/-- What the 0 < k < 3 case leaves in the accumulator: this slab's two products added to what it held. -/
def soutL2_B (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : ¬condL2_1 i)
    (x0 : Vec F ShA .bf16) (x1 : Vec F ShA .bf16) (x2 : Vec F ShB .bf16) (x3 : Vec F ShB .bf16) (xs0 : Vec F ShO .f32) : Vec F ShO .f32 :=
  VSL2.read (Elt F) (VSL2.writes (Elt F) VSL2.junk (kernelRunL2_B c i arg3 harg3 arg4 harg4 arg5 harg5 arg6 harg6 arg7 harg7 arg8 harg8 hc0 hc1 x0 x1 x2 x3 xs0).2.1)

/-- The k = 3 case's pieces for the output block cover it. -/
theorem coverL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL2_C c i arg3 harg3 arg4 harg4 arg5 harg5 arg6 harg6 arg7 harg7 arg8 harg8 hc0 hc1 x0 x1 x2 x3 xs0).1, y ∈ pc.1.set :=
  View.cover_of_tiledL (kernelRunL2_C c i arg3 harg3 arg4 harg4 arg5 harg5 arg6 harg6 arg7 harg7 arg8 harg8 hc0 hc1 x0 x1 x2 x3 xs0).1 (Shape.size ShO) (by sl_kernel_rfl) y

/-- What the k = 3 case leaves in the output's staging buffer: the final accumulator clamped below at zero. -/
def outL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) : Vec F ShO EtO :=
  VOL2.read (Elt F) (VOL2.writes (Elt F) VOL2.junk (kernelRunL2_C c i arg3 harg3 arg4 harg4 arg5 harg5 arg6 harg6 arg7 harg7 arg8 harg8 hc0 hc1 x0 x1 x2 x3 xs0).1)

/-- The k = 3 case's pieces cover the accumulator. -/
theorem scoverL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) (y : Shape.Idx ShO) :
    ∃ pc ∈ (kernelRunL2_C c i arg3 harg3 arg4 harg4 arg5 harg5 arg6 harg6 arg7 harg7 arg8 harg8 hc0 hc1 x0 x1 x2 x3 xs0).2.1, y ∈ pc.1.set :=
  View.cover_of_tiledL (kernelRunL2_C c i arg3 harg3 arg4 harg4 arg5 harg5 arg6 harg6 arg7 harg7 arg8 harg8 hc0 hc1 x0 x1 x2 x3 xs0).2.1 (Shape.size ShO) (by sl_kernel_rfl) y

/-- What the k = 3 case leaves in the accumulator. -/
def soutL2_C (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO EtO) (harg7 : arg7.IsWhole) (arg8 : Memref sig .tc .vmem ShO .f32) (harg8 : arg8.IsWhole) (hc0 : ¬condL2_0 i) (hc1 : condL2_1 i)
    (x0 : Vec F ShA .bf16) (x1 : Vec F ShA .bf16) (x2 : Vec F ShB .bf16) (x3 : Vec F ShB .bf16) (xs0 : Vec F ShO .f32) : Vec F ShO .f32 :=
  VSL2.read (Elt F) (VSL2.writes (Elt F) VSL2.junk (kernelRunL2_C c i arg3 harg3 arg4 harg4 arg5 harg5 arg6 harg6 arg7 harg7 arg8 harg8 hc0 hc1 x0 x1 x2 x3 xs0).2.1)

/-- Where nothing is stored into the output block (k ≠ 3) its value is a placeholder nothing consults: the window is
    neither written back there nor read at the next point. -/
def idleOutL2 : Vec F ShO EtO := VOL2.read (Elt F) VOL2.junk

/-! ## The accumulation over the grid -/

/-- What the output's staging buffer and the accumulator hold after the body at position `n`. -/
def outsAtL2 (c : Dev nD) : (n : ℕ) → n < cfg1.N → Vec F ShO EtO × Vec F ShO .f32
  | 0, hn => (idleOutL2, soutL2_A c (grid1.coords ⟨0, hn⟩) (msL2_0 ⟨0, hn⟩) (hsL2_0 ⟨0, hn⟩) (msL2_1 ⟨0, hn⟩) (hsL2_1 ⟨0, hn⟩) (msL2_2 ⟨0, hn⟩) (hsL2_2 ⟨0, hn⟩) (msL2_3 ⟨0, hn⟩) (hsL2_3 ⟨0, hn⟩) (msL2_4 ⟨0, hn⟩) (hsL2_4 ⟨0, hn⟩) accL2 (Memref.isWhole_whole _) ((hcondL2_0 ⟨0, hn⟩).mpr (Nat.zero_mod _)) (fun h => (fun h => by (try dsimp only at h); omega) ((hcondL2_1 ⟨0, hn⟩).mp h)) (iblkL2 V c 0 ⟨0, hn⟩) (iblkL2 V c 1 ⟨0, hn⟩) (iblkL2 V c 2 ⟨0, hn⟩) (iblkL2 V c 3 ⟨0, hn⟩))
  | n + 1, hn =>
    if h0 : (n + 1) % 4 = 0 then
      if h1 : (n + 1) % 4 = 3 then
        False.elim (by omega)
      else
        (idleOutL2, soutL2_A c (grid1.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) accL2 (Memref.isWhole_whole _) ((hcondL2_0 ⟨n + 1, hn⟩).mpr h0) (fun h => h1 ((hcondL2_1 ⟨n + 1, hn⟩).mp h)) (iblkL2 V c 0 ⟨n + 1, hn⟩) (iblkL2 V c 1 ⟨n + 1, hn⟩) (iblkL2 V c 2 ⟨n + 1, hn⟩) (iblkL2 V c 3 ⟨n + 1, hn⟩))
    else
      if h1 : (n + 1) % 4 = 3 then
        (outL2_C c (grid1.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) accL2 (Memref.isWhole_whole _) (fun h => h0 ((hcondL2_0 ⟨n + 1, hn⟩).mp h)) ((hcondL2_1 ⟨n + 1, hn⟩).mpr h1) (iblkL2 V c 0 ⟨n + 1, hn⟩) (iblkL2 V c 1 ⟨n + 1, hn⟩) (iblkL2 V c 2 ⟨n + 1, hn⟩) (iblkL2 V c 3 ⟨n + 1, hn⟩) (outsAtL2 c n (Nat.lt_of_succ_lt hn)).2, soutL2_C c (grid1.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) accL2 (Memref.isWhole_whole _) (fun h => h0 ((hcondL2_0 ⟨n + 1, hn⟩).mp h)) ((hcondL2_1 ⟨n + 1, hn⟩).mpr h1) (iblkL2 V c 0 ⟨n + 1, hn⟩) (iblkL2 V c 1 ⟨n + 1, hn⟩) (iblkL2 V c 2 ⟨n + 1, hn⟩) (iblkL2 V c 3 ⟨n + 1, hn⟩) (outsAtL2 c n (Nat.lt_of_succ_lt hn)).2)
      else
        (idleOutL2, soutL2_B c (grid1.coords ⟨n + 1, hn⟩) (msL2_0 ⟨n + 1, hn⟩) (hsL2_0 ⟨n + 1, hn⟩) (msL2_1 ⟨n + 1, hn⟩) (hsL2_1 ⟨n + 1, hn⟩) (msL2_2 ⟨n + 1, hn⟩) (hsL2_2 ⟨n + 1, hn⟩) (msL2_3 ⟨n + 1, hn⟩) (hsL2_3 ⟨n + 1, hn⟩) (msL2_4 ⟨n + 1, hn⟩) (hsL2_4 ⟨n + 1, hn⟩) accL2 (Memref.isWhole_whole _) (fun h => h0 ((hcondL2_0 ⟨n + 1, hn⟩).mp h)) (fun h => h1 ((hcondL2_1 ⟨n + 1, hn⟩).mp h)) (iblkL2 V c 0 ⟨n + 1, hn⟩) (iblkL2 V c 1 ⟨n + 1, hn⟩) (iblkL2 V c 2 ⟨n + 1, hn⟩) (iblkL2 V c 3 ⟨n + 1, hn⟩) (outsAtL2 c n (Nat.lt_of_succ_lt hn)).2)

/-- At a point with k = 0. -/
theorem outsAtL2_A (c : Dev nD) (t : Fin cfg1.N) (h0 : t.val % 4 = 0) (h1 : ¬t.val % 4 = 3) :
    outsAtL2 V c t.val t.isLt = (idleOutL2, soutL2_A c (grid1.coords t) (msL2_0 t) (hsL2_0 t) (msL2_1 t) (hsL2_1 t) (msL2_2 t) (hsL2_2 t) (msL2_3 t) (hsL2_3 t) (msL2_4 t) (hsL2_4 t) accL2 (Memref.isWhole_whole _) ((hcondL2_0 t).mpr h0) (fun h => h1 ((hcondL2_1 t).mp h)) (iblkL2 V c 0 t) (iblkL2 V c 1 t) (iblkL2 V c 2 t) (iblkL2 V c 3 t)) := by
  obtain ⟨n, hn⟩ := t
  cases n with
  | zero => exact rfl
  | succ n => exact (dif_pos h0).trans ((dif_neg h1).trans rfl)

/-- At a point with 0 < k < 3: over what the point before left. -/
theorem outsAtL2_B (c : Dev nD) (t : Fin cfg1.N) (h0 : ¬t.val % 4 = 0) (h1 : ¬t.val % 4 = 3) :
    outsAtL2 V c t.val t.isLt = (idleOutL2, soutL2_B c (grid1.coords t) (msL2_0 t) (hsL2_0 t) (msL2_1 t) (hsL2_1 t) (msL2_2 t) (hsL2_2 t) (msL2_3 t) (hsL2_3 t) (msL2_4 t) (hsL2_4 t) accL2 (Memref.isWhole_whole _) (fun h => h0 ((hcondL2_0 t).mp h)) (fun h => h1 ((hcondL2_1 t).mp h)) (iblkL2 V c 0 t) (iblkL2 V c 1 t) (iblkL2 V c 2 t) (iblkL2 V c 3 t) (outsAtL2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAtL2_C (c : Dev nD) (t : Fin cfg1.N) (h0 : ¬t.val % 4 = 0) (h1 : t.val % 4 = 3) :
    outsAtL2 V c t.val t.isLt = (outL2_C c (grid1.coords t) (msL2_0 t) (hsL2_0 t) (msL2_1 t) (hsL2_1 t) (msL2_2 t) (hsL2_2 t) (msL2_3 t) (hsL2_3 t) (msL2_4 t) (hsL2_4 t) accL2 (Memref.isWhole_whole _) (fun h => h0 ((hcondL2_0 t).mp h)) ((hcondL2_1 t).mpr h1) (iblkL2 V c 0 t) (iblkL2 V c 1 t) (iblkL2 V c 2 t) (iblkL2 V c 3 t) (outsAtL2 V c (t.val - 1) (Nat.lt_of_le_of_lt (Nat.sub_le _ _) t.isLt)).2, soutL2_C c (grid1.coords t) (msL2_0 t) (hsL2_0 t) (msL2_1 t) (hsL2_1 t) (msL2_2 t) (hsL2_2 t) (msL2_3 t) (hsL2_3 t) (msL2_4 t) (hsL2_4 t) accL2 (Memref.isWhole_whole _) (fun h => h0 ((hcondL2_0 t).mp h)) ((hcondL2_1 t).mpr h1) (iblkL2 V c 0 t) (iblkL2 V c 1 t) (iblkL2 V c 2 t) (iblkL2 V c 3 t) (outsAtL2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (the accumulator at anything); afterwards the accumulator at
    what the point before left, the other call's scoped buffers at anything, the generator register at some state. -/
def PhiSL2 (c : Dev nD) : (n : ℕ) → n ≤ cfg1.N → sProp 𝕄
  | 0, _ => Pipeline.ΦA spec1 c
  | n + 1, hn => iprop(iprop(owns (c : Thread nD τ) accL2 fullShare ((outsAtL2 V c n hn).2) ∗ keptL2 c) ∗ (∃ r, prngReg c r))

theorem PhiSL2_zero (c : Dev nD) (n : ℕ) (h : n ≤ cfg1.N) (hz : n = 0) : PhiSL2 V c n h = Pipeline.ΦA spec1 c := by
  subst hz; rfl

theorem PhiSL2_succ (c : Dev nD) (n : ℕ) (hn : n < cfg1.N) :
    PhiSL2 V c (n + 1) hn = iprop(iprop(owns (c : Thread nD τ) accL2 fullShare ((outsAtL2 V c n hn).2) ∗ keptL2 c) ∗ (∃ r, prngReg c r)) := rfl

theorem PhiSL2_pos (c : Dev nD) (n : ℕ) (h : n ≤ cfg1.N) (hz : n ≠ 0) :
    PhiSL2 V c n h = iprop(iprop(owns (c : Thread nD τ) accL2 fullShare ((outsAtL2 V c (n - 1) (by omega)).2) ∗ keptL2 c) ∗ (∃ r, prngReg c r)) := by
  cases n with
  | zero => exact absurd rfl hz
  | succ n => rfl

/-! ## The pipeline's proof data -/

/-- The arrays as the region finds them; after the body at point `t` each input's buffer at its block and the output's
    at the accumulation's first component; the invariant above; nothing owed; full shares. -/
def datL2 (c : Dev nD) : Dat τ (Elt F) Unit ℕ (UR sig nD τ) ℕ cfg1 c where
  A w := V c (Pipeline.arrRef spec1 w)
  after w t := match w with
    | ⟨0, _⟩ => iblkL2 V c 0 t
    | ⟨1, _⟩ => iblkL2 V c 1 t
    | ⟨2, _⟩ => iblkL2 V c 2 t
    | ⟨3, _⟩ => iblkL2 V c 3 t
    | ⟨4, _⟩ => (outsAtL2 V c t.val t.isLt).1
  Φ t := PhiSL2 V c t.val (Nat.le_of_lt_succ t.isLt)
  q _ := fullShare
  owed _ := 0

theorem A_eqL2 (c : Dev nD) (w : Fin cfg1.W) : (datL2 V c).A w = V c (Pipeline.arrRef spec1 w) := by
  dsimp only [datL2]

theorem PhiSL2_castSucc (c : Dev nD) (t : Fin cfg1.N) :
    (datL2 V c).Φ t.castSucc = PhiSL2 V c t.val (Nat.le_of_lt t.isLt) := by
  dsimp only [datL2]; simp only [Fin.coe_castSucc]

theorem afterL2_0 (c : Dev nD) (t : Fin cfg1.N) : (datL2 V c).after 0 t = iblkL2 V c 0 t := by dsimp only [datL2]
theorem afterL2_1 (c : Dev nD) (t : Fin cfg1.N) : (datL2 V c).after 1 t = iblkL2 V c 1 t := by dsimp only [datL2]
theorem afterL2_2 (c : Dev nD) (t : Fin cfg1.N) : (datL2 V c).after 2 t = iblkL2 V c 2 t := by dsimp only [datL2]
theorem afterL2_3 (c : Dev nD) (t : Fin cfg1.N) : (datL2 V c).after 3 t = iblkL2 V c 3 t := by dsimp only [datL2]
theorem afterL2_4 (c : Dev nD) (t : Fin cfg1.N) : (datL2 V c).after 4 t = (outsAtL2 V c t.val t.isLt).1 := by dsimp only [datL2]

theorem beforeL2_0 (c : Dev nD) (t : Fin cfg1.N) (d) : (datL2 V c).before 0 t d = iblkL2 V c 0 t :=
  beforeL2_0_of V (datL2 V c) (A_eqL2 V c 0) (afterL2_0 V c) t d
theorem beforeL2_1 (c : Dev nD) (t : Fin cfg1.N) (d) : (datL2 V c).before 1 t d = iblkL2 V c 1 t :=
  beforeL2_1_of V (datL2 V c) (A_eqL2 V c 1) (afterL2_1 V c) t d
theorem beforeL2_2 (c : Dev nD) (t : Fin cfg1.N) (d) : (datL2 V c).before 2 t d = iblkL2 V c 2 t :=
  beforeL2_2_of V (datL2 V c) (A_eqL2 V c 2) (afterL2_2 V c) t d
theorem beforeL2_3 (c : Dev nD) (t : Fin cfg1.N) (d) : (datL2 V c).before 3 t d = iblkL2 V c 3 t :=
  beforeL2_3_of V (datL2 V c) (A_eqL2 V c 3) (afterL2_3 V c) t d

/-- An input's buffer is left at its block. -/
theorem leavesL2_0 (c : Dev nD) (t : Fin cfg1.N) : (datL2 V c).leavesExact 0 t = owns (c : Thread nD τ) (msL2_0 t) fullShare (iblkL2 V c 0 t) := by
  unfold Dat.leavesExact; rw [liveL2_0 t, afterL2_0]
theorem leavesL2_1 (c : Dev nD) (t : Fin cfg1.N) : (datL2 V c).leavesExact 1 t = owns (c : Thread nD τ) (msL2_1 t) fullShare (iblkL2 V c 1 t) := by
  unfold Dat.leavesExact; rw [liveL2_1 t, afterL2_1]
theorem leavesL2_2 (c : Dev nD) (t : Fin cfg1.N) : (datL2 V c).leavesExact 2 t = owns (c : Thread nD τ) (msL2_2 t) fullShare (iblkL2 V c 2 t) := by
  unfold Dat.leavesExact; rw [liveL2_2 t, afterL2_2]
theorem leavesL2_3 (c : Dev nD) (t : Fin cfg1.N) : (datL2 V c).leavesExact 3 t = owns (c : Thread nD τ) (msL2_3 t) fullShare (iblkL2 V c 3 t) := by
  unfold Dat.leavesExact; rw [liveL2_3 t, afterL2_3]

/-! ## The body obligation, at a generic point -/

def bodyPreL2 (c : Dev nD) (t : Fin cfg1.N) : sProp 𝕄 :=
  iprop((datL2 V c).Φ t.castSucc ∗ (datL2 V c).owesAt () t.castSucc
    ∗ (∃ d, owns (c : Thread nD τ) (msL2_0 t) fullShare ((datL2 V c).before 0 t d))
    ∗ (∃ d, owns (c : Thread nD τ) (msL2_1 t) fullShare ((datL2 V c).before 1 t d))
    ∗ (∃ d, owns (c : Thread nD τ) (msL2_2 t) fullShare ((datL2 V c).before 2 t d))
    ∗ (∃ d, owns (c : Thread nD τ) (msL2_3 t) fullShare ((datL2 V c).before 3 t d))
    ∗ (∃ d, owns (c : Thread nD τ) (msL2_4 t) fullShare ((datL2 V c).before 4 t d)))

def bodyPostL2 (c : Dev nD) (t : Fin cfg1.N) : sProp 𝕄 :=
  iprop((datL2 V c).Φ t.succ ∗ (datL2 V c).owesAt () t.succ
    ∗ (datL2 V c).leavesExact 0 t
    ∗ (datL2 V c).leavesExact 1 t
    ∗ (datL2 V c).leavesExact 2 t
    ∗ (datL2 V c).leavesExact 3 t
    ∗ (datL2 V c).leavesExact 4 t)

set_option maxHeartbeats 8000000 in
/-- The body at any point: the inputs' memrefs hold their blocks; the closed forms say which case the point is in; the
    invariant hands the body the accumulator at what the point before left (at anything when k = 0) and takes it back
    at this point's value; the core owes nothing throughout. -/
theorem sound_bodyL2 (c : Dev nD) (t : Fin cfg1.N) :
    bodyPreL2 V c t ⊢ wp frame (wpE (defs₀ (F := F)) Variants.none c none) Set.univ (bodyAt1 t) (fun _ => bodyPostL2 V c t) := by
  unfold bodyPreL2 bodyPostL2 bodyAt1
  simp only [beforeL2_0, beforeL2_1, beforeL2_2, beforeL2_3]
  rw [show (datL2 V c).owesAt () t.succ = (datL2 V c).owesAt () t.castSucc from rfl]
  rw [show (datL2 V c).Φ t.succ = PhiSL2 V c (t.val + 1) t.isLt from rfl, PhiSL2_succ]
  rw [leavesL2_0, leavesL2_1, leavesL2_2, leavesL2_3]
  by_cases h0 : t.val % 4 = 0
  · by_cases h1 : t.val % 4 = 3
    · exfalso; omega
    · rw [Dat.leavesExact_idle (datL2 V c) 4 t (idleL2_4 t (fun h => h1 ((hcondL2_1 t).mp h))) (noFlushL2_4 t (fun h => h1 ((hcondL2_1 t).mp h)))]
      rw [outsAtL2_A V c t h0 h1]
      unfold soutL2_A; (try dsimp only)
      by_cases hz : t.val = 0
      · rw [PhiSL2_castSucc V c t, PhiSL2_zero V c _ _ hz, PhiA_eqL2]
        iintro ⟨⟨⟨HS0, Hkp⟩, Hg⟩, Ho, ⟨%d0, H0⟩, ⟨%d1, H1⟩, ⟨%d2, H2⟩, ⟨%d3, H3⟩, ⟨%d4, H4⟩⟩
        iapply ((kernelRunL2_A c (grid1.coords t) _ _ _ _ _ _ _ _ _ _ _ _ ((hcondL2_0 t).mpr h0) (fun h => h1 ((hcondL2_1 t).mp h)) (iblkL2 V c 0 t) (iblkL2 V c 1 t) (iblkL2 V c 2 t) (iblkL2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hkp Hg]
        · isplitl [HS0 Hkp]
          · isplitl [HS0]
            · unfold owns; iexists _; isplitr
              swap; · iexact HS0
              ipureintro; exact View.read_writes_of_cover _ _ _ _ _ (scoverL2_A c _ _ _ _ _ _ _ _ _ _ _ _ _ _ _ _ _ _ _)
            iexact Hkp
          iexact Hg
        isplitl [Ho]; · iexact Ho
        isplitl [H0]; · iexact H0
        isplitl [H1]; · iexact H1
        isplitl [H2]; · iexact H2
        isplitl [H3]; · iexact H3
        iexists _; iexact H4
      · rw [PhiSL2_castSucc V c t, PhiSL2_pos V c _ _ hz]
        iintro ⟨⟨⟨HS0, Hkp⟩, Hg⟩, Ho, ⟨%d0, H0⟩, ⟨%d1, H1⟩, ⟨%d2, H2⟩, ⟨%d3, H3⟩, ⟨%d4, H4⟩⟩
        iapply ((kernelRunL2_A c (grid1.coords t) _ _ _ _ _ _ _ _ _ _ _ _ ((hcondL2_0 t).mpr h0) (fun h => h1 ((hcondL2_1 t).mp h)) (iblkL2 V c 0 t) (iblkL2 V c 1 t) (iblkL2 V c 2 t) (iblkL2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hkp Hg]
        · isplitl [HS0 Hkp]
          · isplitl [HS0]
            · unfold owns; iexists _; isplitr
              swap; · iexact HS0
              ipureintro; exact View.read_writes_of_cover _ _ _ _ _ (scoverL2_A c _ _ _ _ _ _ _ _ _ _ _ _ _ _ _ _ _ _ _)
            iexact Hkp
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 4 = 3
    · rw [show (datL2 V c).leavesExact 4 t = owns (c : Thread nD τ) (msL2_4 t) fullShare ((datL2 V c).after 4 t) from by
        unfold Dat.leavesExact; rw [liveL2_4 t ((hcondL2_1 t).mpr h1)], afterL2_4]
      rw [outsAtL2_C V c t h0 h1]
      unfold outL2_C soutL2_C; (try dsimp only)
      rw [PhiSL2_castSucc V c t, PhiSL2_pos V c _ _ hz]
      iintro ⟨⟨⟨HS0, Hkp⟩, Hg⟩, Ho, ⟨%d0, H0⟩, ⟨%d1, H1⟩, ⟨%d2, H2⟩, ⟨%d3, H3⟩, ⟨%d4, H4⟩⟩
      iapply ((kernelRunL2_C c (grid1.coords t) _ _ _ _ _ _ _ _ _ _ _ _ (fun h => h0 ((hcondL2_0 t).mp h)) ((hcondL2_1 t).mpr h1) (iblkL2 V c 0 t) (iblkL2 V c 1 t) (iblkL2 V c 2 t) (iblkL2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hkp Hg]
      · isplitl [HS0 Hkp]
        · isplitl [HS0]
          · unfold owns; iexists _; isplitr
            swap; · iexact HS0
            ipureintro; exact View.read_writes_of_cover _ _ _ _ _ (scoverL2_C c _ _ _ _ _ _ _ _ _ _ _ _ _ _ _ _ _ _ _ _)
          iexact Hkp
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverL2_C c _ _ _ _ _ _ _ _ _ _ _ _ _ _ _ _ _ _ _ _)
    · rw [Dat.leavesExact_idle (datL2 V c) 4 t (idleL2_4 t (fun h => h1 ((hcondL2_1 t).mp h))) (noFlushL2_4 t (fun h => h1 ((hcondL2_1 t).mp h)))]
      rw [outsAtL2_B V c t h0 h1]
      unfold soutL2_B; (try dsimp only)
      rw [PhiSL2_castSucc V c t, PhiSL2_pos V c _ _ hz]
      iintro ⟨⟨⟨HS0, Hkp⟩, Hg⟩, Ho, ⟨%d0, H0⟩, ⟨%d1, H1⟩, ⟨%d2, H2⟩, ⟨%d3, H3⟩, ⟨%d4, H4⟩⟩
      iapply ((kernelRunL2_B c (grid1.coords t) _ _ _ _ _ _ _ _ _ _ _ _ (fun h => h0 ((hcondL2_0 t).mp h)) (fun h => h1 ((hcondL2_1 t).mp h)) (iblkL2 V c 0 t) (iblkL2 V c 1 t) (iblkL2 V c 2 t) (iblkL2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hkp Hg]
      · isplitl [HS0 Hkp]
        · isplitl [HS0]
          · unfold owns; iexists _; isplitr
            swap; · iexact HS0
            ipureintro; exact View.read_writes_of_cover _ _ _ _ _ (scoverL2_B c _ _ _ _ _ _ _ _ _ _ _ _ _ _ _ _ _ _ _ _)
          iexact Hkp
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligationL2 (c : Dev nD) : BodyObligation (datL2 (F := F) V c) (defs₀ (F := F)) Variants.none () Set.univ := fun t => by
  rw [bigSep_W1, bigSep_W1]
  exact sound_bodyL2 V c t

/-- What the region is entered with (the class invariant) is the invariant before the first point. -/
theorem hinL2 (c : Dev nD) : Pipeline.ΦA spec1 c ⊢ (datL2 V c).Φ 0 := by
  rw [show (datL2 V c).Φ 0 = PhiSL2 V c 0 (Nat.zero_le _) from rfl, PhiSL2_zero V c 0 _ rfl]
  try exact Idealize.SL.BI.Entails.refl _

/-- After the last point the invariant gives the class invariant back: the accumulator's value is forgotten. -/
theorem houtL2 (c : Dev nD) : (datL2 V c).Φ (Fin.last cfg1.N) ⊢ Pipeline.ΦA spec1 c := by
  rw [show (datL2 V c).Φ (Fin.last cfg1.N) = PhiSL2 V c (Fin.last cfg1.N).val (Nat.le_of_lt_succ (Fin.last cfg1.N).isLt) from rfl,
    PhiSL2_pos V c _ _ (by rw [Fin.val_last]; have : cfg1.N = 16 := N_1; omega), PhiA_eqL2]
  iintro ⟨⟨HS0, Hkp⟩, Hg⟩
  isplitl [HS0 Hkp]
  · isplitl [HS0]
    · iexists _; iexact HS0
    iexact Hkp
  iexact Hg

end Cert.KernelIdeal.Frm

end
-- ==== Proof.Ideal.Run.lean ====
/-
  The whole program's run: host operations (the neighbour aggregation, the casts and the weight slices), then the
  first layer's region, then the second's. The contents of the core's buffers at each boundary: the launch memory;
  after the host operations; after the first region, its arrays at what its write-backs leave and every other
  buffer untouched; the same after the second. Each region is entered from the state the item before it left.
  The run ends with every unscoped buffer at the last boundary's contents, from which both the frame claim (no
  item writes an argument) and the result's value are read.
-/
import proofs.«116527_j78125455114733_1_alg».proof.Proof.Ideal.L1Data
import proofs.«116527_j78125455114733_1_alg».proof.Proof.Ideal.L2Data
import proofs.«116527_j78125455114733_1_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c => Gen.V0 m c
/-- after the host operations (the first region's entry), -/
abbrev W1 : Dev nD → Valuation τ sig (Elt F) := fun c => Gen.V1 m c
/-- the same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (datL1 (V1 m) c).arrAt w cfg0.N
theorem W2_arr (c : Dev nD) (w : Fin cfg0.W) :
    W2 m c (Proc.devRef .tc (Pipeline.arrRef spec0 w)) = (datL1 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (datL1 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m c) fun w => (datL2 (V2 m) c).arrAt w cfg1.N
theorem W3_arr (c : Dev nD) (w : Fin cfg1.W) :
    W3 m c (Proc.devRef .tc (Pipeline.arrRef spec1 w)) = (datL2 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (datL2 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: no host operation writes one and no region stages one -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| Gen.V1_of m c main_arg0 (by decide)
theorem W3_main_arg1 (c : Dev nD) : W3 m c (Proc.devRef .tc main_arg1) = m ((c : Thread nD τ).loc main_arg1) :=
  (W3_of_ne m c main_arg1 (by decide)).trans <| (W2_of_ne m c main_arg1 (by decide)).trans <| Gen.V1_of m c main_arg1 (by decide)
theorem W3_main_arg2 (c : Dev nD) : W3 m c (Proc.devRef .tc main_arg2) = m ((c : Thread nD τ).loc main_arg2) :=
  (W3_of_ne m c main_arg2 (by decide)).trans <| (W2_of_ne m c main_arg2 (by decide)).trans <| Gen.V1_of m c main_arg2 (by decide)
theorem W3_main_arg3 (c : Dev nD) : W3 m c (Proc.devRef .tc main_arg3) = m ((c : Thread nD τ).loc main_arg3) :=
  (W3_of_ne m c main_arg3 (by decide)).trans <| (W2_of_ne m c main_arg3 (by decide)).trans <| Gen.V1_of m c main_arg3 (by decide)
theorem W3_main_arg4 (c : Dev nD) : W3 m c (Proc.devRef .tc main_arg4) = m ((c : Thread nD τ).loc main_arg4) :=
  (W3_of_ne m c main_arg4 (by decide)).trans <| (W2_of_ne m c main_arg4 (by decide)).trans <| Gen.V1_of m c main_arg4 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => datL1 (V1 m) c
  | ⟨1, _⟩ => fun c => datL2 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

-- unification of the library's lemmas over the pinned configuration needs plain definitions unfolded in a metavariable's type
set_option backward.isDefEq.respectTransparency.types false in
/-- The first layer's region as a segment: entered from every unscoped buffer at `W1`, left at `W2`. Its arrays
    are split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationL1 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from houtL1 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's lemmas over the pinned configuration needs plain definitions unfolded in a metavariable's type
set_option backward.isDefEq.respectTransparency.types false in
/-- The second layer's region as a segment: entered from every unscoped buffer at `W2`, left at `W3`. Its arrays
    are split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationL2 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from houtL2 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_main m ρ)

/-- The result buffer's last contents: what the second region's write-backs leave in its output array. -/
theorem W3_result (c : Dev nD) : W3 m c (Proc.devRef .tc main_v21) = (datL2 (V2 m) c).arrAt 4 cfg1.N :=
  W3_arr m c 4

/-- Entering the second region, the first layer's result is what the first region's write-backs left. -/
theorem V2_hidden (c : Dev nD) : V2 m c main_v20 = (datL1 (V1 m) c).arrAt 4 cfg0.N :=
  W2_arr m c 4
/-- The first region leaves the aggregated features and the second layer's weight halves as it found them. -/
theorem V2_agg (c : Dev nD) : V2 m c main_v11 = V1 m c main_v11 :=
  (W2_arr m c 1).trans (((datL1 (V1 m) c).arrAt_in 1 rfl _).trans (A_eqL1 (V1 m) c 1))
theorem V2_w2l (c : Dev nD) : V2 m c main_v17 = V1 m c main_v17 := W2_of_ne m c main_v17 (by decide)
theorem V2_w2r (c : Dev nD) : V2 m c main_v19 = V1 m c main_v19 := W2_of_ne m c main_v19 (by decide)

end Cert.KernelIdeal.Frm

end
-- ==== Proof.Ideal.L1ValueA.lean ====
/-
  What each case of the first layer's body leaves, as terms over the body's arithmetic. The accumulator is a whole
  1024 × 1024 buffer and every store into it, and every load from it, is of the whole buffer; so a load reads the
  payload of the store just before it, and what the buffer is left holding is the payload of the last store. At
  k = 0 that is  (zero block + left product) + aggregated product;  at k > 0 the same over what the point before
  left; at k = 3 the output block is, besides, the final accumulator clamped below at zero and narrowed.
-/
import proofs.«116527_j78125455114733_1_alg».proof.Proof.Ideal.L1Data
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Cert.KernelIdeal.Gen Cert.KernelIdeal.Frm

variable {F : FTy → Type} [FloatOps F]

local notation "Sh" => S1024x1024

/-- The offset of a store or load of a whole 1024 × 1024 buffer is zero on both axes. -/
theorem hz : (![0, 0] : Fin 2 → Nat) = fun _ => 0 := funext fun a => by fin_cases a <;> rfl

/-- At k = 0 the accumulator is stored three times whole: the zero block, then that plus the left product of the
    slab, then that plus the aggregated product; the last store is what it is left holding, each read-back being the
    store just before it. -/
theorem soutL1_A_eq (c : Dev nD) (i : grid0.Coords) (arg3 : Memref sig .tc .vmem Sh .bf16) (harg3 : arg3.IsWhole) (arg4 : Memref sig .tc .vmem Sh .bf16) (harg4 : arg4.IsWhole) (arg5 : Memref sig .tc .vmem Sh .bf16) (harg5 : arg5.IsWhole) (arg6 : Memref sig .tc .vmem Sh .bf16) (harg6 : arg6.IsWhole) (arg7 : Memref sig .tc .vmem Sh .bf16) (harg7 : arg7.IsWhole) (arg8 : Memref sig .tc .vmem Sh .f32) (harg8 : arg8.IsWhole) (hc0 : condL1_0 i) (hc1 : ¬condL1_1 i)
    (x0 x1 x2 x3 : Vec F Sh .bf16) :
    soutL1_A c i arg3 harg3 arg4 harg4 arg5 harg5 arg6 harg6 arg7 harg7 arg8 harg8 hc0 hc1 x0 x1 x2 x3
      = k0_pay3 (k0_pay2 (k0_pay1 (F := F)) x0 x2) x1 x3 := by
  unfold soutL1_A
  rw [View.read_writes_eq_canon _ _ _ (scoverL1_A c i arg3 harg3 arg4 harg4 arg5 harg5 arg6 harg6 arg7 harg7 arg8 harg8 hc0 hc1 x0 x1 x2 x3)]
  unfold kernelRunL1_A
  dsimp only
  sl_unfold_words
  rw [View.canon_cons_unit_zero (S := Sh) hz]
  simp only [View.readCov_cons_toLoadRect, View.readAt_eq_ld, harg3.read_unread, harg4.read_unread, harg5.read_unread, harg6.read_unread, harg8.read_unread, View.ld_unit_zero (S := Sh) hz]

/-- At 0 < k < 3 the accumulator, holding what the point before left, is stored twice whole: plus the left product of
    the slab, then plus the aggregated product. -/
theorem soutL1_B_eq (c : Dev nD) (i : grid0.Coords) (arg3 : Memref sig .tc .vmem Sh .bf16) (harg3 : arg3.IsWhole) (arg4 : Memref sig .tc .vmem Sh .bf16) (harg4 : arg4.IsWhole) (arg5 : Memref sig .tc .vmem Sh .bf16) (harg5 : arg5.IsWhole) (arg6 : Memref sig .tc .vmem Sh .bf16) (harg6 : arg6.IsWhole) (arg7 : Memref sig .tc .vmem Sh .bf16) (harg7 : arg7.IsWhole) (arg8 : Memref sig .tc .vmem Sh .f32) (harg8 : arg8.IsWhole) (hc0 : ¬condL1_0 i) (hc1 : ¬condL1_1 i)
    (x0 x1 x2 x3 : Vec F Sh .bf16) (xs0 : Vec F Sh .f32) :
    soutL1_B c i arg3 harg3 arg4 harg4 arg5 harg5 arg6 harg6 arg7 harg7 arg8 harg8 hc0 hc1 x0 x1 x2 x3 xs0
      = k0_pay3 (k0_pay2 xs0 x0 x2) x1 x3 := by
  unfold soutL1_B
  rw [View.read_writes_eq_canon _ _ _ (scoverL1_B c i arg3 harg3 arg4 harg4 arg5 harg5 arg6 harg6 arg7 harg7 arg8 harg8 hc0 hc1 x0 x1 x2 x3 xs0)]
  unfold kernelRunL1_B
  dsimp only
  sl_unfold_words
  rw [View.canon_cons_unit_zero (S := Sh) hz]
  simp only [View.readCov_cons_toLoadRect, View.readAt_eq_ld, harg3.read_unread, harg4.read_unread, harg5.read_unread, harg6.read_unread, harg8.read_unread, View.ld_unit_zero (S := Sh) hz]

/-- At k = 3 the accumulator takes the same two stores. -/
theorem soutL1_C_eq (c : Dev nD) (i : grid0.Coords) (arg3 : Memref sig .tc .vmem Sh .bf16) (harg3 : arg3.IsWhole) (arg4 : Memref sig .tc .vmem Sh .bf16) (harg4 : arg4.IsWhole) (arg5 : Memref sig .tc .vmem Sh .bf16) (harg5 : arg5.IsWhole) (arg6 : Memref sig .tc .vmem Sh .bf16) (harg6 : arg6.IsWhole) (arg7 : Memref sig .tc .vmem Sh .bf16) (harg7 : arg7.IsWhole) (arg8 : Memref sig .tc .vmem Sh .f32) (harg8 : arg8.IsWhole) (hc0 : ¬condL1_0 i) (hc1 : condL1_1 i)
    (x0 x1 x2 x3 : Vec F Sh .bf16) (xs0 : Vec F Sh .f32) :
    soutL1_C c i arg3 harg3 arg4 harg4 arg5 harg5 arg6 harg6 arg7 harg7 arg8 harg8 hc0 hc1 x0 x1 x2 x3 xs0
      = k0_pay3 (k0_pay2 xs0 x0 x2) x1 x3 := by
  unfold soutL1_C
  rw [View.read_writes_eq_canon _ _ _ (scoverL1_C c i arg3 harg3 arg4 harg4 arg5 harg5 arg6 harg6 arg7 harg7 arg8 harg8 hc0 hc1 x0 x1 x2 x3 xs0)]
  unfold kernelRunL1_C
  dsimp only
  sl_unfold_words
  rw [View.canon_cons_unit_zero (S := Sh) hz]
  simp only [View.readCov_cons_toLoadRect, View.readAt_eq_ld, harg3.read_unread, harg4.read_unread, harg5.read_unread, harg6.read_unread, harg8.read_unread, View.ld_unit_zero (S := Sh) hz]

/-- At k = 3 the output block is stored once whole: the final accumulator, read back, clamped below at zero and
    narrowed. -/
theorem outL1_C_eq (c : Dev nD) (i : grid0.Coords) (arg3 : Memref sig .tc .vmem Sh .bf16) (harg3 : arg3.IsWhole) (arg4 : Memref sig .tc .vmem Sh .bf16) (harg4 : arg4.IsWhole) (arg5 : Memref sig .tc .vmem Sh .bf16) (harg5 : arg5.IsWhole) (arg6 : Memref sig .tc .vmem Sh .bf16) (harg6 : arg6.IsWhole) (arg7 : Memref sig .tc .vmem Sh .bf16) (harg7 : arg7.IsWhole) (arg8 : Memref sig .tc .vmem Sh .f32) (harg8 : arg8.IsWhole) (hc0 : ¬condL1_0 i) (hc1 : condL1_1 i)
    (x0 x1 x2 x3 : Vec F Sh .bf16) (xs0 : Vec F Sh .f32) :
    outL1_C c i arg3 harg3 arg4 harg4 arg5 harg5 arg6 harg6 arg7 harg7 arg8 harg8 hc0 hc1 x0 x1 x2 x3 xs0
      = k0_pay4 (k0_pay3 (k0_pay2 xs0 x0 x2) x1 x3) := by
  unfold outL1_C
  rw [View.read_writes_eq_canon _ _ _ (coverL1_C c i arg3 harg3 arg4 harg4 arg5 harg5 arg6 harg6 arg7 harg7 arg8 harg8 hc0 hc1 x0 x1 x2 x3 xs0)]
  unfold kernelRunL1_C
  dsimp only
  sl_unfold_words
  rw [View.canon_unit_zero (S := Sh) hz]
  simp only [View.readCov_cons_toLoadRect, View.readAt_eq_ld, harg3.read_unread, harg4.read_unread, harg5.read_unread, harg6.read_unread, harg8.read_unread, View.ld_unit_zero (S := Sh) hz]

end Cert.KernelIdeal.Val

end
-- ==== Proof.Ideal.L1ValueB.lean ====
/-
  The first layer's body arithmetic, read at one entry over the extended reals. A body's product contracts axis 1
  of both of its 1024 × 1024 operands — the weight block is used transposed — so at entry (p, q) it is the sum over
  j < 1024 of left (p, j) · right (q, j); it is added into a zero block, so nothing else enters. The reset stores
  zero; each of the two updates adds its product's entry to the accumulator's; the output's entry is the
  accumulator's clamped below at zero. The changes of float format are the identity on the extended reals.
-/
import proofs.«116527_j78125455114733_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.SL.Sem
open Idealize.ShloMosaic.ValueIdx
open Cert.KernelIdeal.Gen

local notation "Sh" => S1024x1024

/-! ## The product's operand indices

Both operands are contracted along their axis 1 (the right operand is used transposed): at entry (p, q) of the
result and position j of the contraction the left operand is read at (p, j) and the right at (q, j). -/

theorem lhs_dot_0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_dot_1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
theorem rhs_dot_0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_dot_1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The product of a 1024 × 1024 block with the transpose of another, into the zero block, at (p, q): the sum over
    the 1024 positions j of left (p, j) times right (q, j). -/
theorem matmul_zero_apply (l r : FVec Ideal Sh .bf16) (p q : Fin 1024) :
    matmul dot_S1024x1024_S1024x1024_S1024x1024_1_1_0_0_n_n none l r (constant (F := Ideal) Sh .f32 0x00000000#32) (ix2 p q)
      = ∑ j : Fin 1024, l (ix2 p j) * r (ix2 q j) := by
  refine (Ideal.matmul_constant_zero_apply dot_S1024x1024_S1024x1024_S1024x1024_1_1_0_0_n_n none l r (ix2 p q)).trans ?_
  rw [← Equiv.sum_comp (contrEquiv1 dot_S1024x1024_S1024x1024_S1024x1024_1_1_0_0_n_n 1024 rfl rfl).symm]
  refine Finset.sum_congr rfl fun j _ => ?_
  have hj := contrEquiv1_symm_val dot_S1024x1024_S1024x1024_S1024x1024_1_1_0_0_n_n 1024 rfl rfl j
  have el : dot_S1024x1024_S1024x1024_S1024x1024_1_1_0_0_n_n.lhsIdx (ix2 p q) ((contrEquiv1 dot_S1024x1024_S1024x1024_S1024x1024_1_1_0_0_n_n 1024 rfl rfl).symm j) = ix2 p j := funext fun a => Fin.ext (by
    match a with
    | ⟨0, _⟩ => exact lhs_dot_0 _ _
    | ⟨1, _⟩ => exact (lhs_dot_1 _ _).trans hj)
  have er : dot_S1024x1024_S1024x1024_S1024x1024_1_1_0_0_n_n.rhsIdx (ix2 p q) ((contrEquiv1 dot_S1024x1024_S1024x1024_S1024x1024_1_1_0_0_n_n 1024 rfl rfl).symm j) = ix2 q j := funext fun a => Fin.ext (by
    match a with
    | ⟨0, _⟩ => exact rhs_dot_0 _ _
    | ⟨1, _⟩ => exact (rhs_dot_1 _ _).trans hj)
  rw [el, er]

/-! ## The four payloads at an entry -/

/-- The reset stores zero. -/
theorem pay1_apply (p q : Fin 1024) : (k0_pay1 (F := Ideal)) (ix2 p q) = 0 := by
  unfold k0_pay1
  simp only [shapeCast_self]
  exact Ideal.ofBits_zero_f32

/-- The first update adds to the accumulator's entry the left product's partial sum over this slab. -/
theorem pay2_apply (v3 : FVec Ideal Sh .f32) (v4 v6 : FVec Ideal Sh .bf16) (p q : Fin 1024) :
    k0_pay2 (F := Ideal) v3 v4 v6 (ix2 p q) = v3 (ix2 p q) + ∑ j : Fin 1024, v4 (ix2 p j) * v6 (ix2 q j) := by
  unfold k0_pay2
  simp only [shapeCast_self]
  exact congrArg (v3 (ix2 p q) + ·) (matmul_zero_apply v4 v6 p q)

/-- The second update adds the aggregated product's partial sum likewise. -/
theorem pay3_apply (v13 : FVec Ideal Sh .f32) (v14 v16 : FVec Ideal Sh .bf16) (p q : Fin 1024) :
    k0_pay3 (F := Ideal) v13 v14 v16 (ix2 p q) = v13 (ix2 p q) + ∑ j : Fin 1024, v14 (ix2 p j) * v16 (ix2 q j) := by
  unfold k0_pay3
  simp only [shapeCast_self]
  exact congrArg (v13 (ix2 p q) + ·) (matmul_zero_apply v14 v16 p q)

/-- The output block's entry is the accumulator's clamped below at zero; narrowing the format changes nothing. -/
theorem pay4_apply (v26 : FVec Ideal Sh .f32) (p q : Fin 1024) :
    (k0_pay4 (F := Ideal) v26 (ix2 p q) : EReal) = max (v26 (ix2 p q) : EReal) 0 := by
  unfold k0_pay4
  exact congrArg (max (v26 (ix2 p q))) Ideal.ofBits_zero_f32

end Cert.KernelIdeal.Val

end
-- ==== Proof.Spec.lean ====
/-
  What both programs compute, as one function of the argument arrays over the extended reals, index by index.

  A layer takes a left activation l [4096, 4096], the aggregated neighbour features a [4096, 4096] and a weight
  matrix w [O, 8192], and returns  max( Σ_{j<4096} l[n,j]·w[o,j]  +  Σ_{j<4096} a[n,j]·w[o,4096+j] , 0 )  at (n, o):
  the product of the row-wise concatenation [l | a] with wᵀ, written as its two halves, clamped below at zero.
  The network is two such layers, the second fed the first's result, both fed the same a.

  The reference contracts the concatenated axis of length 8192 in one sum; the kernel accumulates, slab by slab of
  1024, the left half's and the right half's partial sums into one accumulator started at zero. The three laws
  below say these are the same number; they use only that addition of extended reals is commutative and associative
  with 0 neutral, so no finiteness of the inputs is needed.
-/
import Idealize.ShloMosaic.PureOps.Ideal.Laws
import Idealize.ShloMosaic.Lib.ValueIdx
import Mathlib.Algebra.BigOperators.Fin
import Mathlib.Data.Fintype.BigOperators
import Mathlib.Logic.Equiv.Fin.Basic

noncomputable section

namespace Cert.Sage

open Idealize.ShloMosaic

/-- Column j of the left half of the concatenated axis. -/
def lo (j : Fin 4096) : Fin 8192 := ⟨j.val, by omega⟩
/-- Column j of the right half. -/
def hi (j : Fin 4096) : Fin 8192 := ⟨4096 + j.val, by omega⟩
/-- Position j of slab k of a 4096-long axis cut into four slabs of 1024. -/
def slab (k : Fin 4) (j : Fin 1024) : Fin 4096 := ⟨1024 * k.val + j.val, by omega⟩

/-- One layer with the weight's two halves given separately. -/
def layer2 {O : ℕ} (l a : Fin 4096 → Fin 4096 → EReal) (wl wa : Fin O → Fin 4096 → EReal) (n : Fin 4096) (o : Fin O) : EReal :=
  max ((∑ j : Fin 4096, l n j * wl o j) + ∑ j : Fin 4096, a n j * wa o j) 0

/-- One layer over the whole weight matrix [O, 8192]. -/
def layer {O : ℕ} (l a : Fin 4096 → Fin 4096 → EReal) (w : Fin O → Fin 8192 → EReal) (n : Fin 4096) (o : Fin O) : EReal :=
  layer2 l a (fun o j => w o (lo j)) (fun o j => w o (hi j)) n o

/-- The whole network: x, the aggregated features a, W1 [4096, 8192], W2 [256, 8192]. -/
def net (x a : Fin 4096 → Fin 4096 → EReal) (w1 : Fin 4096 → Fin 8192 → EReal) (w2 : Fin 256 → Fin 8192 → EReal)
    (n : Fin 4096) (o : Fin 256) : EReal :=
  layer (layer x a w1) a w2 n o

/-- A sum over the concatenated axis is the sum over its left half plus the sum over its right half. -/
theorem sum_halves (f : Fin 8192 → EReal) : ∑ k : Fin 8192, f k = (∑ j : Fin 4096, f (lo j)) + ∑ j : Fin 4096, f (hi j) := by
  -- 8192 = 4096 + 4096: the first 4096 positions are the left half, the next 4096 the right half.
  exact Fin.sum_univ_add (a := 4096) (b := 4096) f

/-- A sum over a 4096-long axis is the sum of its four slabs' sums. -/
theorem sum_slabs (f : Fin 4096 → EReal) : ∑ j : Fin 4096, f j = ∑ k : Fin 4, ∑ j : Fin 1024, f (slab k j) := by
  -- (k, j) ↦ 1024·k + j is a bijection of Fin 4 × Fin 1024 with Fin 4096; a sum over a product is an iterated sum.
  rw [← Fintype.sum_prod_type' (fun (k : Fin 4) (j : Fin 1024) => f (slab k j))]
  symm
  refine Fintype.sum_equiv (finProdFinEquiv (m := 4) (n := 1024)) _ _ ?_
  rintro ⟨k, j⟩
  congr 1
  apply Fin.ext
  simp only [slab, finProdFinEquiv, Equiv.coe_fn_mk]
  omega

/-- The accumulator after the four slabs: started at zero, it takes per slab first the left product's partial sum,
    then the aggregated product's; the total is the two full sums added. -/
theorem fold_slabs (p q : Fin 4096 → EReal) :
    ((((((((0 + ∑ j : Fin 1024, p (slab 0 j)) + ∑ j : Fin 1024, q (slab 0 j)) + ∑ j : Fin 1024, p (slab 1 j)) + ∑ j : Fin 1024, q (slab 1 j))
      + ∑ j : Fin 1024, p (slab 2 j)) + ∑ j : Fin 1024, q (slab 2 j)) + ∑ j : Fin 1024, p (slab 3 j)) + ∑ j : Fin 1024, q (slab 3 j))
    = (∑ j : Fin 4096, p j) + ∑ j : Fin 4096, q j := by
  -- Each full sum is its four slab sums; the rest is commutativity and associativity of + with 0 neutral.
  rw [sum_slabs p, sum_slabs q, Fin.sum_univ_four, Fin.sum_univ_four, zero_add]
  ac_rfl

end Cert.Sage

end
-- ==== Proof.Ideal.L1Reads.lean ====
/-
  Layer one's windows read index by index: at grid point t a window's block, at a coordinate inside the block, is the
  window's whole array at the block's origin plus that coordinate. The origin is the block's grid index times the block
  size, and the grid indices are digits of t: t = 16·i + 4·j + k over the 4 × 4 × 4 grid.
-/
import proofs.«116527_j78125455114733_1_alg».proof.Proof.Ideal.L1Blocks
import proofs.«116527_j78125455114733_1_alg».proof.Proof.Spec
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.SL.Sem
open Idealize.ShloMosaic.ValueIdx
open Cert.KernelIdeal.Gen Cert.KernelIdeal.Frm Cert.Sage

variable {F : FTy → Type} [FloatOps F]

-- the contents of the TensorCore's buffers when the region is entered
variable (V : (c : Dev nD) → (b : Ref sig .tc) → Buf (Elt F) ((c : Thread nD τ).loc b))

/-! ## The grid's digits -/

/-- A point of the 4 × 4 × 4 grid is below 64. -/
theorem ltL1 (t : Fin cfg0.N) : t.val < 64 := Nat.lt_of_lt_of_eq t.isLt N_0

/-- The row block i of point t = 16·i + 4·j + k. -/
def biL1 (t : Fin cfg0.N) : Fin 4 := ⟨t.val / 16, by have := ltL1 t; omega⟩
/-- The column block j. -/
def bjL1 (t : Fin cfg0.N) : Fin 4 := ⟨(t.val / 4) % 4, by omega⟩
/-- The slab k of the contracted axis. -/
def bkL1 (t : Fin cfg0.N) : Fin 4 := ⟨t.val % 4, by omega⟩

/-! ## The windows' index maps over the grid -/

/-- Window 0 (x) is indexed by (i, k). -/
theorem idxL1_0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
/-- Window 1 (the aggregated features) is indexed by (i, k). -/
theorem idxL1_1 : ∀ t : Fin cfg0.N, win0_1.index t 0 = t.val / 16 ∧ win0_1.index t 1 = t.val % 4 :=
  (by decide +kernel : ∀ t : Fin grid0.N, win0_1.index t 0 = t.val / 16 ∧ win0_1.index t 1 = t.val % 4)
/-- Window 2 (W1's left half of columns) is indexed by (j, k). -/
theorem idxL1_2 : ∀ t : Fin cfg0.N, win0_2.index t 0 = (t.val / 4) % 4 ∧ win0_2.index t 1 = t.val % 4 :=
  (by decide +kernel : ∀ t : Fin grid0.N, win0_2.index t 0 = (t.val / 4) % 4 ∧ win0_2.index t 1 = t.val % 4)
/-- Window 3 (W1's right half of columns) is indexed by (j, k). -/
theorem idxL1_3 : ∀ t : Fin cfg0.N, win0_3.index t 0 = (t.val / 4) % 4 ∧ win0_3.index t 1 = t.val % 4 :=
  (by decide +kernel : ∀ t : Fin grid0.N, win0_3.index t 0 = (t.val / 4) % 4 ∧ win0_3.index t 1 = t.val % 4)
/-- Window 4 (the output h) is indexed by (i, j). -/
theorem idxL1_4 : ∀ t : Fin cfg0.N, win0_4.index t 0 = t.val / 16 ∧ win0_4.index t 1 = (t.val / 4) % 4 :=
  (by decide +kernel : ∀ t : Fin grid0.N, win0_4.index t 0 = t.val / 16 ∧ win0_4.index t 1 = (t.val / 4) % 4)

/-! ## The input windows read at a coordinate -/

/-- x's block at point (i, j, k), at (p, j'): x at (1024·i + p, 1024·k + j'). -/
theorem readL1_0 (c : Dev nD) (t : Fin cfg0.N) (p : Fin 1024) (j : Fin 1024) :
    (iblkL1 V c 0 t : Vec F S1024x1024 .bf16) (ix2 p j)
      = (V c main_v10 : (⟨S4096x4096, .bf16⟩ : BufTy).Contents (Elt F)) (ix2 (slab (biL1 t) p) (slab (bkL1 t) j)) := by
  have hi := idxL1_0 t
  unfold iblkL1
  rw [View.read_apply]
  show V c main_v10 _ = V c main_v10 _
  congr 1
  funext a
  apply Fin.ext
  match a with
  | ⟨0, _⟩ => show win0_0.index t 0 * 1024 + 1 * p.val = 1024 * (t.val / 16) + p.val; rw [hi.1]; omega
  | ⟨1, _⟩ => show win0_0.index t 1 * 1024 + 1 * j.val = 1024 * (t.val % 4) + j.val; rw [hi.2]; omega

/-- The aggregated features' block at point (i, j, k), at (p, j'): the array at (1024·i + p, 1024·k + j'). -/
theorem readL1_1 (c : Dev nD) (t : Fin cfg0.N) (p : Fin 1024) (j : Fin 1024) :
    (iblkL1 V c 1 t : Vec F S1024x1024 .bf16) (ix2 p j)
      = (V c main_v11 : (⟨S4096x4096, .bf16⟩ : BufTy).Contents (Elt F)) (ix2 (slab (biL1 t) p) (slab (bkL1 t) j)) := by
  have hi := idxL1_1 t
  unfold iblkL1
  rw [View.read_apply]
  show V c main_v11 _ = V c main_v11 _
  congr 1
  funext a
  apply Fin.ext
  match a with
  | ⟨0, _⟩ => show win0_1.index t 0 * 1024 + 1 * p.val = 1024 * (t.val / 16) + p.val; rw [hi.1]; omega
  | ⟨1, _⟩ => show win0_1.index t 1 * 1024 + 1 * j.val = 1024 * (t.val % 4) + j.val; rw [hi.2]; omega

/-- W1's left half's block at point (i, j, k), at (q, j'): the array at (1024·j + q, 1024·k + j'). -/
theorem readL1_2 (c : Dev nD) (t : Fin cfg0.N) (q : Fin 1024) (j : Fin 1024) :
    (iblkL1 V c 2 t : Vec F S1024x1024 .bf16) (ix2 q j)
      = (V c main_v13 : (⟨S4096x4096, .bf16⟩ : BufTy).Contents (Elt F)) (ix2 (slab (bjL1 t) q) (slab (bkL1 t) j)) := by
  have hi := idxL1_2 t
  unfold iblkL1
  rw [View.read_apply]
  show V c main_v13 _ = V c main_v13 _
  congr 1
  funext a
  apply Fin.ext
  match a with
  | ⟨0, _⟩ => show win0_2.index t 0 * 1024 + 1 * q.val = 1024 * ((t.val / 4) % 4) + q.val; rw [hi.1]; omega
  | ⟨1, _⟩ => show win0_2.index t 1 * 1024 + 1 * j.val = 1024 * (t.val % 4) + j.val; rw [hi.2]; omega

/-- W1's right half's block at point (i, j, k), at (q, j'): the array at (1024·j + q, 1024·k + j'). -/
theorem readL1_3 (c : Dev nD) (t : Fin cfg0.N) (q : Fin 1024) (j : Fin 1024) :
    (iblkL1 V c 3 t : Vec F S1024x1024 .bf16) (ix2 q j)
      = (V c main_v15 : (⟨S4096x4096, .bf16⟩ : BufTy).Contents (Elt F)) (ix2 (slab (bjL1 t) q) (slab (bkL1 t) j)) := by
  have hi := idxL1_3 t
  unfold iblkL1
  rw [View.read_apply]
  show V c main_v15 _ = V c main_v15 _
  congr 1
  funext a
  apply Fin.ext
  match a with
  | ⟨0, _⟩ => show win0_3.index t 0 * 1024 + 1 * q.val = 1024 * ((t.val / 4) % 4) + q.val; rw [hi.1]; omega
  | ⟨1, _⟩ => show win0_3.index t 1 * 1024 + 1 * j.val = 1024 * (t.val % 4) + j.val; rw [hi.2]; omega

/-! ## The output window: where its block lies, and that the blocks stored at k = 3 cover the array -/

/-- The output block's coordinate (p, q) at point (i, j, k) is the array index (1024·i + p, 1024·j + q). -/
theorem embL1_4 (t : Fin cfg0.N) (p q : Fin 1024) :
    (((cfg0.win 4).blk t).view.emb (ix2 p q) : S4096x4096.Idx) = ix2 (slab (biL1 t) p) (slab (bjL1 t) q) := by
  have hi := idxL1_4 t
  funext a
  apply Fin.ext
  match a with
  | ⟨0, _⟩ => show win0_4.index t 0 * 1024 + 1 * p.val = 1024 * (t.val / 16) + p.val; rw [hi.1]; omega
  | ⟨1, _⟩ => show win0_4.index t 1 * 1024 + 1 * q.val = 1024 * ((t.val / 4) % 4) + q.val; rw [hi.2]; omega

/-- Any array of the output's type read through the output block at point (i, j, k), at (p, q): the array at
    (1024·i + p, 1024·j + q). -/
theorem readL1_4 (G : (⟨S4096x4096, .bf16⟩ : BufTy).Contents (Elt F)) (t : Fin cfg0.N) (p q : Fin 1024) :
    (((cfg0.win 4).blk t).view.read (Elt F) G : Vec F S1024x1024 .bf16) (ix2 p q)
      = G (ix2 (slab (biL1 t) p) (slab (bjL1 t) q)) := by
  rw [View.read_apply]
  show G _ = G _
  exact congrArg G (embL1_4 t p q)

/-- The output block is written back at the last slab, k = 3. -/
theorem flushL1_4 : ∀ t : Fin cfg0.N, t.val % 4 = 3 → (cfg0.win 4).flush t = true :=
  (by decide +kernel : ∀ t : Fin grid0.N, t.val % 4 = 3 → (cfg0.win 4).flush t = true)

/-- Every index (n, o) of the output array lies in the block written back at point (n / 1024, o / 1024, 3). -/
theorem coverL1 (i : S4096x4096.Idx) :
    ∃ t : Fin cfg0.N, (cfg0.win 4).flush t = true ∧ i ∈ ((cfg0.win 4).blk t).view.set := by
  obtain ⟨n, o, rfl⟩ : ∃ n o, i = ix2 n o := ⟨i 0, i 1, eq_ix2 i⟩
  have hn := n.isLt
  have ho := o.isLt
  have ht : 16 * (n.val / 1024) + 4 * (o.val / 1024) + 3 < cfg0.N := Nat.lt_of_lt_of_eq (by omega) N_0.symm
  refine ⟨⟨_, ht⟩, flushL1_4 ⟨_, ht⟩ (by show (16 * (n.val / 1024) + 4 * (o.val / 1024) + 3) % 4 = 3; omega), ?_⟩
  have e : (((cfg0.win 4).blk ⟨_, ht⟩).view.emb (ix2 (⟨n.val % 1024, by omega⟩ : Fin 1024) (⟨o.val % 1024, by omega⟩ : Fin 1024)) : S4096x4096.Idx)
      = ix2 n o := by
    rw [embL1_4]
    funext a
    apply Fin.ext
    match a with
    | ⟨0, _⟩ => show 1024 * ((16 * (n.val / 1024) + 4 * (o.val / 1024) + 3) / 16) + n.val % 1024 = n.val; omega
    | ⟨1, _⟩ => show 1024 * (((16 * (n.val / 1024) + 4 * (o.val / 1024) + 3) / 4) % 4) + o.val % 1024 = o.val; omega
  rw [← e]
  exact View.emb_mem_set _ _

end Cert.KernelIdeal.Val

end
-- ==== Proof.Ideal.L1Value.lean ====
/-
  The value of the first matmul layer's region at the ideal instance. The accumulator after the k-th slab of a
  (row block, column block) pair is zero plus, slab by slab, the left product's and the aggregated product's partial
  sums; at k = 3 the output block is that accumulator clamped below at zero (the change of float format is the
  identity). Block (i, j) of the result array is what point (i, j, 3) wrote back, the blocks cover the array, and so
  the array the region leaves is one layer of Spec.lean applied to the arrays the region found.
-/
import proofs.«116527_j78125455114733_1_alg».proof.Proof.Ideal.L1ValueA
import proofs.«116527_j78125455114733_1_alg».proof.Proof.Ideal.L1ValueB
import proofs.«116527_j78125455114733_1_alg».proof.Proof.Ideal.L1Reads
import proofs.«116527_j78125455114733_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Gen Cert.KernelIdeal.Frm
open Cert.Sage

local notation "Sh" => S1024x1024

variable (V : (c : Dev nD) → (b : Ref sig .tc) → Buf (Elt Ideal) ((c : Thread nD τ).loc b))

/-! ## One point's step on the accumulator -/

/-- The two updates of one point, at an entry: the accumulator's entry plus the left product's partial sum plus the
    aggregated product's. -/
theorem step_apply (acc : FVec Ideal Sh .f32) (x0 x1 x2 x3 : FVec Ideal Sh .bf16) (p q : Fin 1024) :
    k0_pay3 (F := Ideal) (k0_pay2 (F := Ideal) acc x0 x2) x1 x3 (ix2 p q)
      = (acc (ix2 p q) + ∑ j : Fin 1024, x0 (ix2 p j) * x2 (ix2 q j)) + ∑ j : Fin 1024, x1 (ix2 p j) * x3 (ix2 q j) :=
  (pay3_apply _ x1 x3 p q).trans (congrArg (· + ∑ j : Fin 1024, x1 (ix2 p j) * x3 (ix2 q j)) (pay2_apply acc x0 x2 p q))

/-- The point before a point. -/
def prevL1 (t : Fin cfg0.N) : Fin cfg0.N := ⟨t.val - 1, Nat.lt_of_le_of_lt (Nat.sub_le _ _) t.isLt⟩

/-- The accumulator after point t. -/
abbrev accAtL1 (c : Dev nD) (t : Fin cfg0.N) : FVec Ideal Sh .f32 := (outsAtL1 V c t.val t.isLt).2

/-- The four input blocks at a point, as 1024 × 1024 arrays of extended reals. -/
abbrev blkL1_0 (c : Dev nD) (t : Fin cfg0.N) : FVec Ideal Sh .bf16 := iblkL1 V c 0 t
abbrev blkL1_1 (c : Dev nD) (t : Fin cfg0.N) : FVec Ideal Sh .bf16 := iblkL1 V c 1 t
abbrev blkL1_2 (c : Dev nD) (t : Fin cfg0.N) : FVec Ideal Sh .bf16 := iblkL1 V c 2 t
abbrev blkL1_3 (c : Dev nD) (t : Fin cfg0.N) : FVec Ideal Sh .bf16 := iblkL1 V c 3 t

/-- The left product's partial sum over point t's slab, at (p, q) of the block. -/
abbrev leftSumL1 (c : Dev nD) (t : Fin cfg0.N) (p q : Fin 1024) : EReal :=
  ∑ j : Fin 1024, blkL1_0 V c t (ix2 p j) * blkL1_2 V c t (ix2 q j)

/-- The aggregated product's. -/
abbrev aggSumL1 (c : Dev nD) (t : Fin cfg0.N) (p q : Fin 1024) : EReal :=
  ∑ j : Fin 1024, blkL1_1 V c t (ix2 p j) * blkL1_3 V c t (ix2 q j)

/-- At k = 0 the accumulator restarts from zero. -/
theorem accAtL1_A (c : Dev nD) (t : Fin cfg0.N) (h0 : t.val % 4 = 0) (p q : Fin 1024) :
    accAtL1 V c t (ix2 p q) = (0 + leftSumL1 V c t p q) + aggSumL1 V c t p q := by
  have h1 : ¬t.val % 4 = 3 := by omega
  show (outsAtL1 V c t.val t.isLt).2 (ix2 p q) = _
  rw [outsAtL1_A V c t h0 h1]
  dsimp only
  refine (congrFun (soutL1_A_eq (F := Ideal) c (grid0.coords t) (msL1_0 t) (hsL1_0 t) (msL1_1 t) (hsL1_1 t) (msL1_2 t) (hsL1_2 t) (msL1_3 t) (hsL1_3 t) (msL1_4 t) (hsL1_4 t) accL1 (Memref.isWhole_whole _) ((hcondL1_0 t).mpr h0) (fun h => h1 ((hcondL1_1 t).mp h)) (iblkL1 V c 0 t) (iblkL1 V c 1 t) (iblkL1 V c 2 t) (iblkL1 V c 3 t)) (ix2 p q)).trans ?_
  refine (step_apply (k0_pay1 (F := Ideal)) (blkL1_0 V c t) (blkL1_1 V c t) (blkL1_2 V c t) (blkL1_3 V c t) p q).trans ?_
  exact congrArg (fun z => (z + leftSumL1 V c t p q) + aggSumL1 V c t p q) (pay1_apply p q)

/-- At 0 < k < 3 it goes on from what the point before left. -/
theorem accAtL1_B (c : Dev nD) (t : Fin cfg0.N) (h0 : ¬t.val % 4 = 0) (h1 : ¬t.val % 4 = 3) (p q : Fin 1024) :
    accAtL1 V c t (ix2 p q) = (accAtL1 V c (prevL1 t) (ix2 p q) + leftSumL1 V c t p q) + aggSumL1 V c t p q := by
  show (outsAtL1 V c t.val t.isLt).2 (ix2 p q) = _
  rw [outsAtL1_B V c t h0 h1]
  dsimp only
  refine (congrFun (soutL1_B_eq (F := Ideal) c (grid0.coords t) (msL1_0 t) (hsL1_0 t) (msL1_1 t) (hsL1_1 t) (msL1_2 t) (hsL1_2 t) (msL1_3 t) (hsL1_3 t) (msL1_4 t) (hsL1_4 t) accL1 (Memref.isWhole_whole _) (fun h => h0 ((hcondL1_0 t).mp h)) (fun h => h1 ((hcondL1_1 t).mp h)) (iblkL1 V c 0 t) (iblkL1 V c 1 t) (iblkL1 V c 2 t) (iblkL1 V c 3 t) (outsAtL1 V c (t.val - 1) (Nat.lt_of_le_of_lt (Nat.sub_le _ _) t.isLt)).2) (ix2 p q)).trans ?_
  exact step_apply (outsAtL1 V c (t.val - 1) (Nat.lt_of_le_of_lt (Nat.sub_le _ _) t.isLt)).2 (blkL1_0 V c t) (blkL1_1 V c t) (blkL1_2 V c t) (blkL1_3 V c t) p q

/-- At k = 3 the output block's entry is the final accumulator's clamped below at zero. -/
theorem outAtL1_C (c : Dev nD) (t : Fin cfg0.N) (h3 : t.val % 4 = 3) (p q : Fin 1024) :
    (((outsAtL1 V c t.val t.isLt).1 : FVec Ideal Sh .bf16) (ix2 p q) : EReal)
      = max ((accAtL1 V c (prevL1 t) (ix2 p q) + leftSumL1 V c t p q) + aggSumL1 V c t p q) 0 := by
  have h0 : ¬t.val % 4 = 0 := by omega
  rw [outsAtL1_C V c t h0 h3]
  dsimp only
  refine (congrFun (outL1_C_eq (F := Ideal) c (grid0.coords t) (msL1_0 t) (hsL1_0 t) (msL1_1 t) (hsL1_1 t) (msL1_2 t) (hsL1_2 t) (msL1_3 t) (hsL1_3 t) (msL1_4 t) (hsL1_4 t) accL1 (Memref.isWhole_whole _) (fun h => h0 ((hcondL1_0 t).mp h)) ((hcondL1_1 t).mpr h3) (iblkL1 V c 0 t) (iblkL1 V c 1 t) (iblkL1 V c 2 t) (iblkL1 V c 3 t) (outsAtL1 V c (t.val - 1) (Nat.lt_of_le_of_lt (Nat.sub_le _ _) t.isLt)).2) (ix2 p q)).trans ?_
  refine (pay4_apply _ p q).trans ?_
  exact congrArg (max · 0) (step_apply (outsAtL1 V c (t.val - 1) (Nat.lt_of_le_of_lt (Nat.sub_le _ _) t.isLt)).2 (blkL1_0 V c t) (blkL1_1 V c t) (blkL1_2 V c t) (blkL1_3 V c t) p q)

/-! ## The four slabs of a (row block, column block) pair -/

/-- The output block that the point with k = 3 stores, at an entry: zero plus, slab by slab, the two partial sums,
    clamped below at zero. The three points before it have k = 2, 1, 0. -/
theorem outAtL1_chain (c : Dev nD) (t : Fin cfg0.N) (h3 : t.val % 4 = 3) (p q : Fin 1024) :
    (((outsAtL1 V c t.val t.isLt).1 : FVec Ideal Sh .bf16) (ix2 p q) : EReal)
      = max ((((((((0 + leftSumL1 V c (prevL1 (prevL1 (prevL1 t))) p q) + aggSumL1 V c (prevL1 (prevL1 (prevL1 t))) p q)
          + leftSumL1 V c (prevL1 (prevL1 t)) p q) + aggSumL1 V c (prevL1 (prevL1 t)) p q)
          + leftSumL1 V c (prevL1 t) p q) + aggSumL1 V c (prevL1 t) p q)
          + leftSumL1 V c t p q) + aggSumL1 V c t p q) 0 := by
  have e1 : (prevL1 t).val = t.val - 1 := rfl
  have e2 : (prevL1 (prevL1 t)).val = t.val - 1 - 1 := rfl
  have e3 : (prevL1 (prevL1 (prevL1 t))).val = t.val - 1 - 1 - 1 := rfl
  rw [outAtL1_C V c t h3 p q, accAtL1_B V c (prevL1 t) (by omega) (by omega) p q,
    accAtL1_B V c (prevL1 (prevL1 t)) (by omega) (by omega) p q,
    accAtL1_A V c (prevL1 (prevL1 (prevL1 t))) (by omega) p q]

/-! ## The partial sums as sums over the arrays -/

/-- The four arrays the region reads, entry by entry. -/
abbrev xL1 (c : Dev nD) : Fin 4096 → Fin 4096 → EReal := fun n j => (V c main_v10 : (⟨S4096x4096, .bf16⟩ : BufTy).Contents (Elt Ideal)) (ix2 n j)
abbrev aL1 (c : Dev nD) : Fin 4096 → Fin 4096 → EReal := fun n j => (V c main_v11 : (⟨S4096x4096, .bf16⟩ : BufTy).Contents (Elt Ideal)) (ix2 n j)
abbrev wlL1 (c : Dev nD) : Fin 4096 → Fin 4096 → EReal := fun o j => (V c main_v13 : (⟨S4096x4096, .bf16⟩ : BufTy).Contents (Elt Ideal)) (ix2 o j)
abbrev waL1 (c : Dev nD) : Fin 4096 → Fin 4096 → EReal := fun o j => (V c main_v15 : (⟨S4096x4096, .bf16⟩ : BufTy).Contents (Elt Ideal)) (ix2 o j)

/-- An input block's entry is its array's entry at the block's position: row block i (or column block j) on the
    first axis, slab k on the second. -/
theorem blkL1_0_apply (c : Dev nD) (t : Fin cfg0.N) (p j : Fin 1024) :
    (blkL1_0 V c t (ix2 p j) : EReal) = xL1 V c (slab (biL1 t) p) (slab (bkL1 t) j) := readL1_0 V c t p j
theorem blkL1_1_apply (c : Dev nD) (t : Fin cfg0.N) (p j : Fin 1024) :
    (blkL1_1 V c t (ix2 p j) : EReal) = aL1 V c (slab (biL1 t) p) (slab (bkL1 t) j) := readL1_1 V c t p j
theorem blkL1_2_apply (c : Dev nD) (t : Fin cfg0.N) (q j : Fin 1024) :
    (blkL1_2 V c t (ix2 q j) : EReal) = wlL1 V c (slab (bjL1 t) q) (slab (bkL1 t) j) := readL1_2 V c t q j
theorem blkL1_3_apply (c : Dev nD) (t : Fin cfg0.N) (q j : Fin 1024) :
    (blkL1_3 V c t (ix2 q j) : EReal) = waL1 V c (slab (bjL1 t) q) (slab (bkL1 t) j) := readL1_3 V c t q j

/-- Point t's left partial sum is the sum over slab k of x's row times the left weight's row, for the rows that the
    point's row block and column block put at (p, q). -/
theorem leftSumL1_eq (c : Dev nD) (t : Fin cfg0.N) (p q : Fin 1024) (n o : Fin 4096) (k : Fin 4)
    (hn : slab (biL1 t) p = n) (ho : slab (bjL1 t) q = o) (hk : bkL1 t = k) :
    leftSumL1 V c t p q = ∑ j : Fin 1024, xL1 V c n (slab k j) * wlL1 V c o (slab k j) := by
  subst hn ho hk
  exact Finset.sum_congr rfl fun j _ => by rw [blkL1_0_apply V c t p j, blkL1_2_apply V c t q j]

/-- The aggregated partial sum likewise. -/
theorem aggSumL1_eq (c : Dev nD) (t : Fin cfg0.N) (p q : Fin 1024) (n o : Fin 4096) (k : Fin 4)
    (hn : slab (biL1 t) p = n) (ho : slab (bjL1 t) q = o) (hk : bkL1 t = k) :
    aggSumL1 V c t p q = ∑ j : Fin 1024, aL1 V c n (slab k j) * waL1 V c o (slab k j) := by
  subst hn ho hk
  exact Finset.sum_congr rfl fun j _ => by rw [blkL1_1_apply V c t p j, blkL1_3_apply V c t q j]

/-- The stored output block at (p, q) is the layer at the array position of (p, q). -/
theorem outAtL1_eq (c : Dev nD) (t : Fin cfg0.N) (h3 : t.val % 4 = 3) (p q : Fin 1024) :
    (((outsAtL1 V c t.val t.isLt).1 : FVec Ideal Sh .bf16) (ix2 p q) : EReal)
      = layer2 (xL1 V c) (aL1 V c) (wlL1 V c) (waL1 V c) (slab (biL1 t) p) (slab (bjL1 t) q) := by
  have e1 : (prevL1 t).val = t.val - 1 := rfl
  have e2 : (prevL1 (prevL1 t)).val = t.val - 1 - 1 := rfl
  have e3 : (prevL1 (prevL1 (prevL1 t))).val = t.val - 1 - 1 - 1 := rfl
  have hi : ∀ s : Fin cfg0.N, s.val / 16 = t.val / 16 → slab (biL1 s) p = slab (biL1 t) p := fun s h =>
    congrArg (slab · p) (Fin.ext h)
  have hj : ∀ s : Fin cfg0.N, s.val / 4 % 4 = t.val / 4 % 4 → slab (bjL1 s) q = slab (bjL1 t) q := fun s h =>
    congrArg (slab · q) (Fin.ext h)
  have hk : ∀ (s : Fin cfg0.N) (k : Fin 4), s.val % 4 = k.val → bkL1 s = k := fun s k h => Fin.ext h
  rw [outAtL1_chain V c t h3 p q,
    leftSumL1_eq V c (prevL1 (prevL1 (prevL1 t))) p q _ _ 0 (hi _ (by omega)) (hj _ (by omega)) (hk _ 0 (by show _ = 0; omega)),
    aggSumL1_eq V c (prevL1 (prevL1 (prevL1 t))) p q _ _ 0 (hi _ (by omega)) (hj _ (by omega)) (hk _ 0 (by show _ = 0; omega)),
    leftSumL1_eq V c (prevL1 (prevL1 t)) p q _ _ 1 (hi _ (by omega)) (hj _ (by omega)) (hk _ 1 (by show _ = 1; omega)),
    aggSumL1_eq V c (prevL1 (prevL1 t)) p q _ _ 1 (hi _ (by omega)) (hj _ (by omega)) (hk _ 1 (by show _ = 1; omega)),
    leftSumL1_eq V c (prevL1 t) p q _ _ 2 (hi _ (by omega)) (hj _ (by omega)) (hk _ 2 (by show _ = 2; omega)),
    aggSumL1_eq V c (prevL1 t) p q _ _ 2 (hi _ (by omega)) (hj _ (by omega)) (hk _ 2 (by show _ = 2; omega)),
    leftSumL1_eq V c t p q _ _ 3 rfl rfl (hk _ 3 (by show _ = 3; omega)),
    aggSumL1_eq V c t p q _ _ 3 rfl rfl (hk _ 3 (by show _ = 3; omega))]
  exact congrArg (max · 0) (fold_slabs (fun j => xL1 V c (slab (biL1 t) p) j * wlL1 V c (slab (bjL1 t) q) j)
    (fun j => aL1 V c (slab (biL1 t) p) j * waL1 V c (slab (bjL1 t) q) j))

/-! ## From the blocks to the array -/

/-- The layer over the four arrays, as contents of the result array. -/
abbrev resultL1 (c : Dev nD) : (⟨S4096x4096, .bf16⟩ : BufTy).Contents (Elt Ideal) :=
  fun i => layer2 (xL1 V c) (aL1 V c) (wlL1 V c) (waL1 V c) ⟨(i 0).val, idx2_lt0 i⟩ ⟨(i 1).val, idx2_lt1 i⟩

/-- What a point with k = 3 writes back is its block of the layer's array: the block's entry (p, q) sits in the array
    at row 1024·i + p, column 1024·j + q. -/
theorem flushedL1_eq (c : Dev nD) (t : Fin cfg0.N) (hf : (cfg0.win 4).flush t = true) :
    (datL1 V c).flushed 4 t = ((cfg0.win 4).blk t).view.read (Elt Ideal) (resultL1 V c) := by
  have h3 : t.val % 4 = 3 := (flush0_4 t).mp hf
  show (cfg0.win 4).cut (grid0.coords t) ((datL1 V c).after 4 t) = _
  rw [afterL1_4]
  funext y
  obtain ⟨p, q, rfl⟩ : ∃ (p q : Fin 1024), y = ix2 p q :=
    ⟨⟨(y 0).val, (y 0).isLt⟩, ⟨(y 1).val, (y 1).isLt⟩, funext fun a => by match a with | ⟨0, _⟩ => rfl | ⟨1, _⟩ => rfl⟩
  show (((outsAtL1 V c t.val t.isLt).1 : FVec Ideal Sh .bf16) (ix2 p q) : EReal)
    = resultL1 V c (((cfg0.win 4).blk t).view.emb (ix2 p q))
  rw [embL1_4 t p q]
  exact outAtL1_eq V c t h3 p q

/-- The array the first layer's region leaves behind its output window, at (n, o): the layer of Spec.lean over the
    arrays behind its four input windows as the region found them (x, the aggregated features, and the two halves
    of W1, all already cast to the narrow format, which at this instance changes nothing). -/
theorem finalL1 (c : Dev nD) (n o : Fin 4096) :
    ((datL1 (F := Ideal) V c).arrAt 4 cfg0.N : (⟨S4096x4096, .bf16⟩ : BufTy).Contents (Elt Ideal)) (ix2 n o)
      = layer2 (fun n j => (V c main_v10 : (⟨S4096x4096, .bf16⟩ : BufTy).Contents (Elt Ideal)) (ix2 n j))
          (fun n j => (V c main_v11 : (⟨S4096x4096, .bf16⟩ : BufTy).Contents (Elt Ideal)) (ix2 n j))
          (fun o j => (V c main_v13 : (⟨S4096x4096, .bf16⟩ : BufTy).Contents (Elt Ideal)) (ix2 o j))
          (fun o j => (V c main_v15 : (⟨S4096x4096, .bf16⟩ : BufTy).Contents (Elt Ideal)) (ix2 o j)) n o :=
  congrFun ((datL1 (F := Ideal) V c).arrAt_eq_of_cover 4 (resultL1 V c) (flushedL1_eq V c) coverL1) (ix2 n o)

end Cert.KernelIdeal.Val

end
-- ==== Proof.Ideal.L2ValueA.lean ====
/-
  The second matmul layer's body, case by case, as arithmetic. At every grid point the accumulator (1024 × 256) is
  stored whole two or three times: at k = 0 first the zero block; then, always, what it holds plus the product of the
  left block (1024 × 1024) with the transposed left weight block (256 × 1024); then that plus the product of the
  aggregated block with the transposed aggregated weight block. At k = 3 the output block is the final accumulator
  clamped below at zero. Each stored value is first named as the composition of the body's payloads over the four
  input blocks (for any float values), and then each payload is read at an entry (p, q) over the extended reals:
  a block product into zero is  Σ_{j<1024} l[p, j] · r[q, j]  (both operands contracted along their second axis), the
  zero word is 0, an addition is +, the clamp is max(·, 0).
-/
import proofs.«116527_j78125455114733_1_alg».proof.Proof.Ideal.L2Data
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Gen Cert.KernelIdeal.Frm

variable {F : FTy → Type} [FloatOps F]

local notation "ShA" => S1024x1024
local notation "ShB" => S256x1024
local notation "ShO" => S1024x256

/-! ## What each case stores, as payloads of the input blocks -/

/-- The offset of a store or load of a whole buffer is zero on both axes. -/
theorem hzL2 : (![0, 0] : Fin 2 → Nat) = fun _ => 0 := funext fun a => by fin_cases a <;> rfl

/-- At k = 0 the accumulator is stored three times whole: the zero block, then that plus the left product of the
    slab, then that plus the aggregated product; it is left holding the last, each read-back being the store before. -/
theorem soutL2_A_eq (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO .f32) (harg7 : arg7.IsWhole) (arg8 : Memref sig .tc .vmem ShO .f32) (harg8 : arg8.IsWhole) (hc0 : condL2_0 i) (hc1 : ¬condL2_1 i)
    (x0 x1 : Vec F ShA .bf16) (x2 x3 : Vec F ShB .bf16) :
    soutL2_A c i arg3 harg3 arg4 harg4 arg5 harg5 arg6 harg6 arg7 harg7 arg8 harg8 hc0 hc1 x0 x1 x2 x3
      = k1_pay3 (k1_pay2 (k1_pay1 (F := F)) x0 x2) x1 x3 := by
  unfold soutL2_A
  rw [View.read_writes_eq_canon _ _ _ (scoverL2_A c i arg3 harg3 arg4 harg4 arg5 harg5 arg6 harg6 arg7 harg7 arg8 harg8 hc0 hc1 x0 x1 x2 x3)]
  unfold kernelRunL2_A
  dsimp only
  sl_unfold_words
  rw [View.canon_cons_unit_zero (S := ShO) hzL2]
  simp only [View.readCov_cons_toLoadRect, View.readAt_eq_ld, harg3.read_unread, harg4.read_unread, harg5.read_unread, harg6.read_unread, harg8.read_unread, View.ld_unit_zero (S := ShA) hzL2, View.ld_unit_zero (S := ShB) hzL2, View.ld_unit_zero (S := ShO) hzL2]

/-- At 0 < k < 3 the accumulator, holding what the point before left, is stored twice whole: plus the left product
    of the slab, then plus the aggregated product. -/
theorem soutL2_B_eq (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO .f32) (harg7 : arg7.IsWhole) (arg8 : Memref sig .tc .vmem ShO .f32) (harg8 : arg8.IsWhole) (hc0 : ¬condL2_0 i) (hc1 : ¬condL2_1 i)
    (x0 x1 : Vec F ShA .bf16) (x2 x3 : Vec F ShB .bf16) (xs0 : Vec F ShO .f32) :
    soutL2_B c i arg3 harg3 arg4 harg4 arg5 harg5 arg6 harg6 arg7 harg7 arg8 harg8 hc0 hc1 x0 x1 x2 x3 xs0
      = k1_pay3 (k1_pay2 xs0 x0 x2) x1 x3 := by
  unfold soutL2_B
  rw [View.read_writes_eq_canon _ _ _ (scoverL2_B c i arg3 harg3 arg4 harg4 arg5 harg5 arg6 harg6 arg7 harg7 arg8 harg8 hc0 hc1 x0 x1 x2 x3 xs0)]
  unfold kernelRunL2_B
  dsimp only
  sl_unfold_words
  rw [View.canon_cons_unit_zero (S := ShO) hzL2]
  simp only [View.readCov_cons_toLoadRect, View.readAt_eq_ld, harg3.read_unread, harg4.read_unread, harg5.read_unread, harg6.read_unread, harg8.read_unread, View.ld_unit_zero (S := ShA) hzL2, View.ld_unit_zero (S := ShB) hzL2, View.ld_unit_zero (S := ShO) hzL2]

/-- At k = 3 the accumulator takes the same two stores. -/
theorem soutL2_C_eq (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO .f32) (harg7 : arg7.IsWhole) (arg8 : Memref sig .tc .vmem ShO .f32) (harg8 : arg8.IsWhole) (hc0 : ¬condL2_0 i) (hc1 : condL2_1 i)
    (x0 x1 : Vec F ShA .bf16) (x2 x3 : Vec F ShB .bf16) (xs0 : Vec F ShO .f32) :
    soutL2_C c i arg3 harg3 arg4 harg4 arg5 harg5 arg6 harg6 arg7 harg7 arg8 harg8 hc0 hc1 x0 x1 x2 x3 xs0
      = k1_pay3 (k1_pay2 xs0 x0 x2) x1 x3 := by
  unfold soutL2_C
  rw [View.read_writes_eq_canon _ _ _ (scoverL2_C c i arg3 harg3 arg4 harg4 arg5 harg5 arg6 harg6 arg7 harg7 arg8 harg8 hc0 hc1 x0 x1 x2 x3 xs0)]
  unfold kernelRunL2_C
  dsimp only
  sl_unfold_words
  rw [View.canon_cons_unit_zero (S := ShO) hzL2]
  simp only [View.readCov_cons_toLoadRect, View.readAt_eq_ld, harg3.read_unread, harg4.read_unread, harg5.read_unread, harg6.read_unread, harg8.read_unread, View.ld_unit_zero (S := ShA) hzL2, View.ld_unit_zero (S := ShB) hzL2, View.ld_unit_zero (S := ShO) hzL2]

/-- At k = 3 the output block is stored once whole: the final accumulator, read back, clamped below at zero. -/
theorem outL2_C_eq (c : Dev nD) (i : grid1.Coords) (arg3 : Memref sig .tc .vmem ShA .bf16) (harg3 : arg3.IsWhole) (arg4 : Memref sig .tc .vmem ShA .bf16) (harg4 : arg4.IsWhole) (arg5 : Memref sig .tc .vmem ShB .bf16) (harg5 : arg5.IsWhole) (arg6 : Memref sig .tc .vmem ShB .bf16) (harg6 : arg6.IsWhole) (arg7 : Memref sig .tc .vmem ShO .f32) (harg7 : arg7.IsWhole) (arg8 : Memref sig .tc .vmem ShO .f32) (harg8 : arg8.IsWhole) (hc0 : ¬condL2_0 i) (hc1 : condL2_1 i)
    (x0 x1 : Vec F ShA .bf16) (x2 x3 : Vec F ShB .bf16) (xs0 : Vec F ShO .f32) :
    outL2_C c i arg3 harg3 arg4 harg4 arg5 harg5 arg6 harg6 arg7 harg7 arg8 harg8 hc0 hc1 x0 x1 x2 x3 xs0
      = k1_pay4 (k1_pay3 (k1_pay2 xs0 x0 x2) x1 x3) := by
  unfold outL2_C
  rw [View.read_writes_eq_canon _ _ _ (coverL2_C c i arg3 harg3 arg4 harg4 arg5 harg5 arg6 harg6 arg7 harg7 arg8 harg8 hc0 hc1 x0 x1 x2 x3 xs0)]
  unfold kernelRunL2_C
  dsimp only
  sl_unfold_words
  rw [View.canon_unit_zero (S := ShO) hzL2]
  simp only [View.readCov_cons_toLoadRect, View.readAt_eq_ld, harg3.read_unread, harg4.read_unread, harg5.read_unread, harg6.read_unread, harg8.read_unread, View.ld_unit_zero (S := ShA) hzL2, View.ld_unit_zero (S := ShB) hzL2, View.ld_unit_zero (S := ShO) hzL2]

/-! ## The payloads read at an index, over the extended reals -/

/-- The block product of this region: a 1024 × 1024 block against a 256 × 1024 block, both contracted along axis 1. -/
abbrev dotL2 : DotDims ShA ShB ShO := dot_S1024x1024_S256x1024_S1024x256_1_1_0_0_n_n

theorem lhsL2_0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
theorem lhsL2_1 (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
theorem rhsL2_0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
theorem rhsL2_1 (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q

/-- The block product into the zero block, at (p, q): row p of the left block against row q of the right block,
    summed along the 1024 columns. -/
theorem matmulL2_apply (l : FVec Ideal ShA .bf16) (r : FVec Ideal ShB .bf16) (p : Fin 1024) (q : Fin 256) :
    FloatOps.matmul dot_S1024x1024_S256x1024_S1024x256_1_1_0_0_n_n none l r (constant (F := Ideal) ShO .f32 0x00000000#32) (ix2 p q)
      = ∑ j : Fin 1024, l (ix2 p j) * r (ix2 q j) := by
  rw [Ideal.matmul_constant_zero_apply, ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 p q) ((contrEquiv1 dot_S1024x1024_S256x1024_S1024x256_1_1_0_0_n_n 1024 rfl rfl).symm k) = ix2 p k := funext fun a => Fin.ext (by
    match a with
    | ⟨0, _⟩ => exact lhsL2_0 _ _
    | ⟨1, _⟩ => exact (lhsL2_1 _ _).trans hk)
  have er : dot_S1024x1024_S256x1024_S1024x256_1_1_0_0_n_n.rhsIdx (ix2 p q) ((contrEquiv1 dot_S1024x1024_S256x1024_S1024x256_1_1_0_0_n_n 1024 rfl rfl).symm k) = ix2 q k := funext fun a => Fin.ext (by
    match a with
    | ⟨0, _⟩ => exact rhsL2_0 _ _
    | ⟨1, _⟩ => exact (rhsL2_1 _ _).trans hk)
  rw [el, er]

/-- The reset stores zero everywhere. -/
theorem pay1L2_apply (p : Fin 1024) (q : Fin 256) : (k1_pay1 (F := Ideal)) (ix2 p q) = 0 := by
  unfold k1_pay1
  rw [shapeCast_self]
  exact Ideal.ofBits_zero_f32

/-- The first update of a point: the accumulator plus the left product of the slab. -/
theorem pay2L2_apply (v3 : Vec Ideal ShO .f32) (v4 : Vec Ideal ShA .bf16) (v6 : Vec Ideal ShB .bf16) (p : Fin 1024) (q : Fin 256) :
    k1_pay2 v3 v4 v6 (ix2 p q) = v3 (ix2 p q) + ∑ j : Fin 1024, v4 (ix2 p j) * v6 (ix2 q j) := by
  unfold k1_pay2
  rw [shapeCast_self, shapeCast_self, shapeCast_self]
  exact congrArg (v3 (ix2 p q) + ·) (matmulL2_apply v4 v6 p q)

/-- The second update: the accumulator plus the aggregated product of the slab. -/
theorem pay3L2_apply (v13 : Vec Ideal ShO .f32) (v14 : Vec Ideal ShA .bf16) (v16 : Vec Ideal ShB .bf16) (p : Fin 1024) (q : Fin 256) :
    k1_pay3 v13 v14 v16 (ix2 p q) = v13 (ix2 p q) + ∑ j : Fin 1024, v14 (ix2 p j) * v16 (ix2 q j) := by
  unfold k1_pay3
  rw [shapeCast_self, shapeCast_self, shapeCast_self]
  exact congrArg (v13 (ix2 p q) + ·) (matmulL2_apply v14 v16 p q)

/-- The output block: the accumulator clamped below at zero. -/
theorem pay4L2_apply (v26 : Vec Ideal ShO .f32) (p : Fin 1024) (q : Fin 256) :
    k1_pay4 v26 (ix2 p q) = max (v26 (ix2 p q)) 0 := by
  unfold k1_pay4
  exact congrArg (max (v26 (ix2 p q)) ·) Ideal.ofBits_zero_f32

end Cert.KernelIdeal.Val

end
-- ==== Proof.Ideal.L2Reads.lean ====
/-
  Layer two's windows read index by index: at grid point t a window's block, at a coordinate inside the block, is the
  window's whole array at the block's origin plus that coordinate. The origin is the block's grid index times the block
  size, and the grid indices are digits of t: t = 4·i + k over the 4 × 1 × 4 grid.
-/
import proofs.«116527_j78125455114733_1_alg».proof.Proof.Ideal.L2Blocks
import proofs.«116527_j78125455114733_1_alg».proof.Proof.Spec
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.SL.Sem
open Idealize.ShloMosaic.ValueIdx
open Cert.KernelIdeal.Gen Cert.KernelIdeal.Frm Cert.Sage

variable {F : FTy → Type} [FloatOps F]

-- the contents of the TensorCore's buffers when the region is entered
variable (V : (c : Dev nD) → (b : Ref sig .tc) → Buf (Elt F) ((c : Thread nD τ).loc b))

/-! ## The grid's digits -/

/-- A point of the 4 × 1 × 4 grid is below 16. -/
theorem ltL2 (t : Fin cfg1.N) : t.val < 16 := Nat.lt_of_lt_of_eq t.isLt N_1

/-- The row block i of point t = 4·i + k. -/
def biL2 (t : Fin cfg1.N) : Fin 4 := ⟨t.val / 4, by have := ltL2 t; omega⟩
/-- The slab k of the contracted axis. -/
def bkL2 (t : Fin cfg1.N) : Fin 4 := ⟨t.val % 4, by omega⟩

/-! ## The windows' index maps over the grid -/

/-- Window 0 (the first layer's result h) is indexed by (i, k). -/
theorem idxL2_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
/-- Window 1 (the aggregated features) is indexed by (i, k). -/
theorem idxL2_1 : ∀ t : Fin cfg1.N, win1_1.index t 0 = t.val / 4 ∧ win1_1.index t 1 = t.val % 4 :=
  (by decide +kernel : ∀ t : Fin grid1.N, win1_1.index t 0 = t.val / 4 ∧ win1_1.index t 1 = t.val % 4)
/-- Window 2 (W2's left half of columns) is indexed by (0, k): all 256 rows, slab k. -/
theorem idxL2_2 : ∀ t : Fin cfg1.N, win1_2.index t 0 = 0 ∧ win1_2.index t 1 = t.val % 4 :=
  (by decide +kernel : ∀ t : Fin grid1.N, win1_2.index t 0 = 0 ∧ win1_2.index t 1 = t.val % 4)
/-- Window 3 (W2's right half of columns) is indexed by (0, k). -/
theorem idxL2_3 : ∀ t : Fin cfg1.N, win1_3.index t 0 = 0 ∧ win1_3.index t 1 = t.val % 4 :=
  (by decide +kernel : ∀ t : Fin grid1.N, win1_3.index t 0 = 0 ∧ win1_3.index t 1 = t.val % 4)
/-- Window 4 (the output) is indexed by (i, 0): row block i, all 256 columns. -/
theorem idxL2_4 : ∀ t : Fin cfg1.N, win1_4.index t 0 = t.val / 4 ∧ win1_4.index t 1 = 0 :=
  (by decide +kernel : ∀ t : Fin grid1.N, win1_4.index t 0 = t.val / 4 ∧ win1_4.index t 1 = 0)

/-! ## The input windows read at a coordinate -/

/-- h's block at point (i, 0, k), at (p, j'): h at (1024·i + p, 1024·k + j'). -/
theorem readL2_0 (c : Dev nD) (t : Fin cfg1.N) (p : Fin 1024) (j : Fin 1024) :
    (iblkL2 V c 0 t : Vec F S1024x1024 .bf16) (ix2 p j)
      = (V c main_v20 : (⟨S4096x4096, .bf16⟩ : BufTy).Contents (Elt F)) (ix2 (slab (biL2 t) p) (slab (bkL2 t) j)) := by
  have hi := idxL2_0 t
  unfold iblkL2
  rw [View.read_apply]
  show V c main_v20 _ = V c main_v20 _
  congr 1
  funext a
  apply Fin.ext
  match a with
  | ⟨0, _⟩ => show win1_0.index t 0 * 1024 + 1 * p.val = 1024 * (t.val / 4) + p.val; rw [hi.1]; omega
  | ⟨1, _⟩ => show win1_0.index t 1 * 1024 + 1 * j.val = 1024 * (t.val % 4) + j.val; rw [hi.2]; omega

/-- The aggregated features' block at point (i, 0, k), at (p, j'): the array at (1024·i + p, 1024·k + j'). -/
theorem readL2_1 (c : Dev nD) (t : Fin cfg1.N) (p : Fin 1024) (j : Fin 1024) :
    (iblkL2 V c 1 t : Vec F S1024x1024 .bf16) (ix2 p j)
      = (V c main_v11 : (⟨S4096x4096, .bf16⟩ : BufTy).Contents (Elt F)) (ix2 (slab (biL2 t) p) (slab (bkL2 t) j)) := by
  have hi := idxL2_1 t
  unfold iblkL2
  rw [View.read_apply]
  show V c main_v11 _ = V c main_v11 _
  congr 1
  funext a
  apply Fin.ext
  match a with
  | ⟨0, _⟩ => show win1_1.index t 0 * 1024 + 1 * p.val = 1024 * (t.val / 4) + p.val; rw [hi.1]; omega
  | ⟨1, _⟩ => show win1_1.index t 1 * 1024 + 1 * j.val = 1024 * (t.val % 4) + j.val; rw [hi.2]; omega

/-- W2's left half's block at point (i, 0, k), at (q, j'): the array at (q, 1024·k + j'). -/
theorem readL2_2 (c : Dev nD) (t : Fin cfg1.N) (q : Fin 256) (j : Fin 1024) :
    (iblkL2 V c 2 t : Vec F S256x1024 .bf16) (ix2 q j)
      = (V c main_v17 : (⟨S256x4096, .bf16⟩ : BufTy).Contents (Elt F)) (ix2 q (slab (bkL2 t) j)) := by
  have hi := idxL2_2 t
  unfold iblkL2
  rw [View.read_apply]
  show V c main_v17 _ = V c main_v17 _
  congr 1
  funext a
  apply Fin.ext
  match a with
  | ⟨0, _⟩ => show win1_2.index t 0 * 256 + 1 * q.val = q.val; rw [hi.1]; omega
  | ⟨1, _⟩ => show win1_2.index t 1 * 1024 + 1 * j.val = 1024 * (t.val % 4) + j.val; rw [hi.2]; omega

/-- W2's right half's block at point (i, 0, k), at (q, j'): the array at (q, 1024·k + j'). -/
theorem readL2_3 (c : Dev nD) (t : Fin cfg1.N) (q : Fin 256) (j : Fin 1024) :
    (iblkL2 V c 3 t : Vec F S256x1024 .bf16) (ix2 q j)
      = (V c main_v19 : (⟨S256x4096, .bf16⟩ : BufTy).Contents (Elt F)) (ix2 q (slab (bkL2 t) j)) := by
  have hi := idxL2_3 t
  unfold iblkL2
  rw [View.read_apply]
  show V c main_v19 _ = V c main_v19 _
  congr 1
  funext a
  apply Fin.ext
  match a with
  | ⟨0, _⟩ => show win1_3.index t 0 * 256 + 1 * q.val = q.val; rw [hi.1]; omega
  | ⟨1, _⟩ => show win1_3.index t 1 * 1024 + 1 * j.val = 1024 * (t.val % 4) + j.val; rw [hi.2]; omega

/-! ## The output window: where its block lies, and that the blocks stored at k = 3 cover the array -/

/-- The output block's coordinate (p, q) at point (i, 0, k) is the array index (1024·i + p, q). -/
theorem embL2_4 (t : Fin cfg1.N) (p : Fin 1024) (q : Fin 256) :
    (((cfg1.win 4).blk t).view.emb (ix2 p q) : S4096x256.Idx) = ix2 (slab (biL2 t) p) q := by
  have hi := idxL2_4 t
  funext a
  apply Fin.ext
  match a with
  | ⟨0, _⟩ => show win1_4.index t 0 * 1024 + 1 * p.val = 1024 * (t.val / 4) + p.val; rw [hi.1]; omega
  | ⟨1, _⟩ => show win1_4.index t 1 * 256 + 1 * q.val = q.val; rw [hi.2]; omega

/-- Any array of the output's type read through the output block at point (i, 0, k), at (p, q): the array at
    (1024·i + p, q). -/
theorem readL2_4 (G : (⟨S4096x256, .f32⟩ : BufTy).Contents (Elt F)) (t : Fin cfg1.N) (p : Fin 1024) (q : Fin 256) :
    (((cfg1.win 4).blk t).view.read (Elt F) G : Vec F S1024x256 .f32) (ix2 p q)
      = G (ix2 (slab (biL2 t) p) q) := by
  rw [View.read_apply]
  show G _ = G _
  exact congrArg G (embL2_4 t p q)

/-- The output block is written back at the last slab, k = 3. -/
theorem flushL2_4 : ∀ t : Fin cfg1.N, t.val % 4 = 3 → (cfg1.win 4).flush t = true :=
  (by decide +kernel : ∀ t : Fin grid1.N, t.val % 4 = 3 → (cfg1.win 4).flush t = true)

/-- Every index (n, o) of the output array lies in the block written back at point (n / 1024, 0, 3). -/
theorem coverL2 (i : S4096x256.Idx) :
    ∃ t : Fin cfg1.N, (cfg1.win 4).flush t = true ∧ i ∈ ((cfg1.win 4).blk t).view.set := by
  obtain ⟨n, o, rfl⟩ : ∃ n o, i = ix2 n o := ⟨i 0, i 1, eq_ix2 i⟩
  have hn := n.isLt
  have ht : 4 * (n.val / 1024) + 3 < cfg1.N := Nat.lt_of_lt_of_eq (by omega) N_1.symm
  refine ⟨⟨_, ht⟩, flushL2_4 ⟨_, ht⟩ (by show (4 * (n.val / 1024) + 3) % 4 = 3; omega), ?_⟩
  have e : (((cfg1.win 4).blk ⟨_, ht⟩).view.emb (ix2 (⟨n.val % 1024, by omega⟩ : Fin 1024) o) : S4096x256.Idx) = ix2 n o := by
    rw [embL2_4]
    funext a
    apply Fin.ext
    match a with
    | ⟨0, _⟩ => show 1024 * ((4 * (n.val / 1024) + 3) / 4) + n.val % 1024 = n.val; omega
    | ⟨1, _⟩ => rfl
  rw [← e]
  exact View.emb_mem_set _ _

end Cert.KernelIdeal.Val

end
-- ==== Proof.Ideal.L2Value.lean ====
/-
  The value of the second matmul layer's region at the ideal instance. The accumulator after the k-th slab of a row
  block is zero plus, slab by slab, the left product's and the aggregated product's partial sums; at k = 3 the
  output block is that accumulator clamped below at zero. Block i of the result array is what point (i, 0, 3) wrote
  back, the blocks cover the array, and so the array the region leaves is one layer of Spec.lean applied to the
  arrays the region found.
-/
import proofs.«116527_j78125455114733_1_alg».proof.Proof.Ideal.L2ValueA
import proofs.«116527_j78125455114733_1_alg».proof.Proof.Ideal.L2Reads
import proofs.«116527_j78125455114733_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Gen Cert.KernelIdeal.Frm
open Cert.Sage

/-! ## The accumulation at an entry -/

variable (V : (c : Dev nD) → (b : Ref sig .tc) → Buf (Elt Ideal) ((c : Thread nD τ).loc b))

/-- The four input blocks of a point, at their literal types: the left activation's block, the aggregated features'
    block, and the slabs of the two weight halves. -/
abbrev lblk (c : Dev nD) (t : Fin cfg1.N) : Vec Ideal S1024x1024 .bf16 := iblkL2 V c 0 t
abbrev ablk (c : Dev nD) (t : Fin cfg1.N) : Vec Ideal S1024x1024 .bf16 := iblkL2 V c 1 t
abbrev wlblk (c : Dev nD) (t : Fin cfg1.N) : Vec Ideal S256x1024 .bf16 := iblkL2 V c 2 t
abbrev wablk (c : Dev nD) (t : Fin cfg1.N) : Vec Ideal S256x1024 .bf16 := iblkL2 V c 3 t

/-- What the accumulator holds after position n. -/
abbrev accAt (c : Dev nD) (n : ℕ) (h : n < cfg1.N) : Vec Ideal S1024x256 .f32 := (outsAtL2 V c n h).2

/-- The left product's partial sum of point t at (p, q). -/
def psl (c : Dev nD) (t : Fin cfg1.N) (p : Fin 1024) (q : Fin 256) : EReal := ∑ j : Fin 1024, lblk V c t (ix2 p j) * wlblk V c t (ix2 q j)
/-- The aggregated product's partial sum of point t at (p, q). -/
def psa (c : Dev nD) (t : Fin cfg1.N) (p : Fin 1024) (q : Fin 256) : EReal := ∑ j : Fin 1024, ablk V c t (ix2 p j) * wablk V c t (ix2 q j)

theorem accAt_idx (c : Dev nD) (n n' : ℕ) (e : n = n') (h : n < cfg1.N) (h' : n' < cfg1.N) : accAt V c n h = accAt V c n' h' := by
  subst e; rfl

/-- At k = 0 the accumulator is zero plus the point's two partial sums. -/
theorem acc_first (c : Dev nD) (t : Fin cfg1.N) (h0 : t.val % 4 = 0) (p : Fin 1024) (q : Fin 256) :
    accAt V c t.val t.isLt (ix2 p q) = (0 + psl V c t p q) + psa V c t p q := by
  have h1 : ¬t.val % 4 = 3 := by omega
  show (outsAtL2 V c t.val t.isLt).2 (ix2 p q) = _
  rw [outsAtL2_A V c t h0 h1]
  dsimp only
  refine (congrFun (soutL2_A_eq (F := Ideal) c (grid1.coords t) (msL2_0 t) (hsL2_0 t) (msL2_1 t) (hsL2_1 t) (msL2_2 t) (hsL2_2 t) (msL2_3 t) (hsL2_3 t) (msL2_4 t) (hsL2_4 t) accL2 (Memref.isWhole_whole _) ((hcondL2_0 t).mpr h0) (fun h => h1 ((hcondL2_1 t).mp h)) (lblk V c t) (ablk V c t) (wlblk V c t) (wablk V c t)) (ix2 p q)).trans ?_
  refine (pay3L2_apply _ _ _ p q).trans ?_
  refine congrArg (· + psa V c t p q) ?_
  refine (pay2L2_apply _ _ _ p q).trans ?_
  exact congrArg (· + psl V c t p q) (pay1L2_apply p q)

/-- At k > 0 it is what the point before left plus the point's two partial sums. -/
theorem acc_step (c : Dev nD) (s t : Fin cfg1.N) (hst : s.val + 1 = t.val) (h0 : ¬t.val % 4 = 0) (p : Fin 1024) (q : Fin 256) :
    accAt V c t.val t.isLt (ix2 p q) = (accAt V c s.val s.isLt (ix2 p q) + psl V c t p q) + psa V c t p q := by
  have hs : accAt V c (t.val - 1) (Nat.lt_of_le_of_lt (Nat.sub_le _ _) t.isLt) = accAt V c s.val s.isLt :=
    accAt_idx V c _ _ (by omega) _ _
  rw [← hs]
  show (outsAtL2 V c t.val t.isLt).2 (ix2 p q) = _
  by_cases h1 : t.val % 4 = 3
  · rw [outsAtL2_C V c t h0 h1]
    dsimp only
    refine (congrFun (soutL2_C_eq (F := Ideal) c (grid1.coords t) (msL2_0 t) (hsL2_0 t) (msL2_1 t) (hsL2_1 t) (msL2_2 t) (hsL2_2 t) (msL2_3 t) (hsL2_3 t) (msL2_4 t) (hsL2_4 t) accL2 (Memref.isWhole_whole _) (fun h => h0 ((hcondL2_0 t).mp h)) ((hcondL2_1 t).mpr h1) (lblk V c t) (ablk V c t) (wlblk V c t) (wablk V c t) (accAt V c (t.val - 1) (Nat.lt_of_le_of_lt (Nat.sub_le _ _) t.isLt))) (ix2 p q)).trans ?_
    refine (pay3L2_apply _ _ _ p q).trans ?_
    refine congrArg (· + psa V c t p q) ?_
    exact pay2L2_apply _ _ _ p q
  · rw [outsAtL2_B V c t h0 h1]
    dsimp only
    refine (congrFun (soutL2_B_eq (F := Ideal) c (grid1.coords t) (msL2_0 t) (hsL2_0 t) (msL2_1 t) (hsL2_1 t) (msL2_2 t) (hsL2_2 t) (msL2_3 t) (hsL2_3 t) (msL2_4 t) (hsL2_4 t) accL2 (Memref.isWhole_whole _) (fun h => h0 ((hcondL2_0 t).mp h)) (fun h => h1 ((hcondL2_1 t).mp h)) (lblk V c t) (ablk V c t) (wlblk V c t) (wablk V c t) (accAt V c (t.val - 1) (Nat.lt_of_le_of_lt (Nat.sub_le _ _) t.isLt))) (ix2 p q)).trans ?_
    refine (pay3L2_apply _ _ _ p q).trans ?_
    refine congrArg (· + psa V c t p q) ?_
    exact pay2L2_apply _ _ _ p q

/-- At k = 3 the output block is that, clamped below at zero. -/
theorem out_last (c : Dev nD) (s t : Fin cfg1.N) (hst : s.val + 1 = t.val) (h1 : t.val % 4 = 3) (p : Fin 1024) (q : Fin 256) :
    ((outsAtL2 V c t.val t.isLt).1 : Vec Ideal S1024x256 .f32) (ix2 p q)
      = max ((accAt V c s.val s.isLt (ix2 p q) + psl V c t p q) + psa V c t p q) 0 := by
  have h0 : ¬t.val % 4 = 0 := by omega
  have hs : accAt V c (t.val - 1) (Nat.lt_of_le_of_lt (Nat.sub_le _ _) t.isLt) = accAt V c s.val s.isLt :=
    accAt_idx V c _ _ (by omega) _ _
  rw [← hs, outsAtL2_C V c t h0 h1]
  dsimp only
  refine (congrFun (outL2_C_eq (F := Ideal) c (grid1.coords t) (msL2_0 t) (hsL2_0 t) (msL2_1 t) (hsL2_1 t) (msL2_2 t) (hsL2_2 t) (msL2_3 t) (hsL2_3 t) (msL2_4 t) (hsL2_4 t) accL2 (Memref.isWhole_whole _) (fun h => h0 ((hcondL2_0 t).mp h)) ((hcondL2_1 t).mpr h1) (lblk V c t) (ablk V c t) (wlblk V c t) (wablk V c t) (accAt V c (t.val - 1) (Nat.lt_of_le_of_lt (Nat.sub_le _ _) t.isLt))) (ix2 p q)).trans ?_
  refine (pay4L2_apply _ p q).trans ?_
  refine congrArg (max · 0) ?_
  refine (pay3L2_apply _ _ _ p q).trans ?_
  refine congrArg (· + psa V c t p q) ?_
  exact pay2L2_apply _ _ _ p q

/-- The output block of a row block's last point, at (p, q): zero plus the eight partial sums of the row block's four
    points in order, clamped below at zero. -/
theorem out_closed (c : Dev nD) (t0 t1 t2 t3 : Fin cfg1.N) (h0 : t0.val % 4 = 0) (e1 : t0.val + 1 = t1.val) (e2 : t1.val + 1 = t2.val)
    (e3 : t2.val + 1 = t3.val) (p : Fin 1024) (q : Fin 256) :
    ((outsAtL2 V c t3.val t3.isLt).1 : Vec Ideal S1024x256 .f32) (ix2 p q)
      = max ((((((((0 + psl V c t0 p q) + psa V c t0 p q) + psl V c t1 p q) + psa V c t1 p q) + psl V c t2 p q) + psa V c t2 p q)
          + psl V c t3 p q) + psa V c t3 p q) 0 := by
  rw [out_last V c t2 t3 e3 (by omega) p q, acc_step V c t1 t2 e2 (by omega) p q, acc_step V c t0 t1 e1 (by omega) p q,
    acc_first V c t0 h0 p q]

/-! ## From the blocks to the array -/

/-- What the output array ends holding: the layer of the four arrays the region found. -/
def GL2 (c : Dev nD) : (⟨S4096x256, .f32⟩ : BufTy).Contents (Elt Ideal) := fun i =>
  layer2 (fun n j => (V c main_v20 : (⟨S4096x4096, .bf16⟩ : BufTy).Contents (Elt Ideal)) (ix2 n j))
    (fun n j => (V c main_v11 : (⟨S4096x4096, .bf16⟩ : BufTy).Contents (Elt Ideal)) (ix2 n j))
    (fun o j => (V c main_v17 : (⟨S256x4096, .bf16⟩ : BufTy).Contents (Elt Ideal)) (ix2 o j))
    (fun o j => (V c main_v19 : (⟨S256x4096, .bf16⟩ : BufTy).Contents (Elt Ideal)) (ix2 o j)) (i 0) (i 1)

/-- It at an index whose coordinates are n and o. -/
theorem GL2_apply (c : Dev nD) (i : S4096x256.Idx) (n : Fin 4096) (o : Fin 256) (hn : (i 0).val = n.val) (ho : (i 1).val = o.val) :
    GL2 V c i = layer2 (fun n j => (V c main_v20 : (⟨S4096x4096, .bf16⟩ : BufTy).Contents (Elt Ideal)) (ix2 n j))
      (fun n j => (V c main_v11 : (⟨S4096x4096, .bf16⟩ : BufTy).Contents (Elt Ideal)) (ix2 n j))
      (fun o j => (V c main_v17 : (⟨S256x4096, .bf16⟩ : BufTy).Contents (Elt Ideal)) (ix2 o j))
      (fun o j => (V c main_v19 : (⟨S256x4096, .bf16⟩ : BufTy).Contents (Elt Ideal)) (ix2 o j)) n o := by
  obtain rfl : i = ix2 n o := funext fun a => Fin.ext (by match a with | ⟨0, _⟩ => exact hn | ⟨1, _⟩ => exact ho)
  rfl

/-- The four arrays behind the input windows, at their literal types: the first layer's result, the aggregated
    features, and the two halves of the second weight matrix. -/
abbrev larr (c : Dev nD) : Vec Ideal S4096x4096 .bf16 := V c main_v20
abbrev aarr (c : Dev nD) : Vec Ideal S4096x4096 .bf16 := V c main_v11
abbrev wlarr (c : Dev nD) : Vec Ideal S256x4096 .bf16 := V c main_v17
abbrev waarr (c : Dev nD) : Vec Ideal S256x4096 .bf16 := V c main_v19

/-- The left partial sum of point t = 4·i + k is slab k of row block i's left sum. -/
theorem psl_eq (c : Dev nD) (t : Fin cfg1.N) (p : Fin 1024) (q : Fin 256) (i k : Fin 4) (hi : biL2 t = i) (hk : bkL2 t = k) :
    psl V c t p q = ∑ j : Fin 1024, larr V c (ix2 (slab i p) (slab k j)) * wlarr V c (ix2 q (slab k j)) := by
  subst hi hk
  unfold psl
  refine Finset.sum_congr rfl fun j _ => ?_
  have e0 : lblk V c t (ix2 p j) = larr V c (ix2 (slab (biL2 t) p) (slab (bkL2 t) j)) := readL2_0 V c t p j
  have e2 : wlblk V c t (ix2 q j) = wlarr V c (ix2 q (slab (bkL2 t) j)) := readL2_2 V c t q j
  rw [e0, e2]

/-- The aggregated partial sum likewise. -/
theorem psa_eq (c : Dev nD) (t : Fin cfg1.N) (p : Fin 1024) (q : Fin 256) (i k : Fin 4) (hi : biL2 t = i) (hk : bkL2 t = k) :
    psa V c t p q = ∑ j : Fin 1024, aarr V c (ix2 (slab i p) (slab k j)) * waarr V c (ix2 q (slab k j)) := by
  subst hi hk
  unfold psa
  refine Finset.sum_congr rfl fun j _ => ?_
  have e1 : ablk V c t (ix2 p j) = aarr V c (ix2 (slab (biL2 t) p) (slab (bkL2 t) j)) := readL2_1 V c t p j
  have e3 : wablk V c t (ix2 q j) = waarr V c (ix2 q (slab (bkL2 t) j)) := readL2_3 V c t q j
  rw [e1, e3]

/-- What a row block's last point writes back is its block of the layer. -/
theorem flushedL2_eq (c : Dev nD) (t : Fin cfg1.N) (hf : (cfg1.win 4).flush t = true) :
    (datL2 V c).flushed 4 t = ((cfg1.win 4).blk t).view.read (Elt Ideal) (GL2 V c) := by
  have hN : cfg1.N = 16 := N_1
  have h3 : t.val % 4 = 3 := (flush1_4 t).mp hf
  have htl : t.val < 16 := ltL2 t
  obtain ⟨e0, e1⟩ := idxL2_4 t
  show (cfg1.win 4).cut (grid1.coords t) ((datL2 V c).after 4 t) = _
  rw [afterL2_4]
  funext j
  have hp : (j 0).val < 1024 := (j 0).isLt
  have hq : (j 1).val < 256 := (j 1).isLt
  show ((outsAtL2 V c t.val t.isLt).1 : Vec Ideal S1024x256 .f32) ((cfg1.win 4).xinj (grid1.coords t) j) = GL2 V c (((cfg1.win 4).blk t).view.emb j)
  have ej : ((cfg1.win 4).xinj (grid1.coords t) j : S1024x256.Idx) = ix2 (⟨(j 0).val, hp⟩ : Fin 1024) (⟨(j 1).val, hq⟩ : Fin 256) :=
    funext fun a => Fin.ext (by match a with | ⟨0, _⟩ => rfl | ⟨1, _⟩ => rfl)
  rw [ej]
  refine Eq.trans ?_ (GL2_apply V c _ (slab (biL2 t) ⟨(j 0).val, hp⟩) ⟨(j 1).val, hq⟩ ?_ ?_).symm
  · -- the three points before t in the row block
    let t2 : Fin cfg1.N := ⟨t.val - 1, by omega⟩
    let t1 : Fin cfg1.N := ⟨t.val - 2, by omega⟩
    let t0 : Fin cfg1.N := ⟨t.val - 3, by omega⟩
    rw [out_closed V c t0 t1 t2 t (by show (t.val - 3) % 4 = 0; omega) (by show t.val - 3 + 1 = t.val - 2; omega)
      (by show t.val - 2 + 1 = t.val - 1; omega) (by show t.val - 1 + 1 = t.val; omega)]
    have b0 : biL2 t0 = biL2 t := Fin.ext (by show (t.val - 3) / 4 = t.val / 4; omega)
    have b1 : biL2 t1 = biL2 t := Fin.ext (by show (t.val - 2) / 4 = t.val / 4; omega)
    have b2 : biL2 t2 = biL2 t := Fin.ext (by show (t.val - 1) / 4 = t.val / 4; omega)
    have k0 : bkL2 t0 = 0 := Fin.ext (by show (t.val - 3) % 4 = 0; omega)
    have k1 : bkL2 t1 = 1 := Fin.ext (by show (t.val - 2) % 4 = 1; omega)
    have k2 : bkL2 t2 = 2 := Fin.ext (by show (t.val - 1) % 4 = 2; omega)
    have k3 : bkL2 t = 3 := Fin.ext (by show t.val % 4 = 3; omega)
    rw [psl_eq V c t0 _ _ _ _ b0 k0, psa_eq V c t0 _ _ _ _ b0 k0, psl_eq V c t1 _ _ _ _ b1 k1, psa_eq V c t1 _ _ _ _ b1 k1,
      psl_eq V c t2 _ _ _ _ b2 k2, psa_eq V c t2 _ _ _ _ b2 k2, psl_eq V c t _ _ _ _ rfl k3, psa_eq V c t _ _ _ _ rfl k3]
    exact congrArg (max · 0) (fold_slabs
      (fun x => larr V c (ix2 (slab (biL2 t) ⟨(j 0).val, hp⟩) x) * wlarr V c (ix2 (⟨(j 1).val, hq⟩ : Fin 256) x))
      (fun x => aarr V c (ix2 (slab (biL2 t) ⟨(j 0).val, hp⟩) x) * waarr V c (ix2 (⟨(j 1).val, hq⟩ : Fin 256) x)))
  · show win1_4.index t 0 * 1024 + 1 * (j 0).val = 1024 * (t.val / 4) + (j 0).val
    rw [e0]; omega
  · show win1_4.index t 1 * 256 + 1 * (j 1).val = (j 1).val
    rw [e1]; omega

/-- The array the second layer's region leaves behind its output window, at (n, o): the layer of Spec.lean over the
    arrays behind its four input windows as the region found them (the first layer's result, the aggregated
    features, and the two halves of W2). -/
theorem finalL2 (c : Dev nD) (n : Fin 4096) (o : Fin 256) :
    ((datL2 (F := Ideal) V c).arrAt 4 cfg1.N : (⟨S4096x256, .f32⟩ : BufTy).Contents (Elt Ideal)) (ix2 n o)
      = layer2 (fun n j => (V c main_v20 : (⟨S4096x4096, .bf16⟩ : BufTy).Contents (Elt Ideal)) (ix2 n j))
          (fun n j => (V c main_v11 : (⟨S4096x4096, .bf16⟩ : BufTy).Contents (Elt Ideal)) (ix2 n j))
          (fun o j => (V c main_v17 : (⟨S256x4096, .bf16⟩ : BufTy).Contents (Elt Ideal)) (ix2 o j))
          (fun o j => (V c main_v19 : (⟨S256x4096, .bf16⟩ : BufTy).Contents (Elt Ideal)) (ix2 o j)) n o := by
  rw [(datL2 (F := Ideal) V c).arrAt_eq_of_cover 4 (GL2 V c) (fun t hf => flushedL2_eq V c t hf) coverL2]
  rfl

end Cert.KernelIdeal.Val

end
-- ==== Proof.HostEntry.lean ====
/-
  What the host operations before the first region leave in the arrays the two regions read, at the ideal instance,
  as functions of the arguments: x cast to the narrow format (the identity here) is x; the aggregated neighbour
  features, cast, are the reference's own aggregated features of the same index and embedding arguments (the same
  operations, spelt in the other program's names); the four weight operands are the left and the right halves of
  W1's and of W2's columns.
-/
import proofs.«116527_j78125455114733_1_alg».proof.Proof.Gen.KernelIdeal.Regions
import proofs.«116527_j78125455114733_1_alg».proof.Proof.Gen.ReferenceIdeal.Read
import proofs.«116527_j78125455114733_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Val

open Idealize.ShloMosaic Idealize.ShloMosaic.TcCoe Idealize.SL.Sem Idealize.ShloMosaic.StableHlo
open Idealize.ShloMosaic.ValueIdx
open Cert.KernelIdeal.Gen
open Cert.Sage

variable (m : (ℓ : Loc nD τ sig) → Buf (Elt Ideal) ℓ)

/-- x, cast: x. -/
theorem entry_x (c : Dev nD) (n j : Fin 4096) :
    (Gen.V1 m c main_v10 : (⟨S4096x4096, .bf16⟩ : BufTy).Contents (Elt Ideal)) (ix2 n j)
      = (m ((c.tc : Thread nD τ).loc main_arg0) : (⟨S4096x4096, .f32⟩ : BufTy).Contents (Elt Ideal)) (ix2 n j) := by
  dsimp only [Gen.V1, Gen.V0, hostOps0]
  after_results
  rfl

/-- The aggregated features, cast: the reference's aggregated features of the same arguments. -/
theorem entry_agg (c : Dev nD) (n j : Fin 4096) :
    (Gen.V1 m c main_v11 : (⟨S4096x4096, .bf16⟩ : BufTy).Contents (Elt Ideal)) (ix2 n j)
      = Cert.ReferenceIdeal.Read.val_main_v9 (F := Ideal) (m ((c.tc : Thread nD τ).loc main_arg1)) (m ((c.tc : Thread nD τ).loc main_arg2)) (ix2 n j) := by
  dsimp only [Gen.V1, Gen.V0, hostOps0]
  after_results
  rw [ValueIdx.truncf_apply]
  -- the same operations on the same arguments, spelt in the other program's names
  simp only [Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_c, Cert.ReferenceIdeal.Read.val_main_c_0, Cert.ReferenceIdeal.Read.val_main_cst, Cert.ReferenceIdeal.Read.val_main_cst_1]
  rfl

/-- W1's left half of columns, cast. -/
theorem entry_w1l (c : Dev nD) (o j : Fin 4096) :
    (Gen.V1 m c main_v13 : (⟨S4096x4096, .bf16⟩ : BufTy).Contents (Elt Ideal)) (ix2 o j)
      = (m ((c.tc : Thread nD τ).loc main_arg3) : (⟨S4096x8192, .f32⟩ : BufTy).Contents (Elt Ideal)) (ix2 o (lo j)) := by
  dsimp only [Gen.V1, Gen.V0, hostOps0]
  after_results
  rw [ValueIdx.truncf_apply]
  -- a slice at offset (0, 0) read at (o, j) is the whole array at (o, j)
  exact extractStridedSlice_apply _ _ _ (ix2 o j) (ix2 o (lo j)) (fun a => by
    match a with
    | ⟨0, _⟩ => exact (Nat.zero_add _).symm
    | ⟨1, _⟩ => exact (Nat.zero_add _).symm)

/-- W1's right half of columns, cast. -/
theorem entry_w1r (c : Dev nD) (o j : Fin 4096) :
    (Gen.V1 m c main_v15 : (⟨S4096x4096, .bf16⟩ : BufTy).Contents (Elt Ideal)) (ix2 o j)
      = (m ((c.tc : Thread nD τ).loc main_arg3) : (⟨S4096x8192, .f32⟩ : BufTy).Contents (Elt Ideal)) (ix2 o (hi j)) := by
  dsimp only [Gen.V1, Gen.V0, hostOps0]
  after_results
  rw [ValueIdx.truncf_apply]
  -- a slice at offset (0, 4096) read at (o, j) is the whole array at (o, 4096 + j)
  exact extractStridedSlice_apply _ _ _ (ix2 o j) (ix2 o (hi j)) (fun a => by
    match a with
    | ⟨0, _⟩ => exact (Nat.zero_add _).symm
    | ⟨1, _⟩ => rfl)

/-- W2's left half of columns, cast. -/
theorem entry_w2l (c : Dev nD) (o : Fin 256) (j : Fin 4096) :
    (Gen.V1 m c main_v17 : (⟨S256x4096, .bf16⟩ : BufTy).Contents (Elt Ideal)) (ix2 o j)
      = (m ((c.tc : Thread nD τ).loc main_arg4) : (⟨S256x8192, .f32⟩ : BufTy).Contents (Elt Ideal)) (ix2 o (lo j)) := by
  dsimp only [Gen.V1, Gen.V0, hostOps0]
  after_results
  rw [ValueIdx.truncf_apply]
  -- a slice at offset (0, 0) read at (o, j) is the whole array at (o, j)
  exact extractStridedSlice_apply _ _ _ (ix2 o j) (ix2 o (lo j)) (fun a => by
    match a with
    | ⟨0, _⟩ => exact (Nat.zero_add _).symm
    | ⟨1, _⟩ => exact (Nat.zero_add _).symm)

/-- W2's right half of columns, cast. -/
theorem entry_w2r (c : Dev nD) (o : Fin 256) (j : Fin 4096) :
    (Gen.V1 m c main_v19 : (⟨S256x4096, .bf16⟩ : BufTy).Contents (Elt Ideal)) (ix2 o j)
      = (m ((c.tc : Thread nD τ).loc main_arg4) : (⟨S256x8192, .f32⟩ : BufTy).Contents (Elt Ideal)) (ix2 o (hi j)) := by
  dsimp only [Gen.V1, Gen.V0, hostOps0]
  after_results
  rw [ValueIdx.truncf_apply]
  -- a slice at offset (0, 4096) read at (o, j) is the whole array at (o, 4096 + j)
  exact extractStridedSlice_apply _ _ _ (ix2 o j) (ix2 o (hi j)) (fun a => by
    match a with
    | ⟨0, _⟩ => exact (Nat.zero_add _).symm
    | ⟨1, _⟩ => rfl)

end Cert.KernelIdeal.Val

end
-- ==== Proof.Bridge.lean ====
/-
  The idealized kernel's result is the network of Spec.lean applied to its arguments. The second region leaves one
  layer over the arrays it found: the first region's result, the aggregated features and W2's halves; the first
  region's result is one layer over x, the aggregated features and W1's halves; and the arrays the host
  operations prepared are the arguments themselves (a cast that changes nothing, a slice of the columns) or the
  aggregated features, which are the reference's own. So the result at (n, o) is the two-layer network there, the
  same function the reference computes.
-/
import proofs.«116527_j78125455114733_1_alg».proof.Proof.Ideal.Run
import proofs.«116527_j78125455114733_1_alg».proof.Proof.Ideal.L1Value
import proofs.«116527_j78125455114733_1_alg».proof.Proof.Ideal.L2Value
import proofs.«116527_j78125455114733_1_alg».proof.Proof.HostEntry

noncomputable section

namespace Cert.KernelIdeal.Val

open Idealize.ShloMosaic Idealize.ShloMosaic.TcCoe Idealize.SL.Sem
open Idealize.ShloMosaic.ValueIdx
open Cert.KernelIdeal.Gen Cert.KernelIdeal.Frm
open Cert.Sage

variable (m : (ℓ : Loc nD τ sig) → Buf (Elt Ideal) ℓ)

/-- The network over the kernel's arguments on core `c`, with the reference's aggregated features of the index and
    embedding arguments. -/
def netOf (c : Dev nD) (n : Fin 4096) (o : Fin 256) : EReal :=
  net (fun n j => (m ((c.tc : Thread nD τ).loc main_arg0) : (⟨S4096x4096, .f32⟩ : BufTy).Contents (Elt Ideal)) (ix2 n j))
    (fun n j => Cert.ReferenceIdeal.Read.val_main_v9 (F := Ideal) (m ((c.tc : Thread nD τ).loc main_arg1)) (m ((c.tc : Thread nD τ).loc main_arg2)) (ix2 n j))
    (fun o k => (m ((c.tc : Thread nD τ).loc main_arg3) : (⟨S4096x8192, .f32⟩ : BufTy).Contents (Elt Ideal)) (ix2 o k))
    (fun o k => (m ((c.tc : Thread nD τ).loc main_arg4) : (⟨S256x8192, .f32⟩ : BufTy).Contents (Elt Ideal)) (ix2 o k)) n o

/-- Entering the second region, the first layer's result at (n, j) is the first layer of the network. -/
theorem hidden_at (c : Dev nD) (n j : Fin 4096) :
    (Frm.V2 m c main_v20 : (⟨S4096x4096, .bf16⟩ : BufTy).Contents (Elt Ideal)) (ix2 n j)
      = layer (fun n j => (m ((c.tc : Thread nD τ).loc main_arg0) : (⟨S4096x4096, .f32⟩ : BufTy).Contents (Elt Ideal)) (ix2 n j)) (fun n j => Cert.ReferenceIdeal.Read.val_main_v9 (F := Ideal) (m ((c.tc : Thread nD τ).loc main_arg1)) (m ((c.tc : Thread nD τ).loc main_arg2)) (ix2 n j)) (fun o k => (m ((c.tc : Thread nD τ).loc main_arg3) : (⟨S4096x8192, .f32⟩ : BufTy).Contents (Elt Ideal)) (ix2 o k)) n j := by
  have hx : (fun n j : Fin 4096 => (Frm.V1 m c main_v10 : (⟨S4096x4096, .bf16⟩ : BufTy).Contents (Elt Ideal)) (ix2 n j)) = fun n j => (m ((c.tc : Thread nD τ).loc main_arg0) : (⟨S4096x4096, .f32⟩ : BufTy).Contents (Elt Ideal)) (ix2 n j) := by
    funext n j; exact entry_x m c n j
  have ha : (fun n j : Fin 4096 => (Frm.V1 m c main_v11 : (⟨S4096x4096, .bf16⟩ : BufTy).Contents (Elt Ideal)) (ix2 n j)) = fun n j => Cert.ReferenceIdeal.Read.val_main_v9 (F := Ideal) (m ((c.tc : Thread nD τ).loc main_arg1)) (m ((c.tc : Thread nD τ).loc main_arg2)) (ix2 n j) := by
    funext n j; exact entry_agg m c n j
  have hl : (fun o j : Fin 4096 => (Frm.V1 m c main_v13 : (⟨S4096x4096, .bf16⟩ : BufTy).Contents (Elt Ideal)) (ix2 o j)) = fun o j => (m ((c.tc : Thread nD τ).loc main_arg3) : (⟨S4096x8192, .f32⟩ : BufTy).Contents (Elt Ideal)) (ix2 o (lo j)) := by
    funext o j; exact entry_w1l m c o j
  have hr : (fun o j : Fin 4096 => (Frm.V1 m c main_v15 : (⟨S4096x4096, .bf16⟩ : BufTy).Contents (Elt Ideal)) (ix2 o j)) = fun o j => (m ((c.tc : Thread nD τ).loc main_arg3) : (⟨S4096x8192, .f32⟩ : BufTy).Contents (Elt Ideal)) (ix2 o (hi j)) := by
    funext o j; exact entry_w1r m c o j
  rw [show (Frm.V2 m c main_v20 : (⟨S4096x4096, .bf16⟩ : BufTy).Contents (Elt Ideal)) = ((datL1 (F := Ideal) (Frm.V1 m) c).arrAt 4 cfg0.N : (⟨S4096x4096, .bf16⟩ : BufTy).Contents (Elt Ideal)) from V2_hidden m c]
  rw [finalL1 (Frm.V1 m) c n j, hx, ha, hl, hr]
  rfl

/-- The array the second region leaves behind its output window is the network of the arguments. -/
theorem result_at (c : Dev nD) (n : Fin 4096) (o : Fin 256) :
    ((datL2 (F := Ideal) (Frm.V2 m) c).arrAt 4 cfg1.N : (⟨S4096x256, .f32⟩ : BufTy).Contents (Elt Ideal)) (ix2 n o) = netOf m c n o := by
  have hh : (fun n j : Fin 4096 => (Frm.V2 m c main_v20 : (⟨S4096x4096, .bf16⟩ : BufTy).Contents (Elt Ideal)) (ix2 n j))
      = fun n j => layer (fun n j => (m ((c.tc : Thread nD τ).loc main_arg0) : (⟨S4096x4096, .f32⟩ : BufTy).Contents (Elt Ideal)) (ix2 n j)) (fun n j => Cert.ReferenceIdeal.Read.val_main_v9 (F := Ideal) (m ((c.tc : Thread nD τ).loc main_arg1)) (m ((c.tc : Thread nD τ).loc main_arg2)) (ix2 n j)) (fun o k => (m ((c.tc : Thread nD τ).loc main_arg3) : (⟨S4096x8192, .f32⟩ : BufTy).Contents (Elt Ideal)) (ix2 o k)) n j := by
    funext n j; exact hidden_at m c n j
  have ha : (fun n j : Fin 4096 => (Frm.V2 m c main_v11 : (⟨S4096x4096, .bf16⟩ : BufTy).Contents (Elt Ideal)) (ix2 n j)) = fun n j => Cert.ReferenceIdeal.Read.val_main_v9 (F := Ideal) (m ((c.tc : Thread nD τ).loc main_arg1)) (m ((c.tc : Thread nD τ).loc main_arg2)) (ix2 n j) := by
    funext n j
    rw [show (Frm.V2 m c main_v11 : (⟨S4096x4096, .bf16⟩ : BufTy).Contents (Elt Ideal)) = (Frm.V1 m c main_v11 : (⟨S4096x4096, .bf16⟩ : BufTy).Contents (Elt Ideal)) from V2_agg m c]
    exact entry_agg m c n j
  have hl : (fun (o : Fin 256) (j : Fin 4096) => (Frm.V2 m c main_v17 : (⟨S256x4096, .bf16⟩ : BufTy).Contents (Elt Ideal)) (ix2 o j)) = fun o j => (m ((c.tc : Thread nD τ).loc main_arg4) : (⟨S256x8192, .f32⟩ : BufTy).Contents (Elt Ideal)) (ix2 o (lo j)) := by
    funext o j
    rw [show (Frm.V2 m c main_v17 : (⟨S256x4096, .bf16⟩ : BufTy).Contents (Elt Ideal)) = (Frm.V1 m c main_v17 : (⟨S256x4096, .bf16⟩ : BufTy).Contents (Elt Ideal)) from V2_w2l m c]
    exact entry_w2l m c o j
  have hr : (fun (o : Fin 256) (j : Fin 4096) => (Frm.V2 m c main_v19 : (⟨S256x4096, .bf16⟩ : BufTy).Contents (Elt Ideal)) (ix2 o j)) = fun o j => (m ((c.tc : Thread nD τ).loc main_arg4) : (⟨S256x8192, .f32⟩ : BufTy).Contents (Elt Ideal)) (ix2 o (hi j)) := by
    funext o j
    rw [show (Frm.V2 m c main_v19 : (⟨S256x4096, .bf16⟩ : BufTy).Contents (Elt Ideal)) = (Frm.V1 m c main_v19 : (⟨S256x4096, .bf16⟩ : BufTy).Contents (Elt Ideal)) from V2_w2r m c]
    exact entry_w2r m c o j
  rw [finalL2 (Frm.V2 m) c n o, hh, ha, hl, hr]
  rfl

/-- The result array as one function: at every index the network's value. -/
def resultOf (c : Dev nD) : Buf (Elt Ideal) ((c.tc : Thread nD τ).loc main_v21) :=
  (fun i => netOf m c (i 0) (i 1) : (⟨S4096x256, .f32⟩ : BufTy).Contents (Elt Ideal))

theorem result_eq (c : Dev nD) : (datL2 (F := Ideal) (Frm.V2 m) c).arrAt 4 cfg1.N = resultOf m c := by
  funext i
  obtain ⟨n, o, rfl⟩ : ∃ (n : Fin 4096) (o : Fin 256), i = ix2 n o := ⟨i 0, i 1, eq_ix2 i⟩
  exact result_at m c n o

end Cert.KernelIdeal.Val

end
-- ==== Proof.RefSide.lean ====
/-
  The reference computes the network of Spec.lean: its aggregated features a are its own host operations' term
  (a gather of embedding rows by the neighbour indices, their sum over the six neighbours, divided by six); its
  first layer is relu of the concatenation [x | a] contracted with W1ᵀ, its second relu of [h | a] with W2ᵀ.
  Read index by index, each contraction over the joined axis of 8192 splits into its two halves.
-/
import proofs.«116527_j78125455114733_1_alg».proof.Proof.Gen.ReferenceIdeal.Run
import proofs.«116527_j78125455114733_1_alg».proof.Proof.Gen.ReferenceIdeal.Read
import proofs.«116527_j78125455114733_1_alg».proof.Proof.Spec
import Idealize.ShloMosaic.Lib.ValueIdx
import Idealize.ShloMosaic.Lib.Pipeline.Value
import Idealize.ShloMosaic.PureOps.Ideal.Laws

noncomputable section

namespace Cert.ReferenceIdeal.RefSpec

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.Sage

/-- The joined array [l | a] at a column of its left half is l there. -/
private theorem cat_lo (l a : S4096x4096.Idx → EReal) (h : Shape.Concatenates [S4096x4096, S4096x4096] S4096x8192 1)
    (n j : Fin 4096) :
    concatenate S4096x8192 1 [⟨S4096x4096, l⟩, ⟨S4096x4096, a⟩] h (ix2 n (lo j)) = l (ix2 n j) :=
  concatenate_pair_apply_left 1 l a h _ rfl _ (fun b => by
    match b with
    | ⟨0, _⟩ => rfl
    | ⟨1, _⟩ => rfl)

/-- The joined array [l | a] at a column of its right half is a at that column less 4096. -/
private theorem cat_hi (l a : S4096x4096.Idx → EReal) (h : Shape.Concatenates [S4096x4096, S4096x4096] S4096x8192 1)
    (n j : Fin 4096) :
    concatenate S4096x8192 1 [⟨S4096x4096, l⟩, ⟨S4096x4096, a⟩] h (ix2 n (hi j)) = a (ix2 n j) :=
  concatenate_pair_apply_right 1 l a h _ rfl rfl _
    (fun b hb => by
      match b with
      | ⟨0, _⟩ => rfl
      | ⟨1, _⟩ => exact absurd rfl hb)
    (Nat.add_comm _ _)

/-- Row n of [l | a] against row o of a weight matrix [O, 8192], summed over the joined axis, is the sum over the
    left half of l's products plus the sum over the right half of a's. -/
private theorem halves_sum {O : ℕ} (l a : S4096x4096.Idx → EReal) (h : Shape.Concatenates [S4096x4096, S4096x4096] S4096x8192 1)
    (w : (⟨2, ![O, 8192]⟩ : Shape).Idx → EReal) (n : Fin 4096) (o : Fin O) :
    ∑ k : Fin 8192, concatenate S4096x8192 1 [⟨S4096x4096, l⟩, ⟨S4096x4096, a⟩] h (ix2 n k) * w (ix2 o k)
      = (∑ j : Fin 4096, l (ix2 n j) * w (ix2 o (lo j))) + ∑ j : Fin 4096, a (ix2 n j) * w (ix2 o (hi j)) := by
  rw [sum_halves]
  simp only [cat_lo, cat_hi]

/-- The first layer of the reference at (n, o): relu of [x | a] contracted with W1ᵀ. -/
private theorem layer1_at
    (x0 : (⟨S4096x4096, .f32⟩ : BufTy).Contents (Elt Ideal)) (x1 : (⟨S4096x6, .i32⟩ : BufTy).Contents (Elt Ideal))
    (x2 : (⟨S4096x4096, .f32⟩ : BufTy).Contents (Elt Ideal)) (x3 : (⟨S4096x8192, .f32⟩ : BufTy).Contents (Elt Ideal))
    (n o : Fin 4096) :
    val_main_v13 (F := Ideal) x0 x1 x2 x3 (ix2 n o)
      = layer (fun n j => x0 (ix2 n j)) (fun n j => val_main_v9 (F := Ideal) x1 x2 (ix2 n j))
          (fun o k => x3 (ix2 o k)) n o := by
  rw [val_main_v13_apply, val_main_v12_apply, val_main_call0_v0_apply, val_main_call0_cst_apply,
    Ideal.maximumf_def, Ideal.ofBits_def, Ideal.ofBits_zero_f32]
  -- the contraction's operands at (n, o), k: row n of the joined array at column k, and W1 at (o, k)
  have el : ∀ k : Fin 8192, lidx_main_v12 (ix2 n o) k = ix2 n k := fun k => funext fun a => by
    match a with
    | ⟨0, _⟩ => rfl
    | ⟨1, _⟩ => rfl
  have er : ∀ k : Fin 8192, idx_main_v11 (ridx_main_v12 (ix2 n o) k) = ix2 o k := fun k => funext fun a => by
    match a with
    | ⟨0, _⟩ => rfl
    | ⟨1, _⟩ => rfl
  simp only [val_main_v11_apply, el, er]
  unfold val_main_v10
  generalize val_main_v9 (F := Ideal) x1 x2 = a
  rw [halves_sum x0 a _ x3 n o]
  rfl

/-- The reference's result at (n, o) is the network's value there, of the arguments read as matrices and the
    reference's own aggregated features. -/
theorem ref_is_net
    (x0 : (⟨S4096x4096, .f32⟩ : BufTy).Contents (Elt Ideal)) (x1 : (⟨S4096x6, .i32⟩ : BufTy).Contents (Elt Ideal))
    (x2 : (⟨S4096x4096, .f32⟩ : BufTy).Contents (Elt Ideal)) (x3 : (⟨S4096x8192, .f32⟩ : BufTy).Contents (Elt Ideal))
    (x4 : (⟨S256x8192, .f32⟩ : BufTy).Contents (Elt Ideal)) (n : Fin 4096) (o : Fin 256) :
    val_main_v17 (F := Ideal) x0 x1 x2 x3 x4 (ix2 n o)
      = net (fun n j => x0 (ix2 n j)) (fun n j => val_main_v9 (F := Ideal) x1 x2 (ix2 n j))
          (fun o k => x3 (ix2 o k)) (fun o k => x4 (ix2 o k)) n o := by
  rw [val_main_v17_apply, val_main_v16_apply, val_main_call1_v0_apply, val_main_call1_cst_apply,
    Ideal.maximumf_def, Ideal.ofBits_def, Ideal.ofBits_zero_f32]
  -- the contraction's operands at (n, o), k: row n of the joined array [h | a] at column k, and W2 at (o, k)
  have el : ∀ k : Fin 8192, lidx_main_v16 (ix2 n o) k = ix2 n k := fun k => funext fun a => by
    match a with
    | ⟨0, _⟩ => rfl
    | ⟨1, _⟩ => rfl
  have er : ∀ k : Fin 8192, idx_main_v15 (ridx_main_v16 (ix2 n o) k) = ix2 o k := fun k => funext fun a => by
    match a with
    | ⟨0, _⟩ => rfl
    | ⟨1, _⟩ => rfl
  simp only [val_main_v15_apply, el, er]
  unfold val_main_v14
  rw [halves_sum (val_main_v13 (F := Ideal) x0 x1 x2 x3) (val_main_v9 (F := Ideal) x1 x2) _ x4 n o]
  -- the left activation is the first layer's result
  simp only [layer1_at]
  generalize val_main_v9 (F := Ideal) x1 x2 = a
  rfl

end Cert.ReferenceIdeal.RefSpec

end
-- ==== Proof.lean ====
/-
  GraphSage with mean aggregation, two layers: agg = mean over the six sampled neighbours of their embedding rows;
  h = relu([x | agg] · W1ᵀ); out = relu([h | agg] · W2ᵀ). The kernel computes agg by the same host operations as the
  reference, and each layer as a Pallas call that never forms the concatenation: it multiplies x (resp. h) by the
  left half of the weight's columns and agg by the right half, slab by slab of 1024 along the contracted axis,
  accumulating in f32 and clamping at zero at the last slab; its narrow-format casts are identities over the
  extended reals. Both programs therefore compute the function `Cert.Sage.net` of the arguments: a sum over the
  joined axis of 8192 is the sum of its halves, and a sum accumulated slab by slab is the whole sum — only
  commutativity and associativity of addition, so nothing needs the inputs finite.

  The two kernel programs' frames (each terminates, faults nowhere, leaves its arguments unchanged) come from one
  run of the program's items — host operations, first region, second region — whose last state has every buffer at
  known contents; each region's body is run once per case (accumulator reset, accumulate, emit) and the
  accumulator's contents are carried from point to point by the region's invariant. The reference's frame and value
  are its generated run. `preserves` has nothing to state: the idealization rewrote no operation.
-/
import proofs.«116527_j78125455114733_1_alg».proof.Defs
import proofs.«116527_j78125455114733_1_alg».proof.Proof.Gen.Kernel
import proofs.«116527_j78125455114733_1_alg».proof.Proof.Gen.KernelIdeal
import proofs.«116527_j78125455114733_1_alg».proof.Proof.Gen.ReferenceIdeal
import proofs.«116527_j78125455114733_1_alg».proof.Proof.Gen.Pre_finite_inputs
import proofs.«116527_j78125455114733_1_alg».proof.Proof.Gen.ReferenceIdeal.Run
import proofs.«116527_j78125455114733_1_alg».proof.Proof.Bits.Run
import proofs.«116527_j78125455114733_1_alg».proof.Proof.Ideal.Run
import proofs.«116527_j78125455114733_1_alg».proof.Proof.Bridge
import proofs.«116527_j78125455114733_1_alg».proof.Proof.RefSide
import Idealize.ShloMosaic.Adequacy
import Idealize.ShloMosaic.Init

noncomputable section

namespace Cert.Proof

open Idealize.ShloMosaic Idealize.ShloMosaic.TcCoe Idealize.SL.Sem
open Idealize.ShloMosaic.ValueIdx

/-- The reference's result term, over the kernel's arguments, is the network's result function. -/
theorem ref_is_result (m : (ℓ : Loc Cert.KernelIdeal.nD Cert.KernelIdeal.τ Cert.KernelIdeal.sig) → Buf (Elt Ideal) ℓ) (c : Dev Cert.KernelIdeal.nD) :
    Cert.ReferenceIdeal.Read.val_main_v17 (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Val.resultOf m c := by
  funext i
  obtain ⟨n, o, rfl⟩ : ∃ (n : Fin 4096) (o : Fin 256), i = ix2 n o := ⟨i 0, i 1, eq_ix2 i⟩
  exact (Cert.ReferenceIdeal.RefSpec.ref_is_net _ _ _ _ _ n o).trans rfl

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the network's value of the (agreeing) arguments. -/
theorem algebraic : Cert.algebraic_KernelIdeal_ReferenceIdeal := by
  intro m ρ m' ρ' _ hagree
  refine ⟨fun c => Cert.KernelIdeal.Val.resultOf m c, ?_, ?_⟩
  · refine (θ_run Cert.KernelIdeal.defs _ _).mono (fun r h c => ⟨?_, ?_⟩) (Cert.KernelIdeal.Frm.run_main (F := Ideal) m ρ)
    · exact ((h c _ (Cert.KernelIdeal.Frm.mem_uc Cert.KernelIdeal.main_v21 (by decide))).trans (Cert.KernelIdeal.Frm.W3_result m c)).trans (Cert.KernelIdeal.Val.result_eq m c)
    · exact ⟨(h c _ (Cert.KernelIdeal.Frm.mem_uc Cert.KernelIdeal.main_arg0 (by decide))).trans (Cert.KernelIdeal.Frm.W3_main_arg0 m c),
        (h c _ (Cert.KernelIdeal.Frm.mem_uc Cert.KernelIdeal.main_arg1 (by decide))).trans (Cert.KernelIdeal.Frm.W3_main_arg1 m c),
        (h c _ (Cert.KernelIdeal.Frm.mem_uc Cert.KernelIdeal.main_arg2 (by decide))).trans (Cert.KernelIdeal.Frm.W3_main_arg2 m c),
        (h c _ (Cert.KernelIdeal.Frm.mem_uc Cert.KernelIdeal.main_arg3 (by decide))).trans (Cert.KernelIdeal.Frm.W3_main_arg3 m c),
        (h c _ (Cert.KernelIdeal.Frm.mem_uc Cert.KernelIdeal.main_arg4 (by decide))).trans (Cert.KernelIdeal.Frm.W3_main_arg4 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq]
    rw [(hagree c).1, (hagree c).2.1, (hagree c).2.2.1, (hagree c).2.2.2.1, (hagree c).2.2.2.2]
    exact ref_is_result m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
